-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_c_14 : IVec S_ 32 := constantI S_ 32 0#32
  let main_v38 : IVec S2x1600000 32 := broadcastInDim S2x1600000 ![] bcast_S_S2x1600000 main_c_14
  let main_v39 : IVec S2x1600000 1 := cmpi .sge main_arg1 main_v38
  let main_c_15 : IVec S_ 1 := constantI S_ 1 1#1
  let main_v40 : IVec S_ 1 := (fun x v => Host.reduce IntOp.andi x v reducesTo_S2x1600000_S_d0_1 h_S_) main_v39 main_c_15
  let main_v41 : IVec S_ 1 := andi main_v37 main_v40
  let main_c_16 : IVec S_ 32 := constantI S_ 32 100000#32
  let main_v42 : IVec S2x1600000 32 := broadcastInDim S2x1600000 ![] bcast_S_S2x1600000 main_c_16
  let main_v43 : IVec S2x1600000 1 := cmpi .slt main_arg1 main_v42
  let main_c_17 : IVec S_ 1 := constantI S_ 1 1#1
  let main_v44 : IVec S_ 1 := (fun x v => Host.reduce IntOp.andi x v reducesTo_S2x1600000_S_d0_1 h_S_) main_v43 main_c_17
  let main_v45 : IVec S_ 1 := andi main_v41 main_v44
  main_v45

def fn_part1 {F : FTy → Type} [FloatOps F] (main_arg1 : IVec S2x1600000 32) (main_arg5 : FVec F S64 .f32) (main_arg6 : FVec F S_ .f32) (main_arg7 : FVec F S64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S64 .f32 := Host.absf main_arg7
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg8
  fn_part2 (F := F) main_arg1 main_v32 main_v33

def fn {F : FTy → Type} [FloatOps F] (main_arg0 : FVec F S100000x64 .f32) (main_arg1 : IVec S2x1600000 32) (main_arg2 : FVec F S128x64 .f32) (main_arg3 : FVec F S64 .f32) (main_arg4 : FVec F S128x64 .f32) (main_arg5 : FVec F S64 .f32) (main_arg6 : FVec F S_ .f32) (main_arg7 : FVec F S64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩
abbrev S64x64 : Shape := ⟨2, ![64, 64]⟩
abbrev S64x128 : Shape := ⟨2, ![64, 128]⟩
abbrev S128 : Shape := ⟨1, ![128]⟩
abbrev S100000x128 : Shape := ⟨2, ![100000, 128]⟩
abbrev S10000x64 : Shape := ⟨2, ![10000, 64]⟩
abbrev S10000x128 : Shape := ⟨2, ![10000, 128]⟩
abbrev S1x128 : Shape := ⟨2, ![1, 128]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 71
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S64x64, .f32⟩
  | .hbm, ⟨14, _⟩ => ⟨S64x64, .f32⟩
  | .hbm, ⟨15, _⟩ => ⟨S64x128, .f32⟩
  | .hbm, ⟨16, _⟩ => ⟨S_, .f32⟩
  | .hbm, ⟨17, _⟩ => ⟨S64, .f32⟩
  | .hbm, ⟨18, _⟩ => ⟨S128, .f32⟩
  | .hbm, ⟨19, _⟩ => ⟨S100000x128, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x64, .f32⟩
  | .hbm, ⟨41, _⟩ => ⟨S1600000x64, .i1⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x128, .f32⟩
  | .hbm, ⟨60, _⟩ => ⟨S1x1, .f32⟩
  | .hbm, ⟨61, _⟩ => ⟨S100000x64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x64, .f32⟩
  | .local _ .vmem, ⟨9, _⟩ => ⟨S64, .f32⟩
  | .local _ .vmem, ⟨10, _⟩ => ⟨S1x1, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | .local _ .vmem, ⟨16, _⟩ => ⟨S64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v12 : Ref sig .tc := ⟨.hbm, 44, rfl⟩
abbrev main_cst_0 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26_0 : Ref sig .tc := ⟨.hbm, 61, rfl⟩
abbrev main_v26_1 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S128x64_S64x64_0_0 : S128x64.Slices ![0, 0] S64x64
  slices_S128x64_S64x64_64_0 : S128x64.Slices ![64, 0] S64x64
  concatenates_S64x64_S64x64_S64x128_d1 : Shape.Concatenates [S64x64, S64x64] S64x128 1
  bcast_S_S64 : S_.BroadcastsInDim S64 (![] : Fin 0 → Fin S64.rank)
  concatenates_S64_S64_S128_d0 : Shape.Concatenates [S64, S64] S128 0
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S100000x128_S100000x64_0_0 : S100000x128.Slices ![0, 0] S100000x64
  slices_S100000x128_S100000x64_0_64 : S100000x128.Slices ![0, 64] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  shapeCasts_S_S1x1 : S_.ShapeCasts S1x1
  inb_S64_S64_0 : ∀ a, (![0] : Fin 1 → Nat) a + S64.size a ≤ S64.size a
  h_S64 : 0 < S64.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S64_S1x64 : S64.ShapeCasts S1x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64_S64 : S64.ShapeCasts S64
  reduces_S10000x64_S64 : S10000x64.Reduces [0] S64
  shapeCasts_S10000x64_S10000x64 : S10000x64.ShapeCasts S10000x64
  dot_S10000x64_S64x128_S10000x128_1_0_0_1_n_n_wf : DotDims.WF S10000x64 S64x128 S10000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26_1) S64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S100000x128 : Shape := ⟨2, ![100000, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x128, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x128, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .i1⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostChain.lean ====
/-
  What each launch of the idealized kernel finds in its input windows, read back through the host operations that
  run between the launches.

  Before the first launch the host cuts the 128 × 64 edge weights into their upper and lower halves and lays them side
  by side (a 64 × 128 matrix), and puts 64 zeros in front of the edge bias (a 128-vector). After it, the host takes
  the left and right halves `P` and `Q` of the 100000 × 128 projection, gathers the rows of `P` the source column
  of the edge list names, sums them onto the rows the destination column names, counts the edges arriving at each node
  the same way, and adds count × `Q`: the aggregated messages. Beside the node features they are what the second launch
  reads. The third and fourth launches read the second's outputs and the two column statistics divided by 100000.
-/
import proofs.«407081_j76914274337220_2_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Chain

open Cert.KernelIdeal Cert.KernelIdeal.Gen

variable {F : FTy → Type} [FloatOps F]

/-! ## The host's pure functions -/

/-- The source column of the edge list. -/
def srcOf (ei : IVec S2x1600000 32) : IVec S1600000 32 :=
  shapeCast S1600000 (extractStridedSlice S1x1600000 ![0, 0] ei slices_S2x1600000_S1x1600000_0_0) shapeCasts_S1x1600000_S1600000

/-- The destination column of the edge list. -/
def dstOf (ei : IVec S2x1600000 32) : IVec S1600000 32 :=
  shapeCast S1600000 (extractStridedSlice S1x1600000 ![1, 0] ei slices_S2x1600000_S1x1600000_1_0) shapeCasts_S1x1600000_S1600000

/-- The two halves of the edge weights side by side. -/
def wideWeights (We : FVec F S128x64 .f32) : FVec F S64x128 .f32 :=
  concatenate S64x128 1 [⟨S64x64, extractStridedSlice S64x64 ![0, 0] We slices_S128x64_S64x64_0_0⟩,
    ⟨S64x64, extractStridedSlice S64x64 ![64, 0] We slices_S128x64_S64x64_64_0⟩] concatenates_S64x64_S64x64_S64x128_d1

/-- Sixty-four zeros, then the edge bias. -/
def wideBias (be : FVec F S64 .f32) : FVec F S128 .f32 :=
  concatenate S128 0 [⟨S64, broadcastInDim S64 ![] bcast_S_S64 (constant S_ .f32 0x00000000#32)⟩, ⟨S64, be⟩] concatenates_S64_S64_S128_d0

/-- Rows of `P` taken at the indices `src`: a negative index counted from the end, a row outside the table filled
    with the not-a-number word. -/
def takeRows (P : FVec F S100000x64 .f32) (src : IVec S1600000 32) : FVec F S1600000x64 .f32 :=
  let wrapped : IVec S1600000 32 :=
    select (cmpi .slt src (broadcastInDim S1600000 ![] bcast_S_S1600000 (constantI S_ 32 0#32)))
      (addi src (broadcastInDim S1600000 ![] bcast_S_S1600000 (constantI S_ 32 100000#32))) src
  let col : IVec S1600000x1 32 := broadcastInDim S1600000x1 ![0] bcast_S1600000_S1600000x1_0 wrapped
  let inside : IVec S1600000 1 :=
    Host.reduce IntOp.andi
      (andi (cmpi .sge col (broadcastInDim S1600000x1 ![] bcast_S_S1600000x1 (constantI S_ 32 0#32)))
        (cmpi .sle col (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_
  select (broadcastInDim S1600000x64 ![0] bcast_S1600000_S1600000x64_0 inside)
    (Host.gather gather_S100000x64_S1600000x1_S1600000x64_1_0_n_n_0_1_164 P col)
    (broadcastInDim S1600000x64 ![] bcast_S_S1600000x64 (constant S_ .f32 0x7FC00000#32))

/-- The aggregated messages, from the projection array and the edge list. -/
def aggregate (PQ : FVec F S100000x128 .f32) (ei : IVec S2x1600000 32) : FVec F S100000x64 .f32 :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstOf ei))
      (takeRows (extractStridedSlice S100000x64 ![0, 0] PQ slices_S100000x128_S100000x64_0_0) (srcOf ei)))
    (mulf
      (broadcastInDim S100000x64 ![0, 1] bcast_S100000x1_S100000x64_0_1
        (shapeCast S100000x1
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstOf ei))
            (broadcastInDim S1600000 ![] bcast_S_S1600000 (constant S_ .f32 0x3F800000#32)))
          shapeCasts_S100000_S100000x1))
      (extractStridedSlice S100000x64 ![0, 64] PQ slices_S100000x128_S100000x64_0_64))

/-- The node features beside the aggregated messages. -/
def features (x : FVec F S100000x64 .f32) (agg : FVec F S100000x64 .f32) : FVec F S100000x128 .f32 :=
  concatenate S100000x128 1 [⟨S100000x64, x⟩, ⟨S100000x64, agg⟩] concatenates_S100000x64_S100000x64_S100000x128_d1

/-- A 64-vector divided by the number of nodes. -/
def perNode (s : FVec F S64 .f32) : FVec F S64 .f32 :=
  Host.divf s (broadcastInDim S64 ![] bcast_S_S64 (constant S_ .f32 0x47C35000#32))

variable (m : (ℓ : Loc nD τ sig) → Buf (Elt F) ℓ) (ρ : Dev nD → PrngReg)

/-! ## Each stretch of host operations, from any contents `W` -/

/-- No operation of the stretch at hand writes the buffer at hand: the stretch's result buffers, listed, are all
    other references. -/
local macro "no_write" : tactic =>
  `(tactic| (refine List.forall_iff_forall_mem.mp ?_
             simp only [hostOps0, hostOps1, hostOps1_1, hostOps1_2, List.flatten_cons, List.flatten_nil,
               List.append_nil, List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- So the buffer holds after the stretch what it held before. -/
local macro "stretch_keeps" : tactic =>
  `(tactic| (refine StableHlo.after_of_forall_not_mem _ _ ?_; no_write))

/-- The aggregated messages from their ingredients: the rows of `P` taken along the source column, summed onto the
    rows the destination column names, plus the count of arriving edges times `Q`. -/
def aggregateOf (taken : FVec F S1600000x64 .f32) (dst : IVec S1600000 32) (Q : FVec F S100000x64 .f32) : FVec F S100000x64 .f32 :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      taken)
    (mulf
      (broadcastInDim S100000x64 ![0, 1] bcast_S100000x1_S100000x64_0_1
        (shapeCast S100000x1
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          shapeCasts_S100000_S100000x1))
      Q)

/-- `aggregate` takes its three ingredients from the projection array and the edge list. -/
theorem aggregate_eq (PQ : FVec F S100000x128 .f32) (ei : IVec S2x1600000 32) :
    aggregate PQ ei = aggregateOf (takeRows (extractStridedSlice S100000x64 ![0, 0] PQ slices_S100000x128_S100000x64_0_0) (srcOf ei))
      (dstOf ei) (extractStridedSlice S100000x64 ![0, 64] PQ slices_S100000x128_S100000x64_0_64) := rfl

/-- Before the first launch: the two columns of the edge list, the widened weights and the widened bias. -/
theorem before0_src (W : Valuation τ sig (Elt F)) :
    StableHlo.after hostOps0 W (Proc.devRef .tc main_v1) = srcOf (W (Proc.devRef .tc main_arg1)) := by
  after_results
  rfl
theorem before0_dst (W : Valuation τ sig (Elt F)) :
    StableHlo.after hostOps0 W (Proc.devRef .tc main_v3) = dstOf (W (Proc.devRef .tc main_arg1)) := by
  after_results
  rfl
theorem before0_w (W : Valuation τ sig (Elt F)) :
    StableHlo.after hostOps0 W (Proc.devRef .tc main_v6) = wideWeights (W (Proc.devRef .tc main_arg2)) := by
  after_results
  rfl
theorem before0_b (W : Valuation τ sig (Elt F)) :
    StableHlo.after hostOps0 W (Proc.devRef .tc main_v8) = wideBias (W (Proc.devRef .tc main_arg3)) := by
  after_results
  rfl

/-- After the first launch: the left and right halves of the projection. -/
theorem halves_P (W : Valuation τ sig (Elt F)) :
    StableHlo.after hostOps1 W (Proc.devRef .tc main_v10)
      = extractStridedSlice S100000x64 ![0, 0] (W (Proc.devRef .tc main_v9)) slices_S100000x128_S100000x64_0_0 := by
  after_results
theorem halves_Q (W : Valuation τ sig (Elt F)) :
    StableHlo.after hostOps1 W (Proc.devRef .tc main_v11)
      = extractStridedSlice S100000x64 ![0, 64] (W (Proc.devRef .tc main_v9)) slices_S100000x128_S100000x64_0_64 := by
  after_results

/-- Contents carried to a typed reference's own buffer type and back are the contents. -/
theorem ofBuf_toBuf {T : BufTy} (x : StableHlo.TRef sig T) (v : T.Contents (Elt F)) : x.ofBuf (x.toBuf v) = v := by
  obtain ⟨r, rfl, hd, hu⟩ := x
  rfl

set_option maxHeartbeats 4000000 in
/-- The rows of `P` taken along the source column: the called function's operations, composed, are `takeRows`. Its
    values pass through references that carry their tensor types; the passage there and back is the identity, at each
    inner value by `ofBuf_toBuf`, at the two operands and at the result because the carried type is the buffer's own. -/
theorem taken_eq (W : Valuation τ sig (Elt F)) :
    StableHlo.after hostOps1_1 W (Proc.devRef .tc main_v12)
      = takeRows (W (Proc.devRef .tc main_v10)) (W (Proc.devRef .tc main_v1)) := by
  after_results
  simp only [ofBuf_toBuf]
  have e1 : (StableHlo.TRef.of main_v1 : StableHlo.TRef sig ⟨S1600000, .i32⟩).ofBuf (W (Proc.devRef .tc main_v1))
      = W (Proc.devRef .tc main_v1) := rfl
  have e10 : (StableHlo.TRef.of main_v10 : StableHlo.TRef sig ⟨S100000x64, .f32⟩).ofBuf (W (Proc.devRef .tc main_v10))
      = W (Proc.devRef .tc main_v10) := rfl
  have e12 : ∀ v : FVec F S1600000x64 .f32,
      (StableHlo.TRef.of main_v12 : StableHlo.TRef sig ⟨S1600000x64, .f32⟩).toBuf (Val := Elt F) v = v := fun _ => rfl
  rw [e1, e10]
  exact e12 _

set_option maxHeartbeats 4000000 in
/-- The second launch's first operand, and the slope as a 1 × 1 array. -/
theorem gathered_xa (W : Valuation τ sig (Elt F)) :
    StableHlo.after hostOps1_2 W (Proc.devRef .tc main_v24)
      = features (W (Proc.devRef .tc main_arg0))
          (aggregateOf (W (Proc.devRef .tc main_v12)) (W (Proc.devRef .tc main_v3)) (W (Proc.devRef .tc main_v11))) := by
  after_results
  rfl
theorem gathered_a (W : Valuation τ sig (Elt F)) :
    StableHlo.after hostOps1_2 W (Proc.devRef .tc main_v25)
      = shapeCast S1x1 (W (Proc.devRef .tc main_arg6)) shapeCasts_S_S1x1 := by
  after_results
  rfl

/-! ## Buffers no host operation writes -/

/-- A buffer that is no array of the first launch, and that no host operation before the second launch writes, holds
    its launch contents when the second launch is entered. -/
theorem entry1_of_untouched (c : Dev nD) (b : Ref sig .tc)
    (h0 : ∀ op ∈ (hostOps0 : List (HloOp τ sig (Elt F))), Proc.devRef (τ := τ) .tc b ∉ op.writes)
    (hne0 : ∀ w, Pipeline.arrRef spec0 w ≠ b)
    (h1 : ∀ op ∈ (hostOps1 : List (HloOp τ sig (Elt F))), Proc.devRef (τ := τ) .tc b ∉ op.writes)
    (h11 : ∀ op ∈ (hostOps1_1 : List (HloOp τ sig (Elt F))), Proc.devRef (τ := τ) .tc b ∉ op.writes)
    (h12 : ∀ op ∈ (hostOps1_2 : List (HloOp τ sig (Elt F))), Proc.devRef (τ := τ) .tc b ∉ op.writes) :
    W5 m ρ c (Proc.devRef .tc b) = m ((c.tc : Thread nD τ).loc b) :=
  calc W5 m ρ c (Proc.devRef .tc b)
    _ = W4 m ρ c (Proc.devRef .tc b) := StableHlo.after_of_forall_not_mem _ _ h12
    _ = W3 m ρ c (Proc.devRef .tc b) := StableHlo.after_of_forall_not_mem _ _ h11
    _ = W2 m ρ c (Proc.devRef .tc b) := StableHlo.after_of_forall_not_mem _ _ h1
    _ = W1 m ρ c (Proc.devRef .tc b) := W2_of_ne m ρ c b hne0
    _ = W0 m ρ c (Proc.devRef .tc b) := StableHlo.after_of_forall_not_mem _ _ h0
    _ = m ((c.tc : Thread nD τ).loc b) := rfl

/-! ## What the first launch finds -/

theorem entry0_x (c : Dev nD) : V1 m ρ c main_arg0 = m ((c.tc : Thread nD τ).loc main_arg0) := by
  show StableHlo.after hostOps0 (W0 m ρ c) (Proc.devRef .tc main_arg0) = _
  refine Eq.trans (b := W0 m ρ c (Proc.devRef .tc main_arg0)) ?_ rfl
  stretch_keeps
theorem entry0_w (c : Dev nD) : V1 m ρ c main_v6 = wideWeights (m ((c.tc : Thread nD τ).loc main_arg2)) :=
  before0_w (W0 m ρ c)
theorem entry0_b (c : Dev nD) : V1 m ρ c main_v8 = wideBias (m ((c.tc : Thread nD τ).loc main_arg3)) :=
  before0_b (W0 m ρ c)

/-! ## What the second launch finds -/

theorem entry1_xa (c : Dev nD) :
    V5 m ρ c main_v24 = features (m ((c.tc : Thread nD τ).loc main_arg0))
      (aggregate (W2 m ρ c (Proc.devRef .tc main_v9)) (m ((c.tc : Thread nD τ).loc main_arg1))) := by
  have hx : W4 m ρ c (Proc.devRef .tc main_arg0) = m ((c.tc : Thread nD τ).loc main_arg0) :=
    calc W4 m ρ c (Proc.devRef .tc main_arg0)
      _ = W3 m ρ c (Proc.devRef .tc main_arg0) := by stretch_keeps
      _ = W2 m ρ c (Proc.devRef .tc main_arg0) := by stretch_keeps
      _ = W1 m ρ c (Proc.devRef .tc main_arg0) := (W2_arr m ρ c 0).trans (((dat0 (V1 m ρ) c).arrAt_in 0 rfl _).trans (A_eq0 (V1 m ρ) c 0))
      _ = W0 m ρ c (Proc.devRef .tc main_arg0) := by stretch_keeps
      _ = m ((c.tc : Thread nD τ).loc main_arg0) := rfl
  have hsrc : W3 m ρ c (Proc.devRef .tc main_v1) = srcOf (m ((c.tc : Thread nD τ).loc main_arg1)) :=
    calc W3 m ρ c (Proc.devRef .tc main_v1)
      _ = W2 m ρ c (Proc.devRef .tc main_v1) := by stretch_keeps
      _ = W1 m ρ c (Proc.devRef .tc main_v1) := W2_of_ne m ρ c main_v1 (by decide)
      _ = srcOf (W0 m ρ c (Proc.devRef .tc main_arg1)) := before0_src (W0 m ρ c)
      _ = srcOf (m ((c.tc : Thread nD τ).loc main_arg1)) := rfl
  have hdst : W4 m ρ c (Proc.devRef .tc main_v3) = dstOf (m ((c.tc : Thread nD τ).loc main_arg1)) :=
    calc W4 m ρ c (Proc.devRef .tc main_v3)
      _ = W3 m ρ c (Proc.devRef .tc main_v3) := by stretch_keeps
      _ = W2 m ρ c (Proc.devRef .tc main_v3) := by stretch_keeps
      _ = W1 m ρ c (Proc.devRef .tc main_v3) := W2_of_ne m ρ c main_v3 (by decide)
      _ = dstOf (W0 m ρ c (Proc.devRef .tc main_arg1)) := before0_dst (W0 m ρ c)
      _ = dstOf (m ((c.tc : Thread nD τ).loc main_arg1)) := rfl
  have hP : W3 m ρ c (Proc.devRef .tc main_v10)
      = extractStridedSlice S100000x64 ![0, 0] (W2 m ρ c (Proc.devRef .tc main_v9)) slices_S100000x128_S100000x64_0_0 :=
    halves_P (W2 m ρ c)
  have hQ : W4 m ρ c (Proc.devRef .tc main_v11)
      = extractStridedSlice S100000x64 ![0, 64] (W2 m ρ c (Proc.devRef .tc main_v9)) slices_S100000x128_S100000x64_0_64 :=
    calc W4 m ρ c (Proc.devRef .tc main_v11)
      _ = W3 m ρ c (Proc.devRef .tc main_v11) := by stretch_keeps
      _ = _ := halves_Q (W2 m ρ c)
  have hT : W4 m ρ c (Proc.devRef .tc main_v12)
      = takeRows (extractStridedSlice S100000x64 ![0, 0] (W2 m ρ c (Proc.devRef .tc main_v9)) slices_S100000x128_S100000x64_0_0)
          (srcOf (m ((c.tc : Thread nD τ).loc main_arg1))) :=
    (taken_eq (W3 m ρ c)).trans (by rw [hsrc, hP])
  show StableHlo.after hostOps1_2 (W4 m ρ c) (Proc.devRef .tc main_v24) = _
  rw [gathered_xa, hx, hT, hdst, hQ, aggregate_eq]
theorem entry1_w (c : Dev nD) : V5 m ρ c main_arg4 = m ((c.tc : Thread nD τ).loc main_arg4) :=
  entry1_of_untouched m ρ c main_arg4 (by no_write) (by decide) (by no_write) (by no_write) (by no_write)
theorem entry1_b (c : Dev nD) : V5 m ρ c main_arg5 = m ((c.tc : Thread nD τ).loc main_arg5) :=
  entry1_of_untouched m ρ c main_arg5 (by no_write) (by decide) (by no_write) (by no_write) (by no_write)
theorem entry1_a (c : Dev nD) : V5 m ρ c main_v25 = shapeCast S1x1 (m ((c.tc : Thread nD τ).loc main_arg6)) shapeCasts_S_S1x1 := by
  have h6 : W4 m ρ c (Proc.devRef .tc main_arg6) = m ((c.tc : Thread nD τ).loc main_arg6) :=
    calc W4 m ρ c (Proc.devRef .tc main_arg6)
      _ = W3 m ρ c (Proc.devRef .tc main_arg6) := by stretch_keeps
      _ = W2 m ρ c (Proc.devRef .tc main_arg6) := by stretch_keeps
      _ = W1 m ρ c (Proc.devRef .tc main_arg6) := W2_of_ne m ρ c main_arg6 (by decide)
      _ = W0 m ρ c (Proc.devRef .tc main_arg6) := by stretch_keeps
      _ = m ((c.tc : Thread nD τ).loc main_arg6) := rfl
  show StableHlo.after hostOps1_2 (W4 m ρ c) (Proc.devRef .tc main_v25) = _
  rw [gathered_a, h6]

/-- A stretch of host operations leaves alone a buffer none of them writes: the goal
    `StableHlo.after ops W (Proc.devRef .tc b) = W (Proc.devRef .tc b)`, decided operation by operation. -/
local macro "host_keeps" : tactic => `(tactic|
  (refine StableHlo.after_of_forall_not_mem _ _ (List.forall_iff_forall_mem.mp ?_)
   simp only [hostOps2, hostOps3, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## What the third launch finds -/

/-- The division by the node count between the second and third launches does not write `h`. -/
theorem entry2_h (c : Dev nD) : V7 m ρ c main_v26_0 = W6 m ρ c (Proc.devRef .tc main_v26_0) := by
  show StableHlo.after hostOps2 (W6 m ρ c) (Proc.devRef .tc main_v26_0) = _
  host_keeps

/-- The mean is the second launch's column sums divided by the node count. -/
theorem entry2_mu (c : Dev nD) : V7 m ρ c main_v28 = perNode (W6 m ρ c (Proc.devRef .tc main_v26_1)) := by
  show StableHlo.after hostOps2 (W6 m ρ c) (Proc.devRef .tc main_v28) = _
  after_results
  rfl

/-! ## What the fourth launch finds -/

/-- `h` again: the second division does not write it, and the third launch only reads it (its window 0). -/
theorem entry3_h (c : Dev nD) : V9 m ρ c main_v26_0 = W6 m ρ c (Proc.devRef .tc main_v26_0) := by
  have e1 : V9 m ρ c main_v26_0 = W8 m ρ c (Proc.devRef .tc main_v26_0) := by
    show StableHlo.after hostOps3 (W8 m ρ c) (Proc.devRef .tc main_v26_0) = _
    host_keeps
  have e2 : W8 m ρ c (Proc.devRef .tc main_v26_0) = V7 m ρ c main_v26_0 :=
    (W8_arr m ρ c 0).trans (((dat2 (V7 m ρ) c).arrAt_in 0 rfl _).trans (A_eq2 (V7 m ρ) c 0))
  exact e1.trans (e2.trans (entry2_h m ρ c))

/-- The mean again: the second division does not write it, and the third launch only reads it (its window 1). -/
theorem entry3_mu (c : Dev nD) : V9 m ρ c main_v28 = perNode (W6 m ρ c (Proc.devRef .tc main_v26_1)) := by
  have e1 : V9 m ρ c main_v28 = W8 m ρ c (Proc.devRef .tc main_v28) := by
    show StableHlo.after hostOps3 (W8 m ρ c) (Proc.devRef .tc main_v28) = _
    host_keeps
  have e2 : W8 m ρ c (Proc.devRef .tc main_v28) = V7 m ρ c main_v28 :=
    (W8_arr m ρ c 1).trans (((dat2 (V7 m ρ) c).arrAt_in 1 rfl _).trans (A_eq2 (V7 m ρ) c 1))
  exact e1.trans (e2.trans (entry2_mu m ρ c))

/-- The variance is the third launch's column sums of squared deviations divided by the node count. -/
theorem entry3_var (c : Dev nD) : V9 m ρ c main_v31 = perNode (W8 m ρ c (Proc.devRef .tc main_v29)) := by
  show StableHlo.after hostOps3 (W8 m ρ c) (Proc.devRef .tc main_v31) = _
  after_results
  rfl

/-- The scale is the argument: the fourth launch only reads it (its window 3), and read back from after that
    launch it is the launch memory's. -/
theorem entry3_g (c : Dev nD) : V9 m ρ c main_arg7 = m ((c.tc : Thread nD τ).loc main_arg7) :=
  ((W10_arr m ρ c 3).trans (((dat3 (V9 m ρ) c).arrAt_in 3 rfl _).trans (A_eq3 (V9 m ρ) c 3))).symm.trans
    (W10_main_arg7 m ρ c)

/-- The shift is the argument, likewise (window 4). -/
theorem entry3_bt (c : Dev nD) : V9 m ρ c main_arg8 = m ((c.tc : Thread nD τ).loc main_arg8) :=
  ((W10_arr m ρ c 4).trans (((dat3 (V9 m ρ) c).arrAt_in 4 rfl _).trans (A_eq3 (V9 m ρ) c 4))).symm.trans
    (W10_main_arg8 m ρ c)

end Cert.KernelIdeal.Chain

end
-- ==== Proof.Proj.lean ====
/-
  The projection launch: ten row blocks of 10000 nodes, each block of the output the block of `x` times the whole
  64 × 128 weight matrix plus the bias row. Over the whole grid the output array is `x · W + b`, entry by entry.
-/
import proofs.«407081_j76914274337220_2_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (V : (c : Dev nD) → (b : Ref sig .tc) → Buf (Elt Ideal) ((c : Thread nD τ).loc b))

/-- The three arrays the launch finds in its input windows, at their literal types. -/
abbrev xArr (c : Dev nD) : S100000x64.Idx → EReal := V c main_arg0
abbrev wArr (c : Dev nD) : S64x128.Idx → EReal := V c main_v6
abbrev bArr (c : Dev nD) : S128.Idx → EReal := V c main_v8
/-- The launch's output array after the last grid point. -/
abbrev outArr (c : Dev nD) : S100000x128.Idx → EReal := (dat0 (F := Ideal) V c).arrAt 3 cfg0.N

/-! ## The block product at an entry -/

/-- The product's left operand index on its row axis is the output's row. -/
theorem lhs_row (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left operand index on its column axis is the summation index. -/
theorem lhs_col (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand index on its row axis is the summation index. -/
theorem rhs_row (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right operand index on its column axis is the output's column. -/
theorem rhs_col (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A 10000 × 64 block times a 64 × 128 matrix, accumulated from zero, reads at `(p, q)` the sum over `k` of
    `x[p,k] · w[k,q]`. -/
theorem blockProduct_apply (x : FVec Ideal S10000x64 .f32) (w : FVec Ideal S64x128 .f32) (p : Fin 10000) (q : Fin 128) :
    matmul dot_S10000x64_S64x128_S10000x128_1_0_0_1_n_n none x w (constant (F := Ideal) S10000x128 .f32 0x00000000#32) (ix2 p q)
      = ∑ k : Fin 64, x (ix2 p k) * w (ix2 k q) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias vector, laid out as one row and repeated down the 10000 rows, reads at `(p, q)` its entry `q`. -/
theorem biasRows_apply (b : FVec Ideal S128 .f32) (p : Fin 10000) (q : Fin 128) :
    broadcastTo S10000x128 (shapeCast S1x128 (shapeCast S128 b shapeCasts_S128_S128) shapeCasts_S128_S1x128) broadcasts_S1x128_S10000x128 (ix2 p q)
      = b (ix1 q) := by
  rw [broadcastTo_1b_ab_apply, shapeCast_a_1a_apply, shapeCast_self]

/-- The body's stored value at `(p, q)`: the block product plus the bias entry. -/
theorem stored_apply (x : Vec Ideal S10000x64 .f32) (w : Vec Ideal S64x128 .f32) (b : Vec Ideal S128 .f32) (p : Fin 10000) (q : Fin 128) :
    k0_pay1 (F := Ideal) x w b (ix2 p q) = (∑ k : Fin 64, x (ix2 p k) * w (ix2 k q)) + b (ix1 q) := by
  unfold k0_pay1
  rw [addf_apply, shapeCast_self, blockProduct_apply, biasRows_apply]

/-! ## The windows' blocks as parts of the arrays -/

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The index maps over the grid: the blocks of `x` and of the output are numbered by the grid point; the weight
    matrix and the bias are one block each, the same at every point. -/
theorem blockNumbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The three input blocks at grid point `t`, at their literal types. -/
abbrev xBlk (c : Dev nD) (t : Fin cfg0.N) : S10000x64.Idx → EReal := iblk0 V c 0 t
abbrev wBlk (c : Dev nD) (t : Fin cfg0.N) : S64x128.Idx → EReal := iblk0 V c 1 t
abbrev bBlk (c : Dev nD) (t : Fin cfg0.N) : S128.Idx → EReal := iblk0 V c 2 t

/-- Block `t` of `x` is its rows `10000·t … 10000·t + 9999`. -/
theorem xBlk_apply (c : Dev nD) (t : Fin cfg0.N) (p : Fin 10000) (k : Fin 64) (r : Fin 100000)
    (hr : r.val = t.val * 10000 + p.val) : xBlk V c t (ix2 p k) = xArr V c (ix2 r k) := by
  obtain ⟨e0, e1, -⟩ := blockNumbers t
  show V c main_arg0 (((cfg0.win 0).blk t).view.emb (ix2 p k)) = V c main_arg0 (ix2 r k)
  congr 1
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- The weight window's block is the whole matrix at every point. -/
theorem wBlk_apply (c : Dev nD) (t : Fin cfg0.N) (k : Fin 64) (q : Fin 128) : wBlk V c t (ix2 k q) = wArr V c (ix2 k q) := by
  obtain ⟨-, -, e2, e3, -⟩ := blockNumbers t
  show V c main_v6 (((cfg0.win 1).blk t).view.emb (ix2 k q)) = V c main_v6 (ix2 k q)
  congr 1
  funext a
  apply Fin.ext
  match a with
  | ⟨0, _⟩ => show win0_1.index t (0 : Fin 2) * 64 + 1 * k.val = k.val; omega
  | ⟨1, _⟩ => show win0_1.index t (1 : Fin 2) * 128 + 1 * q.val = q.val; omega

/-- The bias window's block is the whole vector at every point. -/
theorem bBlk_apply (c : Dev nD) (t : Fin cfg0.N) (q : Fin 128) : bBlk V c t (ix1 q) = bArr V c (ix1 q) := by
  obtain ⟨-, -, -, -, e4, -⟩ := blockNumbers t
  show V c main_v8 (((cfg0.win 2).blk t).view.emb (ix1 q)) = V c main_v8 (ix1 q)
  congr 1
  funext a
  apply Fin.ext
  match a with
  | ⟨0, _⟩ => show win0_2.index t (0 : Fin 1) * 128 + 1 * q.val = q.val; omega

/-! ## From the blocks to the array -/

/-- The projection of the whole arrays: entry `(n, j)` is the sum over `k` of `x[n,k] · W[k,j]` plus `b[j]`. -/
abbrev proj (c : Dev nD) : S100000x128.Idx → EReal :=
  fun i => (∑ k : Fin 64, xArr V c (ix2 (i 0) k) * wArr V c (ix2 k (i 1))) + bArr V c (ix1 (i 1))

/-- Row `p` of output block `t` is row `10000·t + p` of the output array. -/
theorem outRow (t : Fin cfg0.N) (p : Fin 10000) (q : Fin 128) (r : Fin 100000) (hr : r.val = t.val * 10000 + p.val) :
    (((cfg0.win 3).blk t).view.emb (ix2 p q) : S100000x128.Idx) = ix2 r q := by
  obtain ⟨-, -, -, -, -, e5, e6⟩ := blockNumbers t
  funext a
  apply Fin.ext
  match a with
  | ⟨0, _⟩ => show win0_3.index t (0 : Fin 2) * 10000 + 1 * p.val = r.val; omega
  | ⟨1, _⟩ => show win0_3.index t (1 : Fin 2) * 128 + 1 * q.val = q.val; omega

/-- What the body stores at point `t`, entry by entry, is block `t` of the projection: the block of `x` supplies rows
    `10000·t …`, the matrix and the bias are whole. -/
theorem storedBlock_eq (c : Dev nD) (t : Fin cfg0.N) (y : S10000x128.Idx) :
    k0_pay1 (F := Ideal) (xBlk V c t) (wBlk V c t) (bBlk V c t) y = proj V c (((cfg0.win 3).blk t).view.emb y) := by
  obtain ⟨p, q, rfl⟩ : ∃ (p : Fin 10000) (q : Fin 128), y = ix2 p q := ⟨y 0, y 1, eq_ix2 y⟩
  have hN : cfg0.N = 10 := N_0
  have hr : t.val * 10000 + p.val < 100000 := by have := t.isLt; omega
  rw [stored_apply, outRow t p q ⟨t.val * 10000 + p.val, hr⟩ rfl]
  show _ = (∑ k : Fin 64, xArr V c (ix2 ⟨t.val * 10000 + p.val, hr⟩ k) * wArr V c (ix2 k q)) + bArr V c (ix1 q)
  rw [bBlk_apply]
  refine congrArg (· + bArr V c (ix1 q)) (Finset.sum_congr rfl fun k _ => ?_)
  rw [xBlk_apply V c t p k ⟨t.val * 10000 + p.val, hr⟩ rfl, wBlk_apply]

/-- What point `t` writes back is block `t` of the projection. -/
theorem writeback_eq (c : Dev nD) (t : Fin cfg0.N) :
    (dat0 (F := Ideal) V c).flushed 3 t = ((cfg0.win 3).blk t).view.read (Elt Ideal) (proj V c) := by
  show (cfg0.win 3).cut (grid0.coords t) ((dat0 (F := Ideal) V c).after 3 t) = _
  rw [after0_3]
  unfold out0_3
  rw [View.canon_unit_zero zeroOffsets2]
  simp only [View.ld_unit_zero (S := S10000x64) zeroOffsets2, View.ld_unit_zero (S := S64x128) zeroOffsets2, View.ld_unit_zero (S := S128) zeroOffsets1]
  funext j
  exact storedBlock_eq V c t j

/-- An index of the output array is in point `t`'s block iff each coordinate is in the block's range on its axis. -/
theorem mem_outBlock (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v9).slice (win0_3.rect t)).set ↔ _
  rw [View.set_slice_whole, Rect.mem_set_unit]
  exact Iff.rfl

/-- Row `n` of the output lies in the block of point `n / 10000`, and every point writes its block back: the ten
    blocks cover the array. -/
theorem rows_covered (i : S100000x128.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by omega⟩, rfl⟩
  obtain ⟨-, -, -, -, -, e5, e6⟩ := blockNumbers t
  refine ⟨t, flush0_3 t, ?_⟩
  rw [mem_outBlock]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the launch the output array holds, at row `n` and column `j`, the sum over `k` of `x[n,k] · W[k,j]`
    plus `b[j]`. -/
theorem final (c : Dev nD) :
    outArr V c = fun i => (∑ k : Fin 64, xArr V c (ix2 (i 0) k) * wArr V c (ix2 k (i 1))) + bArr V c (ix1 (i 1)) :=
  (dat0 (F := Ideal) V c).arrAt_eq_of_cover 3 (proj V c) (fun t _ => writeback_eq V c t) rows_covered

end Cert.KernelIdeal.Proj

end
-- ==== Proof.LibBlockSums.lean ====
/-
  General lemmas about a sum taken block by block. The first `R · B` terms of a sequence, cut into `B` consecutive
  blocks of `R` terms, add up to the same total whether they are summed block by block or all at once; the same when the
  terms inside a block, or all the terms, are counted by a `Fin`; and a running total `((z + S 0) + S 1) + … + S n`
  built one block at a time is `z` plus the sum of the blocks. They hold in any commutative additive monoid, so in
  particular for extended reals, where no finiteness is needed. Both ways of numbering a block's terms occur
  (`R · s + r` and `t · B + p`), so both are stated.
-/
import Idealize.ShloMosaic.Lib.ValueIdx

namespace Cert.BlockSums

variable {M : Type*} [AddCommMonoid M]

/-! ## Block `s` holds the terms `R · s + r` -/

/-- Cut the first `R * B` naturals into `B` consecutive blocks of `R`: summing block by block is summing them all. -/
theorem sum_range_blocks (f : ℕ → M) (R : ℕ) : ∀ B : ℕ,
    ∑ s ∈ Finset.range B, ∑ r ∈ Finset.range R, f (R * s + r) = ∑ n ∈ Finset.range (R * B), f n
  | 0 => by rw [Finset.sum_range_zero, Nat.mul_zero, Finset.sum_range_zero]
  | B + 1 => by rw [Finset.sum_range_succ, sum_range_blocks f R B, Nat.mul_succ, Finset.sum_range_add]

/-- The same with the rows inside a block and the rows of the whole counted by `Fin`. -/
theorem sum_fin_blocks (f : ℕ → M) (R B N : ℕ) (hN : N = R * B) :
    ∑ s ∈ Finset.range B, ∑ r : Fin R, f (R * s + r.val) = ∑ n : Fin N, f n.val := by
  subst hN
  rw [Fin.sum_univ_eq_sum_range f (R * B), ← sum_range_blocks f R B]
  exact Finset.sum_congr rfl fun s _ => Fin.sum_univ_eq_sum_range (fun r => f (R * s + r)) R

/-! ## Block `t` holds the terms `t · B + p` -/

/-- The sums of the first `n` consecutive blocks of `B` terms each, added up, are the sum of the first `n * B`
    terms: block `t` holds the terms `t * B + p`, `p < B`. By induction on the number of blocks. -/
theorem sum_blocks_eq_sum_range (f : ℕ → M) (B : ℕ) : ∀ n : ℕ,
    ∑ t ∈ Finset.range n, ∑ p : Fin B, f (t * B + p.val) = ∑ r ∈ Finset.range (n * B), f r
  | 0 => by rw [Finset.sum_range_zero, Nat.zero_mul, Finset.sum_range_zero]
  | n + 1 => by
    rw [Finset.sum_range_succ, sum_blocks_eq_sum_range f B n, Nat.succ_mul, Finset.sum_range_add,
      Fin.sum_univ_eq_sum_range (fun p => f (n * B + p)) B]

/-- So a sum over `Fin N` with `N = K * B` is the sum over `K` consecutive blocks of `B` terms each. -/
theorem sum_fin_eq_sum_blocks {N : ℕ} (K B : ℕ) (hN : K * B = N) (g : Fin N → M) :
    ∑ n : Fin N, g n
      = ∑ t ∈ Finset.range K, ∑ p : Fin B, (if h : t * B + p.val < N then g ⟨t * B + p.val, h⟩ else 0) := by
  subst hN
  rw [Finset.sum_fin_eq_sum_range]
  exact (sum_blocks_eq_sum_range (fun r => if h : r < K * B then g ⟨r, h⟩ else 0) B K).symm

/-- A chain `((z + S 0) + S 1) + … + S n` built block by block is `z` plus the sum of the blocks: one more block. -/
theorem add_sum_range_succ (z : M) (S : ℕ → M) (n : ℕ) :
    (z + ∑ t ∈ Finset.range n, S t) + S n = z + ∑ t ∈ Finset.range (n + 1), S t := by
  rw [Finset.sum_range_succ, add_assoc]

end Cert.BlockSums
-- ==== Proof.NodeLayer.lean ====
/-
  The node layer launch: per row block, the block of `xa` times the 128 × 64 node weights plus the bias, through
  PReLU, written to the block of `h`; and the column sums of that block added into a 64-vector that is reset at the
  first grid point and carried from point to point. Over the whole grid `h` is the activated layer entry by entry and
  the 64-vector ends at the zero word plus the column sums of all of `h`.
-/
import proofs.«407081_j76914274337220_2_alg».proof.Proof.Gen.KernelIdeal.Frame
import proofs.«407081_j76914274337220_2_alg».proof.Proof.LibBlockSums
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.NodeLayer

open Cert.KernelIdeal Cert.KernelIdeal.Gen Cert.BlockSums

variable (V : (c : Dev nD) → (b : Ref sig .tc) → Buf (Elt Ideal) ((c : Thread nD τ).loc b))

/-- The four arrays the launch finds in its input windows, at their literal types. -/
abbrev xaArr (c : Dev nD) : S100000x128.Idx → EReal := V c main_v24
abbrev wArr (c : Dev nD) : S128x64.Idx → EReal := V c main_arg4
abbrev bArr (c : Dev nD) : S64.Idx → EReal := V c main_arg5
abbrev aArr (c : Dev nD) : S1x1.Idx → EReal := V c main_v25
/-- The launch's two output arrays after the last grid point. -/
abbrev hArr (c : Dev nD) : S100000x64.Idx → EReal := (dat1 (F := Ideal) V c).arrAt 4 cfg1.N
abbrev sumArr (c : Dev nD) : S64.Idx → EReal := (dat1 (F := Ideal) V c).arrAt 5 cfg1.N

/-- PReLU with slope `a` on one extended real, as both programs spell it: a select on `z ≥ +0.0`. -/
def leaky (a z : EReal) : EReal :=
  Scalar.select (FloatOps.cmpf (F := Ideal) (φ := .f32) .oge z (Ideal.ofBits .f32 0x00000000#32)) z (a * z)

/-- The activated layer at node `n`, feature `j`. -/
def hAt (c : Dev nD) (n : Fin 100000) (j : Fin 64) : EReal :=
  leaky (aArr V c (ix2 0 0)) ((∑ k : Fin 128, xaArr V c (ix2 n k) * wArr V c (ix2 k j)) + bArr V c (ix1 j))

/-! ## What each case of the body leaves in the two output buffers -/

section Pieces
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- At the first grid point the block of `h` is the activated block of the point's inputs. -/
theorem block_first (c : Dev nD) (i : grid1.Coords) (a1 : Memref sig .tc .vmem S10000x128 .f32) (h1 : a1.IsWhole) (a2 : Memref sig .tc .vmem S128x64 .f32) (h2 : a2.IsWhole) (a3 : Memref sig .tc .vmem S64 .f32) (h3 : a3.IsWhole) (a4 : Memref sig .tc .vmem S1x1 .f32) (h4 : a4.IsWhole) (a5 : Memref sig .tc .vmem S10000x64 .f32) (h5 : a5.IsWhole) (a6 : Memref sig .tc .vmem S64 .f32) (h6 : a6.IsWhole) (hc : cond1_0 i)
    (x0 : Vec F S10000x128 .f32) (x1 : Vec F S128x64 .f32) (x2 : Vec F S64 .f32) (x3 : Vec F S1x1 .f32) :
    out1_A_4 c i a1 h1 a2 h2 a3 h3 a4 h4 a5 h5 a6 h6 hc x0 x1 x2 x3 = k1_pay2 x0 x1 x2 x3 := by
  unfold out1_A_4
  rw [View.read_writes_eq_canon _ _ _ (cover1_A_4 c i a1 h1 a2 h2 a3 h3 a4 h4 a5 h5 a6 h6 hc x0 x1 x2 x3)]
  unfold kernelRun1_A
  dsimp only
  sl_unfold_words
  rw [View.canon_unit_zero hz2]
  simp only [View.readAt_eq_ld, h1.read_unread, h2.read_unread, h3.read_unread, h4.read_unread,
    View.ld_unit_zero (S := S10000x128) hz2, View.ld_unit_zero (S := S128x64) hz2, View.ld_unit_zero (S := S64) hz1,
    View.ld_unit_zero (S := S1x1) hz2]

/-- At every later grid point too. -/
theorem block_later (c : Dev nD) (i : grid1.Coords) (a1 : Memref sig .tc .vmem S10000x128 .f32) (h1 : a1.IsWhole) (a2 : Memref sig .tc .vmem S128x64 .f32) (h2 : a2.IsWhole) (a3 : Memref sig .tc .vmem S64 .f32) (h3 : a3.IsWhole) (a4 : Memref sig .tc .vmem S1x1 .f32) (h4 : a4.IsWhole) (a5 : Memref sig .tc .vmem S10000x64 .f32) (h5 : a5.IsWhole) (a6 : Memref sig .tc .vmem S64 .f32) (h6 : a6.IsWhole) (hc : ¬cond1_0 i)
    (x0 : Vec F S10000x128 .f32) (x1 : Vec F S128x64 .f32) (x2 : Vec F S64 .f32) (x3 : Vec F S1x1 .f32) (xo : Vec F S64 .f32) :
    out1_B_4 c i a1 h1 a2 h2 a3 h3 a4 h4 a5 h5 a6 h6 hc x0 x1 x2 x3 xo = k1_pay2 x0 x1 x2 x3 := by
  unfold out1_B_4
  rw [View.read_writes_eq_canon _ _ _ (cover1_B_4 c i a1 h1 a2 h2 a3 h3 a4 h4 a5 h5 a6 h6 hc x0 x1 x2 x3 xo)]
  unfold kernelRun1_B
  dsimp only
  sl_unfold_words
  rw [View.canon_unit_zero hz2]
  simp only [View.readAt_eq_ld, h1.read_unread, h2.read_unread, h3.read_unread, h4.read_unread,
    View.ld_unit_zero (S := S10000x128) hz2, View.ld_unit_zero (S := S128x64) hz2, View.ld_unit_zero (S := S64) hz1,
    View.ld_unit_zero (S := S1x1) hz2]

/-- At the first grid point the 64-vector is reset to the zero splat, read back, and the block's column sums are
    added to it. -/
theorem sums_first (c : Dev nD) (i : grid1.Coords) (a1 : Memref sig .tc .vmem S10000x128 .f32) (h1 : a1.IsWhole) (a2 : Memref sig .tc .vmem S128x64 .f32) (h2 : a2.IsWhole) (a3 : Memref sig .tc .vmem S64 .f32) (h3 : a3.IsWhole) (a4 : Memref sig .tc .vmem S1x1 .f32) (h4 : a4.IsWhole) (a5 : Memref sig .tc .vmem S10000x64 .f32) (h5 : a5.IsWhole) (a6 : Memref sig .tc .vmem S64 .f32) (h6 : a6.IsWhole) (hc : cond1_0 i)
    (x0 : Vec F S10000x128 .f32) (x1 : Vec F S128x64 .f32) (x2 : Vec F S64 .f32) (x3 : Vec F S1x1 .f32) :
    out1_A_5 c i a1 h1 a2 h2 a3 h3 a4 h4 a5 h5 a6 h6 hc x0 x1 x2 x3 = k1_pay3 x0 x1 x2 x3 (k1_pay1 (F := F)) := by
  unfold out1_A_5
  rw [View.read_writes_eq_canon _ _ _ (cover1_A_5 c i a1 h1 a2 h2 a3 h3 a4 h4 a5 h5 a6 h6 hc x0 x1 x2 x3)]
  unfold kernelRun1_A
  dsimp only
  sl_unfold_words
  rw [View.canon_cons_unit_zero (S := S64) hz1, View.readCov_unit_zero (S := S64) _ hz1]
  simp only [View.readAt_eq_ld, h1.read_unread, h2.read_unread, h3.read_unread, h4.read_unread,
    View.ld_unit_zero (S := S10000x128) hz2, View.ld_unit_zero (S := S128x64) hz2, View.ld_unit_zero (S := S64) hz1,
    View.ld_unit_zero (S := S1x1) hz2]

/-- At a later grid point the block's column sums are added to what the point before left. -/
theorem sums_later (c : Dev nD) (i : grid1.Coords) (a1 : Memref sig .tc .vmem S10000x128 .f32) (h1 : a1.IsWhole) (a2 : Memref sig .tc .vmem S128x64 .f32) (h2 : a2.IsWhole) (a3 : Memref sig .tc .vmem S64 .f32) (h3 : a3.IsWhole) (a4 : Memref sig .tc .vmem S1x1 .f32) (h4 : a4.IsWhole) (a5 : Memref sig .tc .vmem S10000x64 .f32) (h5 : a5.IsWhole) (a6 : Memref sig .tc .vmem S64 .f32) (h6 : a6.IsWhole) (hc : ¬cond1_0 i)
    (x0 : Vec F S10000x128 .f32) (x1 : Vec F S128x64 .f32) (x2 : Vec F S64 .f32) (x3 : Vec F S1x1 .f32) (xo : Vec F S64 .f32) :
    out1_B_5 c i a1 h1 a2 h2 a3 h3 a4 h4 a5 h5 a6 h6 hc x0 x1 x2 x3 xo = k1_pay3 x0 x1 x2 x3 xo := by
  unfold out1_B_5
  rw [View.read_writes_eq_canon _ _ _ (cover1_B_5 c i a1 h1 a2 h2 a3 h3 a4 h4 a5 h5 a6 h6 hc x0 x1 x2 x3 xo)]
  unfold kernelRun1_B
  dsimp only
  sl_unfold_words
  rw [View.canon_unit_zero hz1]
  simp only [View.readAt_eq_ld, h1.read_unread, h2.read_unread, h3.read_unread, h4.read_unread, h6.read_unread,
    View.ld_unit_zero (S := S10000x128) hz2, View.ld_unit_zero (S := S128x64) hz2, View.ld_unit_zero (S := S64) hz1,
    View.ld_unit_zero (S := S1x1) hz2]

end Pieces

/-! ## The payloads read at an index, over the extended reals -/

section Payloads

/-- Where the product's two operands are read: the left one at (row of the output, contraction coordinate), -/
theorem lhs_dot_0 (j : S10000x64.Idx) (k : dot_S10000x128_S128x64_S10000x64_1_0_0_1_n_n.contr.Idx) :
    (dot_S10000x128_S128x64_S10000x64_1_0_0_1_n_n.lhsIdx j k 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_dot_1 (j : S10000x64.Idx) (k : dot_S10000x128_S128x64_S10000x64_1_0_0_1_n_n.contr.Idx) :
    (dot_S10000x128_S128x64_S10000x64_1_0_0_1_n_n.lhsIdx j k 1).val = (k ⟨0, by decide⟩).val :=
  dot_S10000x128_S128x64_S10000x64_1_0_0_1_n_n.lhsIdx_val_of_single rfl j k
/-- the right one at (contraction coordinate, column of the output). -/
theorem rhs_dot_0 (j : S10000x64.Idx) (k : dot_S10000x128_S128x64_S10000x64_1_0_0_1_n_n.contr.Idx) :
    (dot_S10000x128_S128x64_S10000x64_1_0_0_1_n_n.rhsIdx j k 0).val = (k ⟨0, by decide⟩).val :=
  dot_S10000x128_S128x64_S10000x64_1_0_0_1_n_n.rhsIdx_val_of_single rfl j k
theorem rhs_dot_1 (j : S10000x64.Idx) (k : dot_S10000x128_S128x64_S10000x64_1_0_0_1_n_n.contr.Idx) :
    (dot_S10000x128_S128x64_S10000x64_1_0_0_1_n_n.rhsIdx j k 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product of a 10000 × 128 block with the 128 × 64 weights into a zero accumulator, at row `p` and column `q`:
    the sum over the 128 contraction coordinates. -/
theorem product_at (x0 : FVec Ideal S10000x128 .f32) (x1 : FVec Ideal S128x64 .f32) (p : Fin 10000) (q : Fin 64) :
    matmul dot_S10000x128_S128x64_S10000x64_1_0_0_1_n_n none x0 x1 (constant (F := Ideal) S10000x64 .f32 0x00000000#32) (ix2 p q)
      = ∑ k : Fin 128, x0 (ix2 p k) * x1 (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The block before the activation: the product plus the bias row, which every row of the block reads. -/
def affine (x0 : Vec Ideal S10000x128 .f32) (x1 : Vec Ideal S128x64 .f32) (x2 : Vec Ideal S64 .f32) : FVec Ideal S10000x64 .f32 :=
  addf (matmul (φ₁ := .f32) (φ₂ := .f32) dot_S10000x128_S128x64_S10000x64_1_0_0_1_n_n none (shapeCast S10000x128 x0 shapeCasts_S10000x128_S10000x128) x1 (constant (F := Ideal) S10000x64 .f32 0x00000000#32))
    (broadcastTo S10000x64 (shapeCast S1x64 x2 shapeCasts_S64_S1x64) broadcasts_S1x64_S10000x64)

theorem affine_at (x0 : Vec Ideal S10000x128 .f32) (x1 : Vec Ideal S128x64 .f32) (x2 : Vec Ideal S64 .f32) (p : Fin 10000) (q : Fin 64) :
    affine x0 x1 x2 (ix2 p q) = (∑ k : Fin 128, x0 (ix2 p k) * x1 (ix2 k q)) + x2 (ix1 q) := by
  unfold affine
  rw [addf_apply, shapeCast_self, product_at, broadcastTo_1b_ab_apply, shapeCast_a_1a_apply]

/-- The slope: the one entry of the 1 × 1 array. -/
theorem slope_at (x3 : Vec Ideal S1x1 .f32) : extractAt ![0, 0] x3 inpos_S1x1_p0_0 = x3 (ix2 0 0) :=
  congrArg x3 (funext fun a => Fin.ext (by match a with | ⟨0, _⟩ => rfl | ⟨1, _⟩ => rfl))

/-- The activated block at row `p`, column `q`: PReLU, with the 1 × 1 array's slope, of the row's product with the
    weights' column plus the bias. -/
theorem act_at (x0 : Vec Ideal S10000x128 .f32) (x1 : Vec Ideal S128x64 .f32) (x2 : Vec Ideal S64 .f32) (x3 : Vec Ideal S1x1 .f32)
    (p : Fin 10000) (q : Fin 64) :
    k1_pay2 x0 x1 x2 x3 (ix2 p q)
      = leaky (x3 (ix2 0 0)) ((∑ k : Fin 128, x0 (ix2 p k) * x1 (ix2 k q)) + x2 (ix1 q)) := by
  have e : k1_pay2 x0 x1 x2 x3 (ix2 p q) = leaky (extractAt ![0, 0] x3 inpos_S1x1_p0_0) (affine x0 x1 x2 (ix2 p q)) := rfl
  rw [e, affine_at, slope_at]

/-- The updated 64-vector at feature `q`: what it held plus the activated block's column sum. -/
theorem colsum_at (x0 : Vec Ideal S10000x128 .f32) (x1 : Vec Ideal S128x64 .f32) (x2 : Vec Ideal S64 .f32) (x3 : Vec Ideal S1x1 .f32)
    (v : Vec Ideal S64 .f32) (q : Fin 64) :
    k1_pay3 x0 x1 x2 x3 v (ix1 q) = v (ix1 q) + ∑ p : Fin 10000, k1_pay2 x0 x1 x2 x3 (ix2 p q) := by
  have e : k1_pay3 x0 x1 x2 x3 v (ix1 q)
      = shapeCast S64 v shapeCasts_S64_S64 (ix1 q)
        + multiReduction (F := Ideal) .add [0] S64 (k1_pay2 x0 x1 x2 x3) 0x00000000#32 reduces_S10000x64_S64 (.inl rfl) rfl (ix1 q) := rfl
  rw [e, shapeCast_self]
  refine congrArg (v (ix1 q) + ·) ?_
  refine (Ideal.multiReduction_add_single (k1_pay2 x0 x1 x2 x3) 0x00000000#32 reduces_S10000x64_S64 (.inl rfl) rfl (ix1 q)).trans ?_
  refine Finset.sum_congr rfl fun p _ => congrArg (k1_pay2 x0 x1 x2 x3) ?_
  funext a
  refine Fin.ext ?_
  match a with
  | ⟨0, _⟩ => rfl
  | ⟨1, _⟩ => rfl

/-- The zero splat the first point stores reads the zero word everywhere. -/
theorem reset_at (q : Fin 64) : k1_pay1 (F := Ideal) (ix1 q) = Ideal.ofBits .f32 0x00000000#32 := rfl

end Payloads

/-! ## The input windows' blocks as rows of the arrays -/

section Blocks

/-- The printed index maps, decided over the ten grid points: the blocks of `xa` and of `h` move with the point along
    the rows; the weights, the bias, the slope and the 64-vector of sums stay at their one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 1) = 0 :=
  (by decide +kernel : ∀ t : Fin grid1.N, _)

/-- The four input blocks at grid point `t`, at their literal types. -/
abbrev xaBlk (c : Dev nD) (t : Fin cfg1.N) : Vec Ideal S10000x128 .f32 := iblk1 V c 0 t
abbrev wBlk (c : Dev nD) (t : Fin cfg1.N) : Vec Ideal S128x64 .f32 := iblk1 V c 1 t
abbrev bBlk (c : Dev nD) (t : Fin cfg1.N) : Vec Ideal S64 .f32 := iblk1 V c 2 t
abbrev aBlk (c : Dev nD) (t : Fin cfg1.N) : Vec Ideal S1x1 .f32 := iblk1 V c 3 t

/-- Row `r` of block `t` of `xa` is row `10000 t + r` of `xa`. -/
theorem xaBlk_at (c : Dev nD) (t : Fin cfg1.N) (r : Fin 10000) (k : Fin 128) (n : Fin 100000)
    (hn : n.val = 10000 * t.val + r.val) : xaBlk V c t (ix2 r k) = xaArr V c (ix2 n k) := by
  obtain ⟨e0, e1, -⟩ := index_facts t
  unfold xaBlk iblk1
  rw [View.read_apply]
  show V c main_v24 _ = V c main_v24 _
  congr 1
  funext a
  apply Fin.ext
  match a with
  | ⟨0, _⟩ => show win1_0.index t (0 : Fin 2) * 10000 + 1 * r.val = n.val; rw [e0, hn]; omega
  | ⟨1, _⟩ => show win1_0.index t (1 : Fin 2) * 128 + 1 * k.val = k.val; rw [e1]; omega

/-- The weights' one block is the whole array, -/
theorem wBlk_eq (c : Dev nD) (t : Fin cfg1.N) : wBlk V c t = wArr V c := by
  obtain ⟨-, -, e0, e1, -⟩ := index_facts t
  funext j
  unfold wBlk iblk1
  rw [View.read_apply]
  show V c main_arg4 _ = V c main_arg4 j
  congr 1
  funext a
  apply Fin.ext
  match a with
  | ⟨0, _⟩ => show win1_1.index t (0 : Fin 2) * 128 + 1 * (j 0).val = (j 0).val; rw [e0]; omega
  | ⟨1, _⟩ => show win1_1.index t (1 : Fin 2) * 64 + 1 * (j 1).val = (j 1).val; rw [e1]; omega

/-- and so are the bias's -/
theorem bBlk_eq (c : Dev nD) (t : Fin cfg1.N) : bBlk V c t = bArr V c := by
  obtain ⟨-, -, -, -, e0, -⟩ := index_facts t
  funext j
  unfold bBlk iblk1
  rw [View.read_apply]
  show V c main_arg5 _ = V c main_arg5 j
  congr 1
  funext a
  apply Fin.ext
  match a with
  | ⟨0, _⟩ => show win1_2.index t (0 : Fin 1) * 64 + 1 * (j 0).val = (j 0).val; rw [e0]; omega

/-- and the slope's. -/
theorem aBlk_eq (c : Dev nD) (t : Fin cfg1.N) : aBlk V c t = aArr V c := by
  obtain ⟨-, -, -, -, -, e0, e1, -⟩ := index_facts t
  funext j
  unfold aBlk iblk1
  rw [View.read_apply]
  show V c main_v25 _ = V c main_v25 j
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 1 + 1 * (j 1).val = (j 1).val; rw [e1]; omega

/-- So the activated block of point `t` holds, at row `r`, the activated layer at node `10000 t + r`. -/
theorem act_block_at (c : Dev nD) (t : Fin cfg1.N) (r : Fin 10000) (q : Fin 64) (n : Fin 100000)
    (hn : n.val = 10000 * t.val + r.val) : k1_pay2 (xaBlk V c t) (wBlk V c t) (bBlk V c t) (aBlk V c t) (ix2 r q) = hAt V c n q := by
  have hx : ∀ k : Fin 128, xaBlk V c t (ix2 r k) = xaArr V c (ix2 n k) := fun k => xaBlk_at V c t r k n hn
  rw [act_at, wBlk_eq, bBlk_eq, aBlk_eq]
  simp only [hx]
  rfl

/-- The same at an index of the block and the index of the array it sits at. -/
theorem act_block_idx (c : Dev nD) (t : Fin cfg1.N) (j : S10000x64.Idx) (i : S100000x64.Idx)
    (h0 : (i 0).val = 10000 * t.val + (j 0).val) (h1 : (i 1).val = (j 1).val) :
    k1_pay2 (xaBlk V c t) (wBlk V c t) (bBlk V c t) (aBlk V c t) j = hAt V c (i 0) (i 1) := by
  obtain ⟨r, q, rfl⟩ : ∃ (r : Fin 10000) (q : Fin 64), j = ix2 r q := ⟨j 0, j 1, eq_ix2 j⟩
  exact (act_block_at V c t r q (i 0) h0).trans (congrArg (hAt V c (i 0)) (Fin.ext h1).symm)

end Blocks

/-! ## What the two output buffers hold after each grid point -/

section Points

/-- After every point the block of `h` is the activated block of the point's input blocks. -/
theorem h_after (c : Dev nD) (t : Fin cfg1.N) : (outsAt1 V c t.val t.isLt).1 = k1_pay2 (xaBlk V c t) (wBlk V c t) (bBlk V c t) (aBlk V c t) := by
  by_cases h0 : t.val % 10 = 0
  · rw [outsAt1_A V c t h0]
    dsimp only
    exact block_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
  · rw [outsAt1_B V c t h0]
    dsimp only
    exact block_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2

/-- The activated layer continued by zero past the last node: the rows of all blocks in one sequence. -/
def hExt (c : Dev nD) (q : Fin 64) (n : ℕ) : EReal := if h : n < 100000 then hAt V c ⟨n, h⟩ q else 0

/-- The column sum of point `t`'s activated block is the sum of the activated layer over the block's 10000 nodes. -/
theorem blockSum_eq (c : Dev nD) (t : Fin cfg1.N) (q : Fin 64) :
    ∑ p : Fin 10000, k1_pay2 (xaBlk V c t) (wBlk V c t) (bBlk V c t) (aBlk V c t) (ix2 p q) = ∑ r : Fin 10000, hExt V c q (10000 * t.val + r.val) := by
  have hN : t.val < 10 := lt_of_lt_of_eq t.isLt (show cfg1.N = 10 from N_1)
  refine Finset.sum_congr rfl fun p _ => ?_
  have hlt : 10000 * t.val + p.val < 100000 := by have := p.isLt; omega
  rw [hExt, dif_pos hlt]
  exact act_block_at V c t p q ⟨_, hlt⟩ rfl

/-- At the first point the 64-vector is left at the zero word plus the first block's column sums; -/
theorem sums_first_at (c : Dev nD) (t : Fin cfg1.N) (h0 : t.val % 10 = 0) (q : Fin 64) :
    (outsAt1 V c t.val t.isLt).2 (ix1 q) = Ideal.ofBits .f32 0x00000000#32 + ∑ r : Fin 10000, hExt V c q (10000 * t.val + r.val) := by
  rw [outsAt1_A V c t h0]
  dsimp only
  refine (congrFun (sums_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)) (ix1 q)).trans ?_
  refine (colsum_at (xaBlk V c t) (wBlk V c t) (bBlk V c t) (aBlk V c t) (k1_pay1 (F := Ideal)) q).trans ?_
  rw [reset_at, blockSum_eq]

/-- at a later point, at what the point before left plus the point's block's column sums. -/
theorem sums_later_at (c : Dev nD) (t : Fin cfg1.N) (h0 : ¬t.val % 10 = 0) (q : Fin 64) :
    (outsAt1 V c t.val t.isLt).2 (ix1 q)
      = (outsAt1 V c (t.val - 1) (Nat.lt_of_le_of_lt (Nat.sub_le _ _) t.isLt)).2 (ix1 q) + ∑ r : Fin 10000, hExt V c q (10000 * t.val + r.val) := by
  rw [outsAt1_B V c t h0]
  dsimp only
  refine (congrFun (sums_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) (ix1 q)).trans ?_
  refine (colsum_at (xaBlk V c t) (wBlk V c t) (bBlk V c t) (aBlk V c t) (outsAt1 V c (t.val - 1) (Nat.lt_of_le_of_lt (Nat.sub_le _ _) t.isLt)).2 q).trans ?_
  rw [blockSum_eq]

/-- So after point `n` it holds the zero word plus the column sums of blocks `0 … n`, by induction on the point. -/
theorem sums_after (c : Dev nD) : ∀ (n : ℕ) (hn : n < cfg1.N) (q : Fin 64),
    (outsAt1 V c n hn).2 (ix1 q)
      = Ideal.ofBits .f32 0x00000000#32 + ∑ s ∈ Finset.range (n + 1), ∑ r : Fin 10000, hExt V c q (10000 * s + r.val)
  | 0, hn, q => by
    rw [Finset.sum_range_one]
    exact sums_first_at V c ⟨0, hn⟩ rfl q
  | n + 1, hn, q => by
    have hN : cfg1.N = 10 := N_1
    have hB : ¬(⟨n + 1, hn⟩ : Fin cfg1.N).val % 10 = 0 := by dsimp only; omega
    rw [Finset.sum_range_succ, ← add_assoc, ← sums_after c n (Nat.lt_of_succ_lt hn) q]
    exact sums_later_at V c ⟨n + 1, hn⟩ hB q

end Points

/-! ## From the blocks to the two output arrays -/

section Arrays

/-- What point `t` writes back to `h` is block `t` of the activated layer. -/
theorem flushed_h (c : Dev nD) (t : Fin cfg1.N) :
    (dat1 (F := Ideal) V c).flushed 4 t
      = ((cfg1.win 4).blk t).view.read (Elt Ideal) (fun i : S100000x64.Idx => hAt V c (i 0) (i 1)) := by
  show (cfg1.win 4).cut (grid1.coords t) ((dat1 (F := Ideal) V c).after 4 t) = _
  rw [after1_4, h_after]
  obtain ⟨-, -, -, -, -, -, -, e0, e1, -⟩ := index_facts t
  funext j
  refine act_block_idx V c t j (((cfg1.win 4).blk t).view.emb j) ?_ ?_
  · show win1_4.index t (0 : Fin 2) * 10000 + 1 * (j 0).val = 10000 * t.val + (j 0).val; rw [e0]; omega
  · show win1_4.index t (1 : Fin 2) * 64 + 1 * (j 1).val = (j 1).val; rw [e1]; omega

/-- After the launch the first output array holds the activated layer. -/
theorem final_h (c : Dev nD) : hArr V c = fun i => hAt V c (i 0) (i 1) :=
  (dat1 (F := Ideal) V c).arrAt_eq_of_cover 4 (fun i : S100000x64.Idx => hAt V c (i 0) (i 1)) (fun t _ => flushed_h V c t) fun i => by
    have hN : cfg1.N = 10 := N_1
    have hi0 : (i 0).val < 100000 := (i 0).isLt
    have hi1 : (i 1).val < 64 := (i 1).isLt
    obtain ⟨t, ht⟩ : ∃ t : Fin cfg1.N, t.val = (i 0).val / 10000 := ⟨⟨(i 0).val / 10000, by rw [hN]; omega⟩, rfl⟩
    obtain ⟨-, -, -, -, -, -, -, e0, e1, -⟩ := index_facts t
    refine ⟨t, flush1_4 t, ?_⟩
    show i ∈ ((View.whole main_v26_0).slice (win1_4.rect t)).set
    rw [View.set_slice_whole, Rect.mem_set_unit]
    intro a
    match a with
    | ⟨0, _⟩ => show win1_4.index t (0 : Fin 2) * 10000 ≤ (i 0).val ∧ (i 0).val < win1_4.index t (0 : Fin 2) * 10000 + 10000; rw [e0]; omega
    | ⟨1, _⟩ => show win1_4.index t (1 : Fin 2) * 64 ≤ (i 1).val ∧ (i 1).val < win1_4.index t (1 : Fin 2) * 64 + 64; rw [e1]; omega

/-- What the last point leaves in the 64-vector, at an index of the block and the index of the array it sits at: the
    ten blocks' column sums joined into the sum over all nodes. -/
theorem sums_idx (c : Dev nD) (t : Fin cfg1.N) (h9 : t.val = 9) (j : S64.Idx) (i : S64.Idx) (h : (i 0).val = (j 0).val) :
    (outsAt1 V c t.val t.isLt).2 j = Ideal.ofBits .f32 0x00000000#32 + ∑ n : Fin 100000, hAt V c n (i 0) := by
  obtain ⟨q, rfl⟩ : ∃ q : Fin 64, j = ix1 q := ⟨j 0, eq_ix1 j⟩
  have hq : (i 0 : Fin 64) = q := Fin.ext h
  rw [sums_after V c t.val t.isLt q, h9, sum_fin_blocks (hExt V c q) 10000 10 100000 rfl, hq]
  refine congrArg (Ideal.ofBits .f32 0x00000000#32 + ·) (Finset.sum_congr rfl fun n _ => ?_)
  rw [hExt, dif_pos n.isLt]

/-- What the last point writes back to the sums is the whole 64-vector of them. -/
theorem flushed_sum (c : Dev nD) (t : Fin cfg1.N) (hf : (cfg1.win 5).flush t = true) :
    (dat1 (F := Ideal) V c).flushed 5 t
      = ((cfg1.win 5).blk t).view.read (Elt Ideal) (fun i : S64.Idx => Ideal.ofBits .f32 0x00000000#32 + ∑ n : Fin 100000, hAt V c n (i 0)) := by
  have hN : cfg1.N = 10 := N_1
  have h9 : t.val = 9 := by have := (flush1_5 t).mp hf; have := t.isLt; omega
  show (cfg1.win 5).cut (grid1.coords t) ((dat1 (F := Ideal) V c).after 5 t) = _
  rw [after1_5]
  obtain ⟨-, -, -, -, -, -, -, -, -, e0⟩ := index_facts t
  funext j
  refine sums_idx V c t h9 j (((cfg1.win 5).blk t).view.emb j) ?_
  show win1_5.index t (0 : Fin 1) * 64 + 1 * (j 0).val = (j 0).val; rw [e0]; omega

/-- After the launch the second output array holds, per feature, the zero word plus the sum of the activated layer
    over all nodes. -/
theorem final_sum (c : Dev nD) :
    sumArr V c = fun i => Ideal.ofBits .f32 0x00000000#32 + ∑ n : Fin 100000, hAt V c n (i 0) :=
  (dat1 (F := Ideal) V c).arrAt_eq_of_cover 5 (fun i : S64.Idx => Ideal.ofBits .f32 0x00000000#32 + ∑ n : Fin 100000, hAt V c n (i 0))
    (fun t hf => flushed_sum V c t hf) fun i => by
    have hN : cfg1.N = 10 := N_1
    have hi : (i 0).val < 64 := (i 0).isLt
    obtain ⟨t, ht⟩ : ∃ t : Fin cfg1.N, t.val = 9 := ⟨⟨9, by rw [hN]; decide⟩, rfl⟩
    obtain ⟨-, -, -, -, -, -, -, -, -, e0⟩ := index_facts t
    refine ⟨t, (flush1_5 t).mpr (by rw [ht]), ?_⟩
    show i ∈ ((View.whole main_v26_1).slice (win1_5.rect t)).set
    rw [View.set_slice_whole, Rect.mem_set_unit]
    intro a
    match a with
    | ⟨0, _⟩ => show win1_5.index t (0 : Fin 1) * 64 ≤ (i 0).val ∧ (i 0).val < win1_5.index t (0 : Fin 1) * 64 + 64; rw [e0]; omega

end Arrays

end Cert.KernelIdeal.NodeLayer

end
-- ==== Proof.SqDev.lean ====
/-
  The variance launch: per row block, the squared deviations of the block of `h` from the mean row, summed down the
  columns and added into a 64-vector that is reset at the first grid point and carried from point to point. Over the
  whole grid the 64-vector ends at the zero word plus the column sums of the squared deviations of all of `h`.
-/
import proofs.«407081_j76914274337220_2_alg».proof.Proof.Gen.KernelIdeal.Frame
import proofs.«407081_j76914274337220_2_alg».proof.Proof.LibBlockSums
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SqDev

open Cert.KernelIdeal Cert.KernelIdeal.Gen

/-! ## What each case of the body leaves in the carried vector -/

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- At a point other than the first the body leaves, in the vector holding `xo`, the update of `xo` by the block `x0`
    and the mean vector `x1`: its one covering store's payload, whose loads read the whole buffers. -/
theorem out_B (c : Dev nD) (i : grid2.Coords) (a1 : Memref sig .tc .vmem S10000x64 .f32) (h1 : a1.IsWhole)
    (a2 : Memref sig .tc .vmem S64 .f32) (h2 : a2.IsWhole) (a3 : Memref sig .tc .vmem S64 .f32) (h3 : a3.IsWhole)
    (hc : ¬cond2_0 i) (x0 : Vec F S10000x64 .f32) (x1 : Vec F S64 .f32) (xo : Vec F S64 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz1]
  simp only [View.readAt_eq_ld, h1.read_unread, h2.read_unread, h3.read_unread, View.ld_unit_zero (S := S10000x64) hz2,
    View.ld_unit_zero (S := S64) hz1]

/-- At the first point the body stores the zero vector, reads it back, and leaves its update by the block and the
    mean vector. -/
theorem out_A (c : Dev nD) (i : grid2.Coords) (a1 : Memref sig .tc .vmem S10000x64 .f32) (h1 : a1.IsWhole)
    (a2 : Memref sig .tc .vmem S64 .f32) (h2 : a2.IsWhole) (a3 : Memref sig .tc .vmem S64 .f32) (h3 : a3.IsWhole)
    (hc : cond2_0 i) (x0 : Vec F S10000x64 .f32) (x1 : Vec F S64 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S64) hz1, View.readCov_unit_zero (S := S64) _ hz1]
  simp only [View.readAt_eq_ld, h1.read_unread, h2.read_unread, View.ld_unit_zero (S := S10000x64) hz2,
    View.ld_unit_zero (S := S64) hz1]

end Pieces

/-! ## The payloads read at an index, over the extended reals -/

section Payload

/-- The reset stores the zero word in every lane. -/
theorem pay1_apply (q : Fin 64) : k2_pay1 (F := Ideal) (ix1 q) = Ideal.ofBits .f32 0x00000000#32 := rfl

/-- The index the column reduction inserts: row `k` of column `q`. -/
theorem lift_eq (q : Fin 64) (k : Fin 10000) : reduces_S10000x64_S64.lift (ix1 q) k = ix2 k q := by
  funext a
  match a with
  | ⟨0, _⟩ => rfl
  | ⟨1, _⟩ => rfl

/-- The reduction down the rows, at column `q`: the sum of the column's 10000 entries. -/
theorem colsum_apply (src : FVec Ideal S10000x64 .f32) (hφ : FKind.Formats .f32)
    (hacc : (0x00000000#32 : BitVec 32) = FKind.add.neutral .f32 hφ) (q : Fin 64) :
    multiReduction (F := Ideal) .add [0] S64 src 0x00000000#32 reduces_S10000x64_S64 hφ hacc (ix1 q)
      = ∑ p : Fin 10000, src (ix2 p q) := by
  refine (Ideal.multiReduction_add_single src 0x00000000#32 reduces_S10000x64_S64 hφ hacc (ix1 q)).trans ?_
  exact Finset.sum_congr rfl fun p _ => congrArg src (lift_eq q p)

/-- The deviation of the block from the mean row (the mean vector as a 1×64 row, repeated down the rows), at row
    `p` and column `q`. -/
theorem dev_apply (x0 : Vec Ideal S10000x64 .f32) (x1 : Vec Ideal S64 .f32) (p : Fin 10000) (q : Fin 64) :
    (subf (F := Ideal) (s := S10000x64) (φ := .f32) (shapeCast S10000x64 x0 shapeCasts_S10000x64_S10000x64)
        (broadcastTo S10000x64 (shapeCast S1x64 (shapeCast S64 x1 shapeCasts_S64_S64) shapeCasts_S64_S1x64)
          broadcasts_S1x64_S10000x64) : FVec Ideal S10000x64 .f32) (ix2 p q)
      = x0 (ix2 p q) - x1 (ix1 q) := by
  rw [subf_apply, shapeCast_self, broadcastTo_1b_ab_apply, shapeCast_a_1a_apply, shapeCast_self]

/-- The update at column `q`: the carried entry plus the column's sum of squared deviations. -/
theorem pay2_apply (x0 : Vec Ideal S10000x64 .f32) (x1 xo : Vec Ideal S64 .f32) (q : Fin 64) :
    k2_pay2 (F := Ideal) x0 x1 xo (ix1 q)
      = xo (ix1 q) + ∑ p : Fin 10000, ((x0 (ix2 p q) - x1 (ix1 q)) * (x0 (ix2 p q) - x1 (ix1 q))) := by
  unfold k2_pay2
  refine (addf_apply _ _ (ix1 q)).trans ?_
  refine congrArg₂ (· + ·) (congrFun (shapeCast_self xo _) (ix1 q)) ?_
  refine (colsum_apply _ _ _ q).trans ?_
  refine Finset.sum_congr rfl fun p _ => ?_
  refine (mulf_apply _ _ (ix2 p q)).trans ?_
  exact congrArg₂ (· * ·) (dev_apply x0 x1 p q) (dev_apply x0 x1 p q)

end Payload

variable (V : (c : Dev nD) → (b : Ref sig .tc) → Buf (Elt Ideal) ((c : Thread nD τ).loc b))

/-- The two arrays the launch finds in its input windows, at their literal types. -/
abbrev hArr (c : Dev nD) : S100000x64.Idx → EReal := V c main_v26_0
abbrev muArr (c : Dev nD) : S64.Idx → EReal := V c main_v28
/-- The launch's output array after the last grid point. -/
abbrev sqArr (c : Dev nD) : S64.Idx → EReal := (dat2 (F := Ideal) V c).arrAt 2 cfg2.N

/-! ## The input blocks as rows of the arrays -/

/-- The block of `h` and the mean vector the body finds at point `t`, at their literal types. -/
abbrev hBlk (c : Dev nD) (t : Fin cfg2.N) : Vec Ideal S10000x64 .f32 := iblk2 V c 0 t
abbrev muBlk (c : Dev nD) (t : Fin cfg2.N) : Vec Ideal S64 .f32 := iblk2 V c 1 t

/-- The printed index maps, decided over the grid: the block of `h` moves down the rows with the point and stays in
    column block 0; the mean vector and the output vector stay at block 0. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0 :=
  (by decide +kernel : ∀ t : Fin grid2.N, _)

/-- Row `p` of block `t` of `h` is row `10000 t + p` of `h`. -/
theorem hBlk_apply (c : Dev nD) (t : Fin cfg2.N) (p : Fin 10000) (q : Fin 64) (hr : t.val * 10000 + p.val < 100000) :
    hBlk V c t (ix2 p q) = hArr V c (ix2 ⟨t.val * 10000 + p.val, hr⟩ q) := by
  obtain ⟨e0, e1, -, -⟩ := idx_facts t
  show V c main_v26_0 (((cfg2.win 0).blk t).view.emb (ix2 p q)) = V c main_v26_0 (ix2 ⟨t.val * 10000 + p.val, hr⟩ q)
  refine congrArg _ (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * q.val = q.val; rw [e1]; omega

/-- The mean vector's block is the whole mean vector at every point. -/
theorem muBlk_apply (c : Dev nD) (t : Fin cfg2.N) (q : Fin 64) : muBlk V c t (ix1 q) = muArr V c (ix1 q) := by
  obtain ⟨-, -, e2, -⟩ := idx_facts t
  show V c main_v28 (((cfg2.win 1).blk t).view.emb (ix1 q)) = V c main_v28 (ix1 q)
  refine congrArg _ (funext fun a => Fin.ext ?_)
  match a with
  | ⟨0, _⟩ => show win2_1.index t (0 : Fin 1) * 64 + 1 * q.val = q.val; rw [e2]; omega

/-! ## The carried vector after each point -/

/-- The squared deviation of node `n` from the mean, at feature `q`. -/
abbrev dev2 (c : Dev nD) (q : Fin 64) (n : Fin 100000) : EReal :=
  (hArr V c (ix2 n q) - muArr V c (ix1 q)) * (hArr V c (ix2 n q) - muArr V c (ix1 q))

/-- Term `p` of row block `t`: the squared deviation of node `10000 t + p`. -/
abbrev blockTerm (c : Dev nD) (q : Fin 64) (t : ℕ) (p : Fin 10000) : EReal :=
  if h : t * 10000 + p.val < 100000 then dev2 V c q ⟨t * 10000 + p.val, h⟩ else 0

/-- The column sum of squared deviations the body forms from the blocks at point `t` is the sum of row block `t`'s
    terms. -/
theorem blockSum_eq (c : Dev nD) (t : Fin cfg2.N) (q : Fin 64) :
    ∑ p : Fin 10000, ((hBlk V c t (ix2 p q) - muBlk V c t (ix1 q)) * (hBlk V c t (ix2 p q) - muBlk V c t (ix1 q)))
      = ∑ p : Fin 10000, blockTerm V c q t.val p := by
  have hN : t.val < 10 := lt_of_lt_of_eq t.isLt (show cfg2.N = 10 from N_2)
  refine Finset.sum_congr rfl fun p _ => ?_
  have hr : t.val * 10000 + p.val < 100000 := by have := p.isLt; omega
  rw [hBlk_apply V c t p q hr, muBlk_apply V c t q]
  show _ = dite _ _ _
  rw [dif_pos hr]

/-- At the first point the carried vector is left at the zero word plus the first row block's sum. -/
theorem outsAt_A (c : Dev nD) (t : Fin cfg2.N) (h0 : t.val % 10 = 0) (q : Fin 64) :
    outsAt2 V c t.val t.isLt (ix1 q)
      = Ideal.ofBits .f32 0x00000000#32 + ∑ p : Fin 10000, blockTerm V c q t.val p := by
  rw [outsAt2_A V c t h0]
  refine (congrFun (out_A (F := Ideal) c (grid2.coords t) (ms2_0 t) (hs2_0 t) (ms2_1 t) (hs2_1 t) (ms2_2 t) (hs2_2 t)
    ((hcond2_0 t).mpr h0) (hBlk V c t) (muBlk V c t)) (ix1 q)).trans ?_
  rw [pay2_apply, pay1_apply, blockSum_eq]

/-- At a later point the carried vector is left at what the point before left plus the point's row block's sum. -/
theorem outsAt_B (c : Dev nD) (t : Fin cfg2.N) (h0 : ¬t.val % 10 = 0) (q : Fin 64) :
    outsAt2 V c t.val t.isLt (ix1 q)
      = outsAt2 V c (t.val - 1) (Nat.lt_of_le_of_lt (Nat.sub_le _ _) t.isLt) (ix1 q)
        + ∑ p : Fin 10000, blockTerm V c q t.val p := by
  rw [outsAt2_B V c t h0]
  refine (congrFun (out_B (F := Ideal) c (grid2.coords t) (ms2_0 t) (hs2_0 t) (ms2_1 t) (hs2_1 t) (ms2_2 t) (hs2_2 t)
    (fun h => h0 ((hcond2_0 t).mp h)) (hBlk V c t) (muBlk V c t)
    (outsAt2 V c (t.val - 1) (Nat.lt_of_le_of_lt (Nat.sub_le _ _) t.isLt))) (ix1 q)).trans ?_
  rw [pay2_apply, blockSum_eq]

/-- After point `n` the carried vector holds the zero word plus the sums of row blocks `0 … n`: by induction on the
    point. -/
theorem outsAt_eq (c : Dev nD) : ∀ (n : ℕ) (hn : n < cfg2.N) (q : Fin 64),
    outsAt2 V c n hn (ix1 q)
      = Ideal.ofBits .f32 0x00000000#32 + ∑ t ∈ Finset.range (n + 1), ∑ p : Fin 10000, blockTerm V c q t p
  | 0, hn, q => by
    rw [Finset.sum_range_one]
    exact outsAt_A V c ⟨0, hn⟩ rfl q
  | n + 1, hn, q => by
    have hN : cfg2.N = 10 := N_2
    have hB : ¬(⟨n + 1, hn⟩ : Fin cfg2.N).val % 10 = 0 := by dsimp only; omega
    refine (outsAt_B V c ⟨n + 1, hn⟩ hB q).trans ?_
    show outsAt2 V c n _ (ix1 q) + _ = _
    rw [outsAt_eq c n (Nat.lt_of_succ_lt hn) q]
    exact BlockSums.add_sum_range_succ _ (fun t => ∑ p : Fin 10000, blockTerm V c q t p) (n + 1)

/-! ## The output array -/

/-- What the output array ends holding: per feature, the zero word plus the sum over all nodes. -/
abbrev total (c : Dev nD) : S64.Idx → EReal :=
  fun i => Ideal.ofBits .f32 0x00000000#32 + ∑ n : Fin 100000, dev2 V c (i 0) n

/-- After the last point the ten row blocks' sums are the sum over all 100000 nodes. -/
theorem outsAt_last (c : Dev nD) (h9 : 9 < cfg2.N) : outsAt2 V c 9 h9 = total V c := by
  funext j
  obtain ⟨q, rfl⟩ : ∃ q : Fin 64, j = ix1 q := ⟨j 0, eq_ix1 j⟩
  show _ = Ideal.ofBits .f32 0x00000000#32 + ∑ n : Fin 100000, dev2 V c q n
  rw [outsAt_eq V c 9 h9 q, BlockSums.sum_fin_eq_sum_blocks 10 10000 rfl (dev2 V c q)]

/-- The one write-back, at the last point, writes it: the output's one block, read through zero offsets, is the whole
    64-array. -/
theorem flushed_eq (c : Dev nD) (t : Fin cfg2.N) (hf : (cfg2.win 2).flush t = true) :
    (dat2 (F := Ideal) V c).flushed 2 t = ((cfg2.win 2).blk t).view.read (Elt Ideal) (total V c) := by
  have hN : cfg2.N = 10 := N_2
  have h9 : t.val = 9 := by have := (flush2_2 t).mp hf; have := t.isLt; omega
  obtain ⟨-, -, -, e3⟩ := idx_facts t
  show (cfg2.win 2).cut (grid2.coords t) ((dat2 (F := Ideal) V c).after 2 t) = _
  rw [after2_2]
  obtain ⟨n, hn⟩ := t
  dsimp only at h9
  subst h9
  rw [outsAt_last V c hn]
  funext j
  show total V c j = total V c (((cfg2.win 2).blk ⟨9, hn⟩).view.emb j)
  refine congrArg (total V c) (funext fun a => Fin.ext ?_)
  match a with
  | ⟨0, _⟩ => show (j 0).val = win2_2.index ⟨9, hn⟩ (0 : Fin 1) * 64 + 1 * (j 0).val; rw [e3]; omega

/-- After the launch the output array holds, per feature, the zero word plus the sum over the nodes of the squared
    deviation of `h` from the mean. -/
theorem final (c : Dev nD) :
    sqArr V c = fun i => Ideal.ofBits .f32 0x00000000#32 + ∑ n : Fin 100000,
      ((hArr V c (ix2 n (i 0)) - muArr V c (ix1 (i 0))) * (hArr V c (ix2 n (i 0)) - muArr V c (ix1 (i 0)))) := by
  exact (dat2 (F := Ideal) V c).arrAt_eq_of_cover 2 (total V c) (flushed_eq V c) fun i =>
    ⟨t2_9, (flush2_2 t2_9).mpr rfl, by
      show i ∈ ((View.whole main_v29).slice (win2_2.rect t2_9)).set
      rw [View.set_slice_whole, Rect.mem_set_unit]
      intro a
      have h0 : (i 0 : Nat) < 64 := (i 0).isLt
      match a with
      | ⟨0, _⟩ =>
        show win2_2.index t2_9 0 * win2_2.size 0 ≤ (i 0 : Nat)
          ∧ (i 0 : Nat) < win2_2.index t2_9 0 * win2_2.size 0 + win2_2.xsize (grid2.coords t2_9) 0
        rw [show win2_2.index t2_9 0 * win2_2.size 0 = 0 from by decide +kernel,
          show win2_2.xsize (grid2.coords t2_9) 0 = 64 from by decide +kernel]
        omega⟩

end Cert.KernelIdeal.SqDev

end
-- ==== Proof.Normalise.lean ====
/-
  The normalisation launch: per row block, each entry of `h` less the mean of its column, times the reciprocal square
  root of the column's variance plus ε, times the scale, plus the shift. Over the whole grid the output array is that,
  entry by entry.
-/
import proofs.«407081_j76914274337220_2_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Normalise

open Cert.KernelIdeal Cert.KernelIdeal.Gen

variable (V : (c : Dev nD) → (b : Ref sig .tc) → Buf (Elt Ideal) ((c : Thread nD τ).loc b))

/-- The five arrays the launch finds in its input windows, at their literal types. -/
abbrev hArr (c : Dev nD) : S100000x64.Idx → EReal := V c main_v26_0
abbrev muArr (c : Dev nD) : S64.Idx → EReal := V c main_v28
abbrev varArr (c : Dev nD) : S64.Idx → EReal := V c main_v31
abbrev gArr (c : Dev nD) : S64.Idx → EReal := V c main_arg7
abbrev btArr (c : Dev nD) : S64.Idx → EReal := V c main_arg8
/-- The launch's output array after the last grid point. -/
abbrev outArr (c : Dev nD) : S100000x64.Idx → EReal := (dat3 (F := Ideal) V c).arrAt 5 cfg3.N

/-! ## One block: the body's arithmetic at a row and a feature -/

/-- The body reads and writes whole buffers: every access starts at offset zero. -/
theorem zero_offset1 : (![0] : Fin 1 → Nat) = fun _ => 0 := funext fun a => by fin_cases a; rfl
theorem zero_offset2 : (![0, 0] : Fin 2 → Nat) = fun _ => 0 := funext fun a => by fin_cases a <;> rfl

/-- What the body stores at row `p`, feature `q` of its block: the four 64-vectors enter only through their entry `q`
    (each is laid out as one row and repeated down the 10000 rows), so the entry is
    `(h p q − mean q) · rsqrt (variance q + ε) · scale q + shift q`. -/
theorem normalised_entry (vr : Vec Ideal S64 .f32) (h : Vec Ideal S10000x64 .f32) (mu g bt : Vec Ideal S64 .f32)
    (p : Fin 10000) (q : Fin 64) :
    (k3_pay1 (F := Ideal) vr h mu g bt) (ix2 p q)
      = (h (ix2 p q) - mu (ix1 q)) * Ideal.rsqrt (vr (ix1 q) + Ideal.ofBits .f32 0x3727C5AC#32) * g (ix1 q)
        + bt (ix1 q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_a_1a_apply, shapeCast_a_1a_apply]
  rfl

/-! ## Which rows a grid point sees -/

/-- The block indices over the grid: at point `t` the window of `h` and the output window sit at row block `t`,
    column block 0; the four 64-vectors are whole at every point. -/
theorem block_indices : ∀ t : Fin cfg3.N,
    win3_0.index t (0 : Fin 2) = t.val ∧ win3_0.index t (1 : Fin 2) = 0
    ∧ win3_1.index t (0 : Fin 1) = 0 ∧ win3_2.index t (0 : Fin 1) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- The normalised array: the entry at node `i 0`, feature `i 1`. -/
abbrev normArr (c : Dev nD) : S100000x64.Idx → EReal := fun i =>
  (hArr V c i - muArr V c (ix1 (i 1)))
    * Ideal.rsqrt (varArr V c (ix1 (i 1)) + Ideal.ofBits .f32 0x3727C5AC#32)
    * gArr V c (ix1 (i 1)) + btArr V c (ix1 (i 1))

/-- The normalised array at an index whose feature coordinate is `q`, with the feature named. -/
theorem normArr_apply (c : Dev nD) (k : S100000x64.Idx) (q : Fin 64) (hk : (k 1).val = q.val) :
    normArr V c k = (hArr V c k - muArr V c (ix1 q))
      * Ideal.rsqrt (varArr V c (ix1 q) + Ideal.ofBits .f32 0x3727C5AC#32)
      * gArr V c (ix1 q) + btArr V c (ix1 q) := by
  have e : (k 1 : Fin 64) = q := Fin.ext hk
  show (hArr V c k - muArr V c (ix1 (k 1 : Fin 64)))
      * Ideal.rsqrt (varArr V c (ix1 (k 1 : Fin 64)) + Ideal.ofBits .f32 0x3727C5AC#32)
      * gArr V c (ix1 (k 1 : Fin 64)) + btArr V c (ix1 (k 1 : Fin 64)) = _
  rw [e]

/-- Row `p`, feature `q` of the block of `h` at point `t` is row `10000·t + p`, feature `q` of `h`. -/
theorem h_block_entry (c : Dev nD) (t : Fin cfg3.N) (p : Fin 10000) (q : Fin 64) (k : S100000x64.Idx)
    (hk0 : (k 0).val = 10000 * t.val + p.val) (hk1 : (k 1).val = q.val) :
    (iblk3 (F := Ideal) V c 0 t : Vec Ideal S10000x64 .f32) (ix2 p q) = hArr V c k := by
  obtain ⟨e0, e1, -⟩ := block_indices t
  unfold iblk3
  rw [View.read_apply]
  show V c main_v26_0 _ = V c main_v26_0 _
  congr 1
  funext a
  apply Fin.ext
  match a with
  | ⟨0, _⟩ => show win3_0.index t (0 : Fin 2) * 10000 + 1 * p.val = (k 0).val; rw [e0, hk0]; omega
  | ⟨1, _⟩ => show win3_0.index t (1 : Fin 2) * 64 + 1 * q.val = (k 1).val; rw [e1, hk1]; omega

/-- The mean's block at any point is the mean itself. -/
theorem mean_block_entry (c : Dev nD) (t : Fin cfg3.N) (q : Fin 64) :
    (iblk3 (F := Ideal) V c 1 t : Vec Ideal S64 .f32) (ix1 q) = muArr V c (ix1 q) := by
  obtain ⟨-, -, e, -⟩ := block_indices t
  unfold iblk3
  rw [View.read_apply]
  show V c main_v28 _ = V c main_v28 _
  congr 1
  funext a
  apply Fin.ext
  match a with
  | ⟨0, _⟩ => show win3_1.index t (0 : Fin 1) * 64 + 1 * q.val = q.val; rw [e]; omega

/-- The variance's block at any point is the variance itself. -/
theorem variance_block_entry (c : Dev nD) (t : Fin cfg3.N) (q : Fin 64) :
    (iblk3 (F := Ideal) V c 2 t : Vec Ideal S64 .f32) (ix1 q) = varArr V c (ix1 q) := by
  obtain ⟨-, -, -, e, -⟩ := block_indices t
  unfold iblk3
  rw [View.read_apply]
  show V c main_v31 _ = V c main_v31 _
  congr 1
  funext a
  apply Fin.ext
  match a with
  | ⟨0, _⟩ => show win3_2.index t (0 : Fin 1) * 64 + 1 * q.val = q.val; rw [e]; omega

/-- The scale's block at any point is the scale itself. -/
theorem scale_block_entry (c : Dev nD) (t : Fin cfg3.N) (q : Fin 64) :
    (iblk3 (F := Ideal) V c 3 t : Vec Ideal S64 .f32) (ix1 q) = gArr V c (ix1 q) := by
  obtain ⟨-, -, -, -, e, -⟩ := block_indices t
  unfold iblk3
  rw [View.read_apply]
  show V c main_arg7 _ = V c main_arg7 _
  congr 1
  funext a
  apply Fin.ext
  match a with
  | ⟨0, _⟩ => show win3_3.index t (0 : Fin 1) * 64 + 1 * q.val = q.val; rw [e]; omega

/-- The shift's block at any point is the shift itself. -/
theorem shift_block_entry (c : Dev nD) (t : Fin cfg3.N) (q : Fin 64) :
    (iblk3 (F := Ideal) V c 4 t : Vec Ideal S64 .f32) (ix1 q) = btArr V c (ix1 q) := by
  obtain ⟨-, -, -, -, -, e, -⟩ := block_indices t
  unfold iblk3
  rw [View.read_apply]
  show V c main_arg8 _ = V c main_arg8 _
  congr 1
  funext a
  apply Fin.ext
  match a with
  | ⟨0, _⟩ => show win3_4.index t (0 : Fin 1) * 64 + 1 * q.val = q.val; rw [e]; omega

/-! ## From the blocks to the array -/

/-- What point `t` writes back is rows `10000·t … 10000·t + 9999` of the normalised array: the body's one store
    covers its whole block, and its entry at row `p`, feature `q` is the normalised entry of row `10000·t + p`. -/
theorem block_written (c : Dev nD) (t : Fin cfg3.N) :
    (dat3 (F := Ideal) V c).flushed 5 t = ((cfg3.win 5).blk t).view.read (Elt Ideal) (normArr V c) := by
  show (cfg3.win 5).cut (grid3.coords t) ((dat3 (F := Ideal) V c).after 5 t) = _
  rw [after3_5]
  unfold out3_5
  rw [View.canon_unit_zero zero_offset2]
  simp only [View.ld_unit_zero (S := S64) zero_offset1, View.ld_unit_zero (S := S10000x64) zero_offset2]
  obtain ⟨-, -, -, -, -, -, e0, e1⟩ := block_indices t
  funext j
  obtain ⟨p, q, rfl⟩ : ∃ (p : Fin 10000) (q : Fin 64), j = ix2 p q := ⟨j 0, j 1, eq_ix2 j⟩
  show k3_pay1 (F := Ideal) (iblk3 V c 2 t) (iblk3 V c 0 t) (iblk3 V c 1 t) (iblk3 V c 3 t) (iblk3 V c 4 t) (ix2 p q)
      = normArr V c (((cfg3.win 5).blk t).view.emb (ix2 p q))
  have hk0 : ((((cfg3.win 5).blk t).view.emb (ix2 p q)) 0).val = 10000 * t.val + p.val := by
    show win3_5.index t (0 : Fin 2) * 10000 + 1 * p.val = _
    rw [e0]; omega
  have hk1 : ((((cfg3.win 5).blk t).view.emb (ix2 p q)) 1).val = q.val := by
    show win3_5.index t (1 : Fin 2) * 64 + 1 * q.val = _
    rw [e1]; omega
  refine (normalised_entry (iblk3 V c 2 t) (iblk3 V c 0 t) (iblk3 V c 1 t) (iblk3 V c 3 t) (iblk3 V c 4 t) p q).trans ?_
  rw [normArr_apply V c _ q hk1, h_block_entry V c t p q _ hk0 hk1, mean_block_entry, variance_block_entry,
    scale_block_entry, shift_block_entry]

/-- Every node's row lies in the block some point writes back: row `r` in that of point `r / 10000`. -/
theorem rows_covered (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  have ht : t.val = (i 0).val / 10000 := rfl
  obtain ⟨-, -, -, -, -, -, e0, e1⟩ := block_indices t
  refine ⟨t, flush3_5 t, ?_⟩
  show i ∈ ((View.whole main_v32).slice (win3_5.rect t)).set
  rw [View.set_slice_whole, Rect.mem_set_unit]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 64 ≤ (i 1).val ∧ (i 1).val < win3_5.index t (1 : Fin 2) * 64 + 64
    rw [e1]; omega

/-- After the launch the output array holds the normalised entry at every node and feature. -/
theorem final (c : Dev nD) :
    outArr V c = fun i => (hArr V c i - muArr V c (ix1 (i 1)))
        * Ideal.rsqrt (varArr V c (ix1 (i 1)) + Ideal.ofBits .f32 0x3727C5AC#32)
        * gArr V c (ix1 (i 1)) + btArr V c (ix1 (i 1)) :=
  (dat3 (F := Ideal) V c).arrAt_eq_of_cover 5 (normArr V c) (fun t _ => block_written V c t) rows_covered

end Cert.KernelIdeal.Normalise

end
-- ==== Proof.Spec.lean ====
/-
  What the node update computes after the edge aggregation, as functions over the extended reals, index by index.

  Given the concatenated node features `xa` (row `n`: the 64 input features of node `n`, then its 64 aggregated
  message features), the node weights `W` (128 × 64) and bias `b`, the PReLU slope `a`, and the batch-norm scale
  `γ` and shift `β`:
    lin    n j = (∑ₖ xa[n,k] · W[k,j]) + b[j]
    act    n j = lin n j if lin n j ≥ 0, else a · lin n j
    mean   j   = (0 + ∑ₙ act n j) / 100000
    var    j   = (0 + ∑ₙ (act n j − mean j)²) / 100000
    out    n j = (act n j − mean j) · rsqrt(var j + ε) · γ[j] + β[j]
  Both programs compute exactly this from `xa`; they differ only in how they arrive at `xa` and in the order in
  which the two column sums are accumulated, which does not matter for a sum of extended reals.
-/
import Idealize.ShloMosaic.PureOps.Ideal
import Idealize.ShloMosaic.Lib.ValueIdx

noncomputable section

namespace Cert.Gnn

open Idealize.ShloMosaic Idealize.ShloMosaic.ValueIdx

/-- Node features, 100000 rows of 64. -/
abbrev Nodes64 : Shape := ⟨2, ![100000, 64]⟩
/-- Node features beside aggregated messages, 100000 rows of 128. -/
abbrev Nodes128 : Shape := ⟨2, ![100000, 128]⟩
/-- A weight matrix, 128 × 64. -/
abbrev Wt : Shape := ⟨2, ![128, 64]⟩
/-- A feature vector of 64. -/
abbrev Vec64 : Shape := ⟨1, ![64]⟩
/-- A scalar. -/
abbrev Sc : Shape := ⟨0, ![]⟩

/-- The word `+0.0`, the sums' initial value. -/
abbrev zeroW : EReal := Ideal.ofBits .f32 0x00000000#32
/-- The word `100000.0`, the number of nodes the two column sums are divided by. -/
abbrev nodesW : EReal := Ideal.ofBits .f32 0x47C35000#32
/-- The word of the batch-norm `ε`. -/
abbrev epsW : EReal := Ideal.ofBits .f32 0x3727C5AC#32

/-- The node layer before its activation: row `n` of `xa` against column `j` of `W`, plus the bias. -/
def lin (xa : Nodes128.Idx → EReal) (W : Wt.Idx → EReal) (b : Vec64.Idx → EReal) (n : Fin 100000) (j : Fin 64) : EReal :=
  (∑ k : Fin 128, xa (ix2 n k) * W (ix2 k j)) + b (ix1 j)

/-- PReLU with slope `a`: the value itself where it is at least zero, `a` times it elsewhere. -/
def leaky (a z : EReal) : EReal :=
  Scalar.select (FloatOps.cmpf (F := Ideal) (φ := .f32) .oge z zeroW) z (a * z)

/-- The activated node features. -/
def act (xa : Nodes128.Idx → EReal) (W : Wt.Idx → EReal) (b : Vec64.Idx → EReal) (a : Sc.Idx → EReal)
    (n : Fin 100000) (j : Fin 64) : EReal :=
  leaky (a ix0) (lin xa W b n j)

/-- The mean of column `j` of `h` over the nodes. -/
def colMean (h : Fin 100000 → Fin 64 → EReal) (j : Fin 64) : EReal :=
  Ideal.div (zeroW + ∑ n : Fin 100000, h n j) nodesW

/-- The biased variance of column `j` of `h` about `μ`. -/
def colVar (h : Fin 100000 → Fin 64 → EReal) (μ : Fin 64 → EReal) (j : Fin 64) : EReal :=
  Ideal.div (zeroW + ∑ n : Fin 100000, (h n j - μ j) * (h n j - μ j)) nodesW

/-- Batch normalisation of one entry. -/
def normed (h : Fin 100000 → Fin 64 → EReal) (μ v : Fin 64 → EReal) (γ β : Vec64.Idx → EReal)
    (n : Fin 100000) (j : Fin 64) : EReal :=
  (h n j - μ j) * Ideal.rsqrt (v j + epsW) * γ (ix1 j) + β (ix1 j)

/-- The whole node update, from the concatenated features to the normalised output. -/
def nodeUpdate (xa : Nodes128.Idx → EReal) (W : Wt.Idx → EReal) (b : Vec64.Idx → EReal) (a : Sc.Idx → EReal)
    (γ β : Vec64.Idx → EReal) (n : Fin 100000) (j : Fin 64) : EReal :=
  normed (act xa W b a) (colMean (act xa W b a)) (colVar (act xa W b a) (colMean (act xa W b a))) γ β n j

/-- The same as an array over the output's index type. -/
def nodeUpdateArr (xa : Nodes128.Idx → EReal) (W : Wt.Idx → EReal) (b : Vec64.Idx → EReal) (a : Sc.Idx → EReal)
    (γ β : Vec64.Idx → EReal) : Nodes64.Idx → EReal :=
  fun i => nodeUpdate xa W b a γ β (i 0) (i 1)

end Cert.Gnn

end
-- ==== Proof.KernelValue.lean ====
/-
  The idealized kernel's result, as the specification's node update.

  The four launches, each read for an arbitrary entry valuation, are chained through what the host puts between them:
  the first leaves the projection of the node features against the widened edge weights; the host turns it into the
  aggregated messages and lays them beside the node features; the second launch leaves the activated node layer and its
  column sums; the host divides by the number of nodes (the mean); the third leaves the column sums of squared
  deviations, divided again (the variance); the fourth normalises. Entry by entry that is `Gnn.nodeUpdate` of the
  concatenated features.
-/
import proofs.«407081_j76914274337220_2_alg».proof.Proof.HostChain
import proofs.«407081_j76914274337220_2_alg».proof.Proof.Proj
import proofs.«407081_j76914274337220_2_alg».proof.Proof.NodeLayer
import proofs.«407081_j76914274337220_2_alg».proof.Proof.SqDev
import proofs.«407081_j76914274337220_2_alg».proof.Proof.Normalise
import proofs.«407081_j76914274337220_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.NodeValue

open Cert.KernelIdeal Cert.KernelIdeal.Gen Cert.KernelIdeal.Chain

variable (m : (ℓ : Loc nD τ sig) → Buf (Elt Ideal) ℓ) (ρ : Dev nD → PrngReg)

/-- The argument arrays as launched, at their literal types. -/
abbrev xA (c : Dev nD) : S100000x64.Idx → EReal := (m ((c.tc : Thread nD τ).loc main_arg0))
abbrev eiA (c : Dev nD) : IVec S2x1600000 32 := (m ((c.tc : Thread nD τ).loc main_arg1))
abbrev weA (c : Dev nD) : S128x64.Idx → EReal := (m ((c.tc : Thread nD τ).loc main_arg2))
abbrev beA (c : Dev nD) : S64.Idx → EReal := (m ((c.tc : Thread nD τ).loc main_arg3))
abbrev wnA (c : Dev nD) : S128x64.Idx → EReal := (m ((c.tc : Thread nD τ).loc main_arg4))
abbrev bnA (c : Dev nD) : S64.Idx → EReal := (m ((c.tc : Thread nD τ).loc main_arg5))
abbrev aA (c : Dev nD) : S_.Idx → EReal := (m ((c.tc : Thread nD τ).loc main_arg6))
abbrev gA (c : Dev nD) : S64.Idx → EReal := (m ((c.tc : Thread nD τ).loc main_arg7))
abbrev btA (c : Dev nD) : S64.Idx → EReal := (m ((c.tc : Thread nD τ).loc main_arg8))
/-- The widened edge weights and bias the first launch reads, at their literal types. -/
abbrev wideW (c : Dev nD) : S64x128.Idx → EReal := wideWeights (F := Ideal) (weA m c)
abbrev wideB (c : Dev nD) : S128.Idx → EReal := wideBias (F := Ideal) (beA m c)

/-- The projection the first launch computes, of the argument arrays. -/
def projected (c : Dev nD) : FVec Ideal S100000x128 .f32 :=
  fun i => (∑ k : Fin 64, xA m c (ix2 (i 0) k) * wideW m c (ix2 k (i 1))) + wideB m c (ix1 (i 1))

/-- The concatenated features the second launch reads, of the argument arrays. -/
def xa (c : Dev nD) : FVec Ideal S100000x128 .f32 :=
  features (F := Ideal) (xA m c) (aggregate (F := Ideal) (projected m c) (eiA m c))

/-- After the first launch the projection array holds the projection. -/
theorem projection_eq (c : Dev nD) : W2 m ρ c (Proc.devRef .tc main_v9) = projected m c := by
  have h := Proj.final (V1 m ρ) c
  dsimp only [Proj.outArr, Proj.xArr, Proj.wArr, Proj.bArr] at h
  rw [entry0_x, entry0_w, entry0_b] at h
  unfold projected
  exact (W2_arr m ρ c 3).trans h

/-- So the second launch reads the concatenated features. -/
theorem xa_eq (c : Dev nD) : V5 m ρ c main_v24 = xa m c := by
  rw [entry1_xa, projection_eq]; rfl

/-! ## The second launch: the activated node layer and its column sums -/

/-- The activated node layer of the specification, of the argument arrays. -/
abbrev hS (c : Dev nD) : Fin 100000 → Fin 64 → EReal := Cert.Gnn.act (xa m c) (wnA m c) (bnA m c) (aA m c)

/-- The one entry of the reshaped slope is the slope. -/
theorem slope_eq (c : Dev nD) : (V5 m ρ c main_v25 : S1x1.Idx → EReal) (ix2 0 0) = aA m c ix0 := by
  rw [entry1_a]
  unfold shapeCast
  exact congrArg (aA m c) (funext fun a => a.elim0)

theorem hAt_eq (c : Dev nD) (n : Fin 100000) (j : Fin 64) : NodeLayer.hAt (V5 m ρ) c n j = hS m c n j := by
  unfold NodeLayer.hAt
  dsimp only [NodeLayer.aArr, NodeLayer.xaArr, NodeLayer.wArr, NodeLayer.bArr]
  rw [xa_eq, entry1_w, entry1_b, slope_eq]
  rfl

/-- After the second launch its first output holds the activated layer, -/
theorem h_eq (c : Dev nD) :
    (W6 m ρ c (Proc.devRef .tc main_v26_0) : S100000x64.Idx → EReal) = fun i => hS m c (i 0) (i 1) := by
  refine (W6_arr m ρ c 4).trans ((NodeLayer.final_h (V5 m ρ) c).trans ?_)
  funext i
  exact hAt_eq m ρ c (i 0) (i 1)

/-- and its second the zero word plus the column sums of the activated layer. -/
theorem sum_eq (c : Dev nD) :
    (W6 m ρ c (Proc.devRef .tc main_v26_1) : S64.Idx → EReal)
      = fun i => Cert.Gnn.zeroW + ∑ n : Fin 100000, hS m c n (i 0) := by
  refine (W6_arr m ρ c 5).trans ((NodeLayer.final_sum (V5 m ρ) c).trans ?_)
  funext i
  exact congrArg (Cert.Gnn.zeroW + ·) (Finset.sum_congr rfl fun n _ => hAt_eq m ρ c n (i 0))

/-! ## The mean, the third launch, the variance -/

/-- A 64-vector divided by the number of nodes, read at an entry. -/
theorem perNode_apply (s : S64.Idx → EReal) (i : S64.Idx) :
    (perNode (F := Ideal) s : S64.Idx → EReal) i = Ideal.div (s i) Cert.Gnn.nodesW := rfl

/-- The mean row the third and fourth launches read. -/
theorem mu_eq (c : Dev nD) :
    (V7 m ρ c main_v28 : S64.Idx → EReal) = fun i => Cert.Gnn.colMean (hS m c) (i 0) := by
  rw [entry2_mu, sum_eq]
  funext i
  rw [perNode_apply]
  rfl

/-- After the third launch its output holds the zero word plus the column sums of squared deviations from the mean. -/
theorem sq_eq (c : Dev nD) :
    (W8 m ρ c (Proc.devRef .tc main_v29) : S64.Idx → EReal)
      = fun i => Cert.Gnn.zeroW + ∑ n : Fin 100000,
          (hS m c n (i 0) - Cert.Gnn.colMean (hS m c) (i 0)) * (hS m c n (i 0) - Cert.Gnn.colMean (hS m c) (i 0)) := by
  have h := SqDev.final (V7 m ρ) c
  dsimp only [SqDev.sqArr, SqDev.hArr, SqDev.muArr] at h
  rw [entry2_h, h_eq, mu_eq] at h
  exact (W8_arr m ρ c 2).trans h

/-- The variance row the fourth launch reads. -/
theorem var_eq (c : Dev nD) :
    (V9 m ρ c main_v31 : S64.Idx → EReal)
      = fun i => Cert.Gnn.colVar (hS m c) (Cert.Gnn.colMean (hS m c)) (i 0) := by
  rw [entry3_var, sq_eq]
  funext i
  rw [perNode_apply]
  rfl

/-! ## The fourth launch: the result -/

/-- After the last launch the result array holds the specification's node update of the concatenated features. -/
theorem result_eq (c : Dev nD) :
    (W10 m ρ c (Proc.devRef .tc main_v32) : S100000x64.Idx → EReal)
      = Cert.Gnn.nodeUpdateArr (xa m c) (wnA m c) (bnA m c) (aA m c) (gA m c) (btA m c) := by
  have h := Normalise.final (V9 m ρ) c
  dsimp only [Normalise.outArr, Normalise.hArr, Normalise.muArr, Normalise.varArr, Normalise.gArr, Normalise.btArr] at h
  rw [entry3_h, entry3_mu, entry3_g, entry3_bt, var_eq, h_eq] at h
  have hmu : (perNode (F := Ideal) (W6 m ρ c (Proc.devRef .tc main_v26_1)) : S64.Idx → EReal)
      = fun i => Cert.Gnn.colMean (hS m c) (i 0) := by rw [← entry2_mu]; exact mu_eq m ρ c
  rw [hmu] at h
  exact (W10_arr m ρ c 5).trans h

end Cert.KernelIdeal.NodeValue

end
-- ==== Proof.LibRowIndex.lean ====
/-
  General lemmas about gathering rows of a matrix by an index column, and about scattering rows, or scalars, onto the
  rows an index column names, with StableHLO's dimension numbers for `x[idx]` on axis 0 and for a segment sum.

  A row gather reads, at result position (e, f), the operand at row `idx[e, 0]` (read as a signed integer and
  clamped into [0, N − 1]) and column f. A row scatter sends update (e, f) to operand position (idx[e, 0], f) when
  that signed integer is a row of the operand and drops it otherwise; the scalar scatter sends update e to position
  idx[e, 0] likewise. So at the extended reals an accumulating scatter leaves, at row n, the operand's entry plus the
  sum of the updates of exactly those e whose index is n.
-/
import Idealize.ShloMosaic.PureOps.Ideal
import Idealize.ShloMosaic.PureOps.Contract
import Idealize.ShloMosaic.Lib.ValueIdx

noncomputable section

namespace Cert.RowIndex

open Idealize.ShloMosaic Idealize.ShloMosaic.ValueIdx

/-- The dimension numbers of a gather of rows: operand [N, C], start indices [E, 1], result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a scatter of rows: operand [N, C], scatter indices [E, 1], updates [E, C]. -/
abbrev scatterRows (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterScalars (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E C w : Nat}

/-- THE ROW GATHER READ AT (e, f): the operand at the row `idx[e, 0]` names, read signed and clamped into
    [0, N − 1], and column f. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (gatherRows N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    show (gatherRows N E C wf).start (ix2 e f) idx 0 + (gatherRows N E C wf).batchCoord (ix2 e f) 0
      + (gatherRows N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e f) ⟨List.idxOf (0 : Fin 2) (gatherRows N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRows N E C wf).start (ix2 e f) idx 1 + (gatherRows N E C wf).batchCoord (ix2 e f) 1
      + (gatherRows N E C wf).offCoord (ix2 e f) 1 = _
    rw [GatherDims.batchCoord_eq_zero _ _ _ List.not_mem_nil]
    unfold GatherDims.start
    rw [dif_neg (show (1 : Fin 2) ∉ (gatherRows N E C wf).startIndexMap from
      fun h => absurd (List.mem_singleton.mp h) (show ¬(1 : Fin 2) = 0 by decide))]
    simp only [Nat.add_zero, Nat.zero_add]
    unfold GatherDims.offCoord
    rw [dif_pos (show (1 : Fin 2) ∈ (gatherRows N E C wf).sKept from (GatherDims.mem_sKept _ _).mpr
      ⟨fun h => absurd (List.mem_singleton.mp h) (show ¬(1 : Fin 2) = 0 by decide), List.not_mem_nil⟩)]
    rfl

/-- So where the index is a row of the operand, the gather reads that row. -/
theorem gatherRows_apply_of_inRange {α : Type}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) (n : Fin N)
    (h : (idx (ix2 e 0)).toInt = (n.val : Int)) :
    Host.gather (gatherRows N E C wf) x idx (ix2 e f) = x (ix2 n f) := by
  have hN : 0 < N := Nat.lt_of_le_of_lt (Nat.zero_le _) n.isLt
  rw [gatherRows_apply hN wf x idx e f]
  refine congrArg (fun k => x (ix2 k f)) (Fin.ext ?_)
  show min (idx (ix2 e 0)).toInt.toNat (N - 1) = n.val
  rw [h, Int.toNat_natCast]
  have := n.isLt
  omega

/-- An axis is among the kept ones exactly when it is not among the removed ones. -/
theorem mem_kept {s : Shape} (axes : List (Fin s.rank)) (a : Fin s.rank) : a ∈ s.kept axes ↔ a ∉ axes := by
  simp [Shape.kept, List.mem_filter, List.mem_finRange]

/-- An update lands at operand index i exactly when, on every axis, the signed start plus the window coordinate is
    i's coordinate: the range test of the landing index is then i's own bounds. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro heq a
    split at heq
    · rename_i h
      have hv : (d.start j idx a + (d.window j a : Int)).toNat = (i a).val :=
        congrArg Fin.val (congrFun (Option.some.inj heq) a)
      have := (h a).1
      omega
    · exact absurd heq (by simp)
  · intro hall
    have h : ∀ a, 0 ≤ d.start j idx a + (d.window j a : Int)
        ∧ d.start j idx a + (d.window j a : Int) < (s.size a : Int) := by
      intro a
      have := hall a
      have := (i a).isLt
      omega
    rw [dif_pos h]
    congr 1
    funext a
    refine Fin.ext ?_
    show (d.start j idx a + (d.window j a : Int)).toNat = (i a).val
    have := hall a
    omega

/-! The row scatter, axis by axis: axis 0 is the scattered one (start the index word, no window coordinate), axis 1
    the window one (start 0, window coordinate the update's column). -/

theorem scatterRows_start_0 (wf : ScatterDims.WF ⟨2, ![N, C]⟩ ⟨2, ![E, 1]⟩ ⟨2, ![E, C]⟩ [1] [0] [0] 1)
    (idx : IVec ⟨2, ![E, 1]⟩ w) (e : Fin E) (f : Fin C) :
    (scatterRows N E C wf).start (ix2 e f) idx (0 : Fin 2) = (idx (ix2 e 0)).toInt := by
  unfold ScatterDims.start
  rw [dif_pos (show (0 : Fin 2) ∈ (scatterRows N E C wf).scatterDimsToOperandDims from List.mem_singleton.mpr rfl)]
  have hsi : (scatterRows N E C wf).siIdx (ix2 e f) ⟨List.idxOf (0 : Fin 2) (scatterRows N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatterRows_start_1 (wf : ScatterDims.WF ⟨2, ![N, C]⟩ ⟨2, ![E, 1]⟩ ⟨2, ![E, C]⟩ [1] [0] [0] 1)
    (idx : IVec ⟨2, ![E, 1]⟩ w) (e : Fin E) (f : Fin C) :
    (scatterRows N E C wf).start (ix2 e f) idx (1 : Fin 2) = 0 := by
  unfold ScatterDims.start
  rw [dif_neg (show (1 : Fin 2) ∉ (scatterRows N E C wf).scatterDimsToOperandDims from
    fun h => absurd (List.mem_singleton.mp h) (show ¬(1 : Fin 2) = 0 by decide))]

theorem scatterRows_window_0 (wf : ScatterDims.WF ⟨2, ![N, C]⟩ ⟨2, ![E, 1]⟩ ⟨2, ![E, C]⟩ [1] [0] [0] 1)
    (e : Fin E) (f : Fin C) :
    (scatterRows N E C wf).window (ix2 e f) (0 : Fin 2) = 0 := by
  unfold ScatterDims.window
  rw [dif_neg (show (0 : Fin 2) ∉ (scatterRows N E C wf).sKept from
    fun h => (mem_kept _ _).mp h (List.mem_singleton.mpr rfl))]

theorem scatterRows_window_1 (wf : ScatterDims.WF ⟨2, ![N, C]⟩ ⟨2, ![E, 1]⟩ ⟨2, ![E, C]⟩ [1] [0] [0] 1)
    (e : Fin E) (f : Fin C) :
    (scatterRows N E C wf).window (ix2 e f) (1 : Fin 2) = f.val := by
  unfold ScatterDims.window
  rw [dif_pos (show (1 : Fin 2) ∈ (scatterRows N E C wf).sKept from
    (mem_kept _ _).mpr fun h => absurd (List.mem_singleton.mp h) (show ¬(1 : Fin 2) = 0 by decide))]
  rfl

/-- Where a row update lands: update (e, f) goes to (n, f') exactly when `idx[e, 0]`, read signed, is n and the
    columns agree. -/
theorem scatterRows_resultIdx (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (f' : Fin C) :
    (scatterRows N E C wf).resultIdx? (ix2 e f) idx = some (ix2 n f')
      ↔ (idx (ix2 e 0)).toInt = (n.val : Int) ∧ f = f' := by
  rw [resultIdx?_eq_some_iff]
  constructor
  · intro hall
    have h0 : (scatterRows N E C wf).start (ix2 e f) idx (0 : Fin 2)
        + ((scatterRows N E C wf).window (ix2 e f) (0 : Fin 2) : Int) = (n.val : Int) := hall 0
    have h1 : (scatterRows N E C wf).start (ix2 e f) idx (1 : Fin 2)
        + ((scatterRows N E C wf).window (ix2 e f) (1 : Fin 2) : Int) = (f'.val : Int) := hall 1
    rw [scatterRows_start_0, scatterRows_window_0] at h0
    rw [scatterRows_start_1, scatterRows_window_1] at h1
    exact ⟨by omega, Fin.ext (by omega)⟩
  · rintro ⟨hn, rfl⟩ a
    match a with
    | ⟨0, _⟩ =>
      show (scatterRows N E C wf).start (ix2 e f) idx (0 : Fin 2)
        + ((scatterRows N E C wf).window (ix2 e f) (0 : Fin 2) : Int) = (n.val : Int)
      rw [scatterRows_start_0, scatterRows_window_0, hn]
      omega
    | ⟨1, _⟩ =>
      show (scatterRows N E C wf).start (ix2 e f) idx (1 : Fin 2)
        + ((scatterRows N E C wf).window (ix2 e f) (1 : Fin 2) : Int) = (f.val : Int)
      rw [scatterRows_start_1, scatterRows_window_1]
      omega

/-! The scalar scatter has the one axis: the scattered one, with no window coordinate. -/

theorem scatterScalars_start_0 (wf : ScatterDims.WF ⟨1, ![N]⟩ ⟨2, ![E, 1]⟩ ⟨1, ![E]⟩ [] [0] [0] 1)
    (idx : IVec ⟨2, ![E, 1]⟩ w) (e : Fin E) :
    (scatterScalars N E wf).start (ix1 e) idx (0 : Fin 1) = (idx (ix2 e 0)).toInt := by
  unfold ScatterDims.start
  rw [dif_pos (show (0 : Fin 1) ∈ (scatterScalars N E wf).scatterDimsToOperandDims from List.mem_singleton.mpr rfl)]
  have hsi : (scatterScalars N E wf).siIdx (ix1 e) ⟨List.idxOf (0 : Fin 1) (scatterScalars N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatterScalars_window_0 (wf : ScatterDims.WF ⟨1, ![N]⟩ ⟨2, ![E, 1]⟩ ⟨1, ![E]⟩ [] [0] [0] 1) (e : Fin E) :
    (scatterScalars N E wf).window (ix1 e) (0 : Fin 1) = 0 := by
  unfold ScatterDims.window
  rw [dif_neg (show (0 : Fin 1) ∉ (scatterScalars N E wf).sKept from
    fun h => (mem_kept _ _).mp h (List.mem_singleton.mpr rfl))]

/-- Where a scalar update lands: update e goes to n exactly when `idx[e, 0]`, read signed, is n. -/
theorem scatterScalars_resultIdx (wf : ScatterDims.WF ⟨1, ![N]⟩ ⟨2, ![E, 1]⟩ ⟨1, ![E]⟩ [] [0] [0] 1)
    (idx : IVec ⟨2, ![E, 1]⟩ w) (e : Fin E) (n : Fin N) :
    (scatterScalars N E wf).resultIdx? (ix1 e) idx = some (ix1 n) ↔ (idx (ix2 e 0)).toInt = (n.val : Int) := by
  rw [resultIdx?_eq_some_iff]
  constructor
  · intro hall
    have h0 : (scatterScalars N E wf).start (ix1 e) idx (0 : Fin 1)
        + ((scatterScalars N E wf).window (ix1 e) (0 : Fin 1) : Int) = (n.val : Int) := hall 0
    rw [scatterScalars_start_0, scatterScalars_window_0] at h0
    omega
  · intro hn a
    match a with
    | ⟨0, _⟩ =>
      show (scatterScalars N E wf).start (ix1 e) idx (0 : Fin 1)
        + ((scatterScalars N E wf).window (ix1 e) (0 : Fin 1) : Int) = (n.val : Int)
      rw [scatterScalars_start_0, scatterScalars_window_0, hn]
      omega

/-- THE ACCUMULATING ROW SCATTER READ AT (n, f), over the extended reals: the operand's entry plus the sum, over the
    updates whose index is n, of their column f. -/
theorem scatterAddRows_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd (scatterRows N E C wf) x idx upd (ix2 n f)
      = x (ix2 n f) + ∑ e ∈ Finset.univ.filter (fun e : Fin E => (idx (ix2 e 0)).toInt = (n.val : Int)), upd (ix2 e f) := by
  unfold Ideal.hostScatterAdd
  congr 1
  symm
  -- the updates that land at (n, f) are the (e, f) with index n: e ↦ (e, f) is a bijection onto them
  refine Finset.sum_bij (fun e _ => ix2 e f) ?_ ?_ ?_ ?_
  · intro e he
    rw [Finset.mem_filter] at he ⊢
    exact ⟨Finset.mem_univ _, (scatterRows_resultIdx wf idx e f n f).mpr ⟨he.2, rfl⟩⟩
  · intro a _ b _ hab
    exact congrFun hab 0
  · intro j hj
    rw [Finset.mem_filter] at hj
    obtain ⟨p, q, rfl⟩ : ∃ (p : Fin E) (q : Fin C), j = ix2 p q := ⟨j 0, j 1, eq_ix2 j⟩
    have hpq := (scatterRows_resultIdx wf idx p q n f).mp hj.2
    refine ⟨p, ?_, ?_⟩
    · rw [Finset.mem_filter]
      exact ⟨Finset.mem_univ _, hpq.1⟩
    · rw [hpq.2]
  · intro e _
    rfl

/-- THE ACCUMULATING SCALAR SCATTER READ AT n, over the extended reals: the operand's entry plus the sum of the updates
    whose index is n. -/
theorem scatterAddScalars_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (scatterScalars N E wf) x idx upd (ix1 n)
      = x (ix1 n) + ∑ e ∈ Finset.univ.filter (fun e : Fin E => (idx (ix2 e 0)).toInt = (n.val : Int)), upd (ix1 e) := by
  unfold Ideal.hostScatterAdd
  congr 1
  symm
  -- the updates that land at n are the e with index n
  refine Finset.sum_bij (fun e _ => ix1 e) ?_ ?_ ?_ ?_
  · intro e he
    rw [Finset.mem_filter] at he ⊢
    exact ⟨Finset.mem_univ _, (scatterScalars_resultIdx wf idx e n).mpr he.2⟩
  · intro a _ b _ hab
    exact congrFun hab 0
  · intro j hj
    rw [Finset.mem_filter] at hj
    obtain ⟨p, rfl⟩ : ∃ p : Fin E, j = ix1 p := ⟨j 0, eq_ix1 j⟩
    refine ⟨p, ?_, rfl⟩
    rw [Finset.mem_filter]
    exact ⟨Finset.mem_univ _, (scatterScalars_resultIdx wf idx p n).mp hj.2⟩
  · intro e _
    rfl

end Cert.RowIndex

end
-- ==== Proof.LibEdgeAlgebra.lean ====
/-
  The algebra behind splitting a message sum. Over a finite set `S` of edges with one destination, each edge carrying
  `A e` and all of them sharing one term `c`:
      (∑ₑ A e) + (number of edges) · c = ∑ₑ (A e + c).
  On the extended reals multiplication does not distribute over addition in general, but it does for non-negative
  coefficients, and an edge count is one: so the identity holds for every `A` and `c`, finite or not.
-/
import Mathlib.Data.EReal.Operations
import Mathlib.Algebra.BigOperators.Group.Finset.Basic

namespace Cert.EdgeAlgebra

open Finset

/-- A natural number, as an extended real, is non-negative. -/
theorem natCast_nonneg (n : ℕ) : (0 : EReal) ≤ (n : EReal) := by
  exact_mod_cast Nat.zero_le n

/-- A natural number times an extended real is that many copies of it added up. -/
theorem natCast_mul (n : ℕ) (c : EReal) : (n : EReal) * c = n • c := by
  induction n with
  | zero => simp
  | succ k ih =>
    rw [Nat.cast_succ, EReal.right_distrib_of_nonneg (natCast_nonneg k) zero_le_one, ih, one_mul, succ_nsmul]

/-- A sum of ones over `S` is the size of `S`. -/
theorem sum_ones {ι : Type*} (S : Finset ι) : ∑ _e ∈ S, (1 : EReal) = (S.card : EReal) := by
  rw [sum_const, nsmul_one]

/-- The message sum split: the per-edge parts summed, plus the edge count times the shared part, is the sum of the
    whole messages. The zeros are the sums' initial values, and the one added to each `A e` a bias of zero. -/
theorem fibre_split {ι : Type*} (S : Finset ι) (A : ι → EReal) (B b : EReal) :
    (0 + ∑ e ∈ S, (A e + 0)) + (0 + ∑ _e ∈ S, (1 : EReal)) * (B + b) = 0 + ∑ e ∈ S, ((A e + B) + b) := by
  simp only [zero_add, add_zero]
  rw [sum_ones, natCast_mul, ← sum_const, ← sum_add_distrib]
  exact sum_congr rfl fun e _ => (add_assoc _ _ _).symm

end Cert.EdgeAlgebra
-- ==== Proof.EdgeSplit.lean ====
/-
  The two programs aggregate the same messages.

  The reference forms, for every edge e, the message  (x[src e] ‖ x[dst e]) · W + b  (the 128-wide concatenation of the two
  end points' features against the 128 × 64 edge weights) and sums the messages onto their destination nodes.
  The kernel first projects every node once, P = x · W_top and Q = x · W_bot + b (one product against the two halves of W
  laid side by side, the bias behind 64 zeros), gathers P at the edges' sources, sums that onto the destinations, and
  adds (number of edges arriving at n) · Q[n].
  At node n and feature f both are, over the edges e whose destination is n,
      ∑ₑ ( ∑ₖ x[src e, k] · W[k, f]  +  ∑ₖ x[n, k] · W[64 + k, f]  +  b[f] ):
  the 128-term product splits into its two 64-term halves, the second half and the bias are the same for every edge
  arriving at n, and a count times a shared term is that term added once per edge. This needs every entry of the edge
  list to be a node number: then the reference's clamped gather and the kernel's guarded take both read row src e.
-/
import proofs.«407081_j76914274337220_2_alg».proof.Proof.HostChain
import proofs.«407081_j76914274337220_2_alg».proof.Proof.RefRead
import proofs.«407081_j76914274337220_2_alg».proof.Proof.LibRowIndex
import proofs.«407081_j76914274337220_2_alg».proof.Proof.LibEdgeAlgebra
import Idealize.ShloMosaic.PureOps.Ideal
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout
import Idealize.ShloMosaic.Lib.Affine

noncomputable section

open Idealize.ShloMosaic Idealize.ShloMosaic.ValueIdx

namespace Cert.EdgeSplit

open Cert.KernelIdeal.Chain

/-- The projection the first launch leaves: every node's features against the widened weights, plus the widened bias. -/
def projection (x : FVec Ideal Cert.KernelIdeal.S100000x64 .f32) (We : FVec Ideal Cert.KernelIdeal.S128x64 .f32)
    (be : FVec Ideal Cert.KernelIdeal.S64 .f32) : FVec Ideal Cert.KernelIdeal.S100000x128 .f32 :=
  fun i => (∑ k : Fin 64, x (ix2 (i 0) k) * wideWeights We (ix2 k (i 1))) + wideBias be (ix1 (i 1))

/-! ## Words -/

/-- The node an index word in range names. -/
def nodeOf (v : BitVec 32) (h : 0 ≤ v.toInt ∧ v.toInt < 100000) : Fin 100000 := ⟨v.toInt.toNat, by omega⟩

theorem nodeOf_val (v : BitVec 32) (h : 0 ≤ v.toInt ∧ v.toInt < 100000) : ((nodeOf v h).val : Int) = v.toInt := by
  show ((v.toInt.toNat : Nat) : Int) = v.toInt
  omega

/-- The wrap of negative indices leaves a non-negative index as it is. -/
theorem wrap_apply {s : Shape} (a z c : IVec s 32) (i : s.Idx) (hz : z i = 0#32) (h0 : 0 ≤ (a i).toInt) :
    select (cmpi .slt a z) (addi a c) a i = a i := by
  show Scalar.select (IntOp.cmpi .slt (a i) (z i)) (IntOp.addi (a i) (c i)) (a i) = a i
  have hc : IntOp.cmpi .slt (a i) (z i) = 0#1 := eq_zero_of_ne_one (fun h => by
    have hlt := IntOp.cmpi_slt.mp h
    rw [hz] at hlt
    have hz0 : (0#32 : BitVec 32).toInt = 0 := by decide
    omega)
  rw [hc, select_zero]

/-- A conjunction of ones, folded from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- An and-reduction of an array of ones from one is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-! ## Layout operations at explicit coordinates -/

/-- The source column at edge e is the edge list's entry (0, e). -/
theorem srcOf_apply (ei : IVec Cert.KernelIdeal.S2x1600000 32) (e : Fin 1600000) : srcOf ei (ix1 e) = ei (ix2 0 e) := by
  unfold srcOf
  refine (shapeCast_1a_a_apply _ _ e).trans ?_
  exact slice2_axis0_apply 0 ei _ (0 : Fin 1) e (0 : Fin 2) rfl

/-- The destination column at edge e is the edge list's entry (1, e). -/
theorem dstOf_apply (ei : IVec Cert.KernelIdeal.S2x1600000 32) (e : Fin 1600000) : dstOf ei (ix1 e) = ei (ix2 1 e) := by
  unfold dstOf
  refine (shapeCast_1a_a_apply _ _ e).trans ?_
  exact slice2_axis0_apply 1 ei _ (0 : Fin 1) e (1 : Fin 2) rfl

/-- A vector laid out as a column reads, at (e, 0), the vector at e. -/
theorem column_apply {α : Type} {n : Nat} (hn : n ≠ 1) (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v _ (ix1 e) (fun a => match a with
    | ⟨0, _⟩ => by show e.val = if n = 1 then 0 else e.val; rw [if_neg hn])

/-- A scalar broadcast to any shape reads the scalar everywhere. -/
theorem splat_apply {α : Type} {t : Shape} (h : (⟨0, ![]⟩ : Shape).BroadcastsInDim t ![]) (v : (⟨0, ![]⟩ : Shape).Idx → α)
    (j : t.Idx) : broadcastInDim t ![] h v j = v ix0 :=
  broadcastInDim_apply _ h v j ix0 (fun a => a.elim0)

/-- A vector along the rows of a rectangle reads, at (e, f), the vector at e. -/
theorem rows_apply {α : Type} {n m : Nat} (hn : n ≠ 1) (h : (⟨1, ![n]⟩ : Shape).BroadcastsInDim ⟨2, ![n, m]⟩ ![0])
    (v : (⟨1, ![n]⟩ : Shape).Idx → α) (e : Fin n) (f : Fin m) :
    broadcastInDim ⟨2, ![n, m]⟩ ![0] h v (ix2 e f) = v (ix1 e) :=
  broadcastInDim_apply _ h v _ (ix1 e) (fun a => match a with
    | ⟨0, _⟩ => by show e.val = if n = 1 then 0 else e.val; rw [if_neg hn])

/-- A column along the columns of a rectangle reads, at (e, f), the column at (e, 0). -/
theorem columns_apply {α : Type} {n m : Nat} (hn : n ≠ 1) (h : (⟨2, ![n, 1]⟩ : Shape).BroadcastsInDim ⟨2, ![n, m]⟩ ![0, 1])
    (v : (⟨2, ![n, 1]⟩ : Shape).Idx → α) (e : Fin n) (f : Fin m) :
    broadcastInDim ⟨2, ![n, m]⟩ ![0, 1] h v (ix2 e f) = v (ix2 e 0) :=
  broadcastInDim_apply _ h v _ (ix2 e 0) (fun a => match a with
    | ⟨0, _⟩ => by show e.val = if n = 1 then 0 else e.val; rw [if_neg hn]
    | ⟨1, _⟩ => by show 0 = if (1 : Nat) = 1 then 0 else f.val; rw [if_pos rfl])

/-- The lower and the upper half of 128 positions. -/
abbrev lo (k : Fin 64) : Fin 128 := ⟨k.val, by omega⟩
abbrev hi (k : Fin 64) : Fin 128 := ⟨64 + k.val, by omega⟩

/-- The widened weights' left half is the weights' upper 64 rows … -/
theorem wideWeights_lo (We : FVec Ideal Cert.KernelIdeal.S128x64 .f32) (k f : Fin 64) :
    wideWeights We (ix2 k (lo f)) = We (ix2 (lo k) f) := by
  unfold wideWeights
  refine (concatenate_pair_apply_left (s₁ := Cert.KernelIdeal.S64x64) (s₂ := Cert.KernelIdeal.S64x64) (1 : Fin 2) _ _ _ (ix2 k (lo f)) rfl (ix2 k f) (fun b => by
    match b with
    | ⟨0, _⟩ => rfl
    | ⟨1, _⟩ => rfl)).trans ?_
  exact slice2_axis0_apply 0 We _ k f (lo k) (Nat.zero_add _).symm

/-- … and their right half the lower 64 rows. -/
theorem wideWeights_hi (We : FVec Ideal Cert.KernelIdeal.S128x64 .f32) (k f : Fin 64) :
    wideWeights We (ix2 k (hi f)) = We (ix2 (hi k) f) := by
  unfold wideWeights
  refine (concatenate_pair_apply_right (s₁ := Cert.KernelIdeal.S64x64) (s₂ := Cert.KernelIdeal.S64x64) (1 : Fin 2) _ _ _ (ix2 k (hi f)) rfl rfl (ix2 k f) (fun b hb => by
    match b with
    | ⟨0, _⟩ => rfl
    | ⟨1, _⟩ => exact absurd rfl hb) (by show f.val + 64 = 64 + f.val; omega)).trans ?_
  exact slice2_axis0_apply 64 We _ k f (hi k) rfl

/-- The widened bias is zero on its first 64 entries … -/
theorem wideBias_lo (be : FVec Ideal Cert.KernelIdeal.S64 .f32) (f : Fin 64) :
    wideBias be (ix1 (lo f)) = Ideal.ofBits .f32 0x00000000#32 := by
  unfold wideBias
  refine (concatenate_pair_apply_left (s₁ := Cert.KernelIdeal.S64) (s₂ := Cert.KernelIdeal.S64) (0 : Fin 1) _ _ _ (ix1 (lo f)) rfl (ix1 f) (fun b => by
    match b with
    | ⟨0, _⟩ => rfl)).trans ?_
  exact splat_apply _ _ _

/-- … and the bias on its last 64. -/
theorem wideBias_hi (be : FVec Ideal Cert.KernelIdeal.S64 .f32) (f : Fin 64) :
    wideBias be (ix1 (hi f)) = be (ix1 f) := by
  unfold wideBias
  exact concatenate_pair_apply_right (s₁ := Cert.KernelIdeal.S64) (s₂ := Cert.KernelIdeal.S64) (0 : Fin 1) _ _ _ (ix1 (hi f)) rfl rfl (ix1 f) (fun b hb => by
    match b with
    | ⟨0, _⟩ => exact absurd rfl hb) (by show f.val + 64 = 64 + f.val; omega)

/-- The edges arriving at node n: those whose destination entry, read signed, is n. -/
def arrivals (ei : IVec ⟨2, ![2, 1600000]⟩ 32) (n : Fin 100000) : Finset (Fin 1600000) :=
  Finset.univ.filter (fun e : Fin 1600000 => (ei (ix2 1 e)).toInt = (n.val : Int))

/-! ## The kernel's side -/

section Kernel
open Cert.KernelIdeal Cert.KernelIdeal.Gen

/-- The left half of the projection at (r, f): row r of x against the weights' upper 64 rows, plus the zero word. -/
theorem projLeft_apply (x : FVec Ideal S100000x64 .f32) (We : FVec Ideal S128x64 .f32) (be : FVec Ideal S64 .f32)
    (h : S100000x128.Slices ![0, 0] S100000x64) (r : Fin 100000) (f : Fin 64) :
    extractStridedSlice S100000x64 ![0, 0] (projection x We be) h (ix2 r f)
      = (∑ k : Fin 64, x (ix2 r k) * We (ix2 (lo k) f)) + Ideal.ofBits .f32 0x00000000#32 := by
  refine (slice2_axis1_apply 0 _ h r f (lo f) (Nat.zero_add _).symm).trans ?_
  show (∑ k : Fin 64, x (ix2 r k) * wideWeights We (ix2 k (lo f))) + wideBias be (ix1 (lo f)) = _
  simp only [wideBias_lo, wideWeights_lo]

/-- The right half of the projection at (r, f): row r of x against the weights' lower 64 rows, plus the bias. -/
theorem projRight_apply (x : FVec Ideal S100000x64 .f32) (We : FVec Ideal S128x64 .f32) (be : FVec Ideal S64 .f32)
    (h : S100000x128.Slices ![0, 64] S100000x64) (r : Fin 100000) (f : Fin 64) :
    extractStridedSlice S100000x64 ![0, 64] (projection x We be) h (ix2 r f)
      = (∑ k : Fin 64, x (ix2 r k) * We (ix2 (hi k) f)) + be (ix1 f) := by
  refine (slice2_axis1_apply 64 _ h r f (hi f) rfl).trans ?_
  show (∑ k : Fin 64, x (ix2 r k) * wideWeights We (ix2 k (hi f))) + wideBias be (ix1 (hi f)) = _
  simp only [wideBias_hi, wideWeights_hi]

/-- The kernel's dimension records are the row gather, the row scatter and the scalar scatter. -/
theorem kGather : gather_S100000x64_S1600000x1_S1600000x64_1_0_n_n_0_1_164
    = Cert.RowIndex.gatherRows 100000 1600000 64 gather_S100000x64_S1600000x1_S1600000x64_1_0_n_n_0_1_164_wf := rfl
theorem kRowsScatter_eq (a : FVec Ideal S100000x64 .f32) (b : IVec S1600000x1 32) (c : FVec Ideal S1600000x64 .f32) :
    Host.scatterAdd (F := Ideal) scatter_S100000x64_S1600000x1_S1600000x64_1_0_0_1 a b c
      = Ideal.hostScatterAdd (Cert.RowIndex.scatterRows 100000 1600000 64 scatter_S100000x64_S1600000x1_S1600000x64_1_0_0_1_wf) a b c := rfl
theorem kScalarsScatter_eq (a : FVec Ideal S100000 .f32) (b : IVec S1600000x1 32) (c : FVec Ideal S1600000 .f32) :
    Host.scatterAdd (F := Ideal) scatter_S100000_S1600000x1_S1600000_n_0_0_1 a b c
      = Ideal.hostScatterAdd (Cert.RowIndex.scatterScalars 100000 1600000 scatter_S100000_S1600000x1_S1600000_n_0_0_1_wf) a b c := rfl

/-- Where every index is a node number, the guarded take reads the row the index names: the wrap keeps the index, the
    range test holds, the clamped gather reads that row. -/
theorem takeRows_apply (P : FVec Ideal S100000x64 .f32) (src : IVec S1600000 32)
    (hs : ∀ e : Fin 1600000, 0 ≤ (src (ix1 e)).toInt ∧ (src (ix1 e)).toInt < 100000) (e : Fin 1600000) (f : Fin 64)
    (n : Fin 100000) (hn : (src (ix1 e)).toInt = (n.val : Int)) :
    takeRows P src (ix2 e f) = P (ix2 n f) := by
  have hw : ∀ e' : Fin 1600000,
      select (cmpi .slt src (broadcastInDim S1600000 ![] bcast_S_S1600000 (constantI S_ 32 0#32)))
        (addi src (broadcastInDim S1600000 ![] bcast_S_S1600000 (constantI S_ 32 100000#32))) src (ix1 e')
      = src (ix1 e') := fun e' => wrap_apply src _ _ (ix1 e') rfl (hs e').1
  unfold takeRows
  generalize select (cmpi .slt src (broadcastInDim S1600000 ![] bcast_S_S1600000 (constantI S_ 32 0#32)))
      (addi src (broadcastInDim S1600000 ![] bcast_S_S1600000 (constantI S_ 32 100000#32))) src = wrapped at hw ⊢
  have hcol : ∀ (e' : Fin 1600000) (u : Fin 1),
      broadcastInDim S1600000x1 ![0] bcast_S1600000_S1600000x1_0 wrapped (ix2 e' u) = src (ix1 e') :=
    fun e' u => (column_apply (by decide) _ wrapped e' u).trans (hw e')
  generalize broadcastInDim S1600000x1 ![0] bcast_S1600000_S1600000x1_0 wrapped = col at hcol ⊢
  have hin : ∀ i : S1600000x1.Idx,
      andi (cmpi .sge col (broadcastInDim S1600000x1 ![] bcast_S_S1600000x1 (constantI S_ 32 0#32)))
        (cmpi .sle col (broadcastInDim S1600000x1 ![0, 1] bcast_S1x1_S1600000x1_0_1
          (broadcastInDim S1x1 ![1] bcast_S1_S1x1_1 (constantI S1 32 99999#32)))) i = 1#1 := fun i => by
    obtain ⟨p, q, rfl⟩ : ∃ (p : Fin 1600000) (q : Fin 1), i = ix2 p q := ⟨i 0, i 1, eq_ix2 i⟩
    have h0 : (0#32 : BitVec 32).toInt = 0 := by decide
    have h9 : (99999#32 : BitVec 32).toInt = 99999 := by decide
    have hp := hs p
    refine IntOp.andi_eq_one.mpr ⟨IntOp.cmpi_sge.mpr ?_, IntOp.cmpi_sle.mpr ?_⟩
    · show (0#32 : BitVec 32).toInt ≤ (col (ix2 p q)).toInt
      rw [hcol p q]; omega
    · show (col (ix2 p q)).toInt ≤ (99999#32 : BitVec 32).toInt
      rw [hcol p q]; omega
  rw [select_apply, rows_apply (by decide) _ _ e f, reduce_andi_ones _ (constantI S_ 1 1#1) _ _ hin (fun _ => rfl) (ix1 e), select_one, kGather]
  exact Cert.RowIndex.gatherRows_apply_of_inRange _ P col e f n ((congrArg BitVec.toInt (hcol e 0)).trans hn)

/-- The destination column, as the column the scatters read, at edge e. -/
theorem dstColumn_apply (ei : IVec S2x1600000 32) (h : S1600000.BroadcastsInDim S1600000x1 ![0]) (e : Fin 1600000) (u : Fin 1) :
    broadcastInDim S1600000x1 ![0] h (dstOf ei) (ix2 e u) = ei (ix2 1 e) :=
  (column_apply (by decide) h (dstOf ei) e u).trans (dstOf_apply ei e)

/-- The row taken for edge e from the projection's left half, at feature f: the source's left projection. -/
theorem taken_at (x : FVec Ideal S100000x64 .f32) (ei : IVec S2x1600000 32) (We : FVec Ideal S128x64 .f32) (be : FVec Ideal S64 .f32)
    (hr : ∀ i : S2x1600000.Idx, 0 ≤ (ei i).toInt ∧ (ei i).toInt < 100000)
    (hsl : S100000x128.Slices ![0, 0] S100000x64) (e : Fin 1600000) (f : Fin 64) :
    takeRows (extractStridedSlice S100000x64 ![0, 0] (projection x We be) hsl) (srcOf ei) (ix2 e f)
      = (∑ k : Fin 64, x (ix2 (nodeOf (ei (ix2 0 e)) (hr (ix2 0 e))) k) * We (ix2 (lo k) f)) + 0 := by
  have hsrc : ∀ e : Fin 1600000, 0 ≤ (srcOf ei (ix1 e)).toInt ∧ (srcOf ei (ix1 e)).toInt < 100000 := fun e => by
    rw [srcOf_apply]; exact hr _
  refine (takeRows_apply _ _ hsrc e f (nodeOf (ei (ix2 0 e)) (hr (ix2 0 e)))
    (by rw [srcOf_apply]; exact (nodeOf_val _ _).symm)).trans ?_
  refine (projLeft_apply x We be hsl _ f).trans ?_
  rw [Ideal.ofBits_zero_f32]

/-- The row scatter of the taken rows at (n, f): over the edges arriving at n, the source's left projection. -/
theorem rowsScatter_at (x : FVec Ideal S100000x64 .f32) (ei : IVec S2x1600000 32) (We : FVec Ideal S128x64 .f32) (be : FVec Ideal S64 .f32)
    (hr : ∀ i : S2x1600000.Idx, 0 ≤ (ei i).toInt ∧ (ei i).toInt < 100000)
    (hz : S_.BroadcastsInDim S100000x64 ![]) (hc : S1600000.BroadcastsInDim S1600000x1 ![0])
    (hsl : S100000x128.Slices ![0, 0] S100000x64) (n : Fin 100000) (f : Fin 64) :
    Host.scatterAdd (F := Ideal) scatter_S100000x64_S1600000x1_S1600000x64_1_0_0_1
        (broadcastInDim S100000x64 ![] hz (constant S_ .f32 0x00000000#32))
        (broadcastInDim S1600000x1 ![0] hc (dstOf ei))
        (takeRows (extractStridedSlice S100000x64 ![0, 0] (projection x We be) hsl) (srcOf ei)) (ix2 n f)
      = 0 + ∑ e ∈ arrivals ei n, ((∑ k : Fin 64, x (ix2 (nodeOf (ei (ix2 0 e)) (hr (ix2 0 e))) k) * We (ix2 (lo k) f)) + 0) := by
  refine (congrFun (kRowsScatter_eq _ _ _) (ix2 n f)).trans ?_
  refine (Cert.RowIndex.scatterAddRows_apply _ _ _ _ n f).trans ?_
  refine congrArg₂ (· + ·) ((splat_apply hz _ _).trans Ideal.ofBits_zero_f32) ?_
  exact Finset.sum_congr (Finset.filter_congr fun e _ => by rw [dstColumn_apply]) fun e _ =>
    taken_at x ei We be hr hsl e f

/-- The count of arriving edges, laid along the features, at (n, f). -/
theorem count_at (ei : IVec S2x1600000 32) (hz : S_.BroadcastsInDim S100000 ![]) (hc : S1600000.BroadcastsInDim S1600000x1 ![0])
    (ho : S_.BroadcastsInDim S1600000 ![]) (hsc : S100000.ShapeCasts S100000x1)
    (hb : S100000x1.BroadcastsInDim S100000x64 ![0, 1]) (n : Fin 100000) (f : Fin 64) :
    broadcastInDim S100000x64 ![0, 1] hb
        (shapeCast S100000x1
          (Host.scatterAdd (F := Ideal) scatter_S100000_S1600000x1_S1600000_n_0_0_1
            (broadcastInDim S100000 ![] hz (constant S_ .f32 0x00000000#32))
            (broadcastInDim S1600000x1 ![0] hc (dstOf ei))
            (broadcastInDim S1600000 ![] ho (constant S_ .f32 0x3F800000#32))) hsc) (ix2 n f)
      = 0 + ∑ _e ∈ arrivals ei n, (1 : EReal) := by
  refine (columns_apply (by decide) hb _ n f).trans ?_
  refine (shapeCast_apply _ hsc (ix2 n 0) (ix1 n) (by
    rw [Shape.rowMajor_val_two, Shape.rowMajor_val_one]; show n.val = n.val * 1 + 0; omega)).trans ?_
  refine (congrFun (kScalarsScatter_eq _ _ _) (ix1 n)).trans ?_
  refine (Cert.RowIndex.scatterAddScalars_apply _ _ _ _ n).trans ?_
  refine congrArg₂ (· + ·) ((splat_apply hz _ _).trans Ideal.ofBits_zero_f32) ?_
  exact Finset.sum_congr (Finset.filter_congr fun e _ => by rw [dstColumn_apply]) fun e _ =>
    (splat_apply ho _ _).trans Ideal.ofBits_one_f32

/-- The aggregate at (n, f) is the row scatter's entry plus the count times the right half's entry. -/
theorem aggregate_at (PQ : FVec Ideal S100000x128 .f32) (ei : IVec S2x1600000 32) (n : Fin 100000) (f : Fin 64) :
    aggregate (F := Ideal) PQ ei (ix2 n f)
      = Host.scatterAdd (F := Ideal) scatter_S100000x64_S1600000x1_S1600000x64_1_0_0_1
          (broadcastInDim S100000x64 ![] bcast_S_S100000x64 (constant S_ .f32 0x00000000#32))
          (broadcastInDim S1600000x1 ![0] bcast_S1600000_S1600000x1_0 (dstOf ei))
          (takeRows (extractStridedSlice S100000x64 ![0, 0] PQ slices_S100000x128_S100000x64_0_0) (srcOf ei)) (ix2 n f)
        + broadcastInDim S100000x64 ![0, 1] bcast_S100000x1_S100000x64_0_1
            (shapeCast S100000x1
              (Host.scatterAdd (F := Ideal) scatter_S100000_S1600000x1_S1600000_n_0_0_1
                (broadcastInDim S100000 ![] bcast_S_S100000 (constant S_ .f32 0x00000000#32))
                (broadcastInDim S1600000x1 ![0] bcast_S1600000_S1600000x1_0 (dstOf ei))
                (broadcastInDim S1600000 ![] bcast_S_S1600000 (constant S_ .f32 0x3F800000#32)))
              shapeCasts_S100000_S100000x1) (ix2 n f)
          * extractStridedSlice S100000x64 ![0, 64] PQ slices_S100000x128_S100000x64_0_64 (ix2 n f) := by
  unfold aggregate
  rw [addf_apply, mulf_apply]

/-- The kernel's aggregate at (n, f): the sum over the edges arriving at n of the source's left projection, plus the
    number of those edges times n's right projection. -/
theorem kernel_at (x : FVec Ideal S100000x64 .f32) (ei : IVec S2x1600000 32) (We : FVec Ideal S128x64 .f32) (be : FVec Ideal S64 .f32)
    (hr : ∀ i : S2x1600000.Idx, 0 ≤ (ei i).toInt ∧ (ei i).toInt < 100000) (n : Fin 100000) (f : Fin 64) :
    aggregate (F := Ideal) (projection x We be) ei (ix2 n f)
      = (0 + ∑ e ∈ arrivals ei n, ((∑ k : Fin 64, x (ix2 (nodeOf (ei (ix2 0 e)) (hr (ix2 0 e))) k) * We (ix2 (lo k) f)) + 0))
        + (0 + ∑ _e ∈ arrivals ei n, (1 : EReal)) * ((∑ k : Fin 64, x (ix2 n k) * We (ix2 (hi k) f)) + be (ix1 f)) :=
  (aggregate_at (projection x We be) ei n f).trans
    (congrArg₂ (· + ·) (rowsScatter_at x ei We be hr _ _ _ n f)
      (congrArg₂ (· * ·) (count_at ei _ _ _ _ _ n f) (projRight_apply x We be _ n f)))

end Kernel

/-! ## The reference's stages at explicit coordinates -/

section Reference
open Cert.ReferenceIdeal.Read

theorem rGather : Cert.ReferenceIdeal.gather_S100000x64_S1600000x1_S1600000x64_1_0_n_n_0_1_164
    = Cert.RowIndex.gatherRows 100000 1600000 64 Cert.ReferenceIdeal.Gen.gather_S100000x64_S1600000x1_S1600000x64_1_0_n_n_0_1_164_wf := rfl
theorem rScatterRows : Cert.ReferenceIdeal.scatter_S100000x64_S1600000x1_S1600000x64_1_0_0_1
    = Cert.RowIndex.scatterRows 100000 1600000 64 Cert.ReferenceIdeal.Gen.scatter_S100000x64_S1600000x1_S1600000x64_1_0_0_1_wf := rfl

/-- The reference's source column at edge e is the edge list's entry (0, e) … -/
theorem ref_src_apply (ei : IVec Cert.ReferenceIdeal.S2x1600000 32) (e : Fin 1600000) :
    val_main_v1 (F := Ideal) ei (ix1 e) = ei (ix2 0 e) := by
  unfold val_main_v1 val_main_v0
  refine (shapeCast_1a_a_apply _ _ e).trans ?_
  exact slice2_axis0_apply 0 ei _ (0 : Fin 1) e (0 : Fin 2) rfl

/-- … and its destination column the entry (1, e). -/
theorem ref_dst_apply (ei : IVec Cert.ReferenceIdeal.S2x1600000 32) (e : Fin 1600000) :
    val_main_v3 (F := Ideal) ei (ix1 e) = ei (ix2 1 e) := by
  unfold val_main_v3 val_main_v2
  refine (shapeCast_1a_a_apply _ _ e).trans ?_
  exact slice2_axis0_apply 1 ei _ (0 : Fin 1) e (1 : Fin 2) rfl

/-- The wrapped source column the first gather reads, at edge e: the entry itself, being non-negative. -/
theorem ref_srcColumn (ei : IVec Cert.ReferenceIdeal.S2x1600000 32)
    (hr : ∀ i : Cert.ReferenceIdeal.S2x1600000.Idx, 0 ≤ (ei i).toInt ∧ (ei i).toInt < 100000) (e : Fin 1600000) (u : Fin 1) :
    val_main_v9 (F := Ideal) ei (ix2 e u) = ei (ix2 0 e) := by
  unfold val_main_v9
  refine (column_apply (by decide) _ _ e u).trans ?_
  unfold val_main_v8 val_main_v5 val_main_v7
  refine (wrap_apply _ _ _ (ix1 e) rfl ?_).trans (ref_src_apply ei e)
  rw [ref_src_apply]; exact (hr _).1

/-- The wrapped destination column the second gather reads, at edge e. -/
theorem ref_dstColumn (ei : IVec Cert.ReferenceIdeal.S2x1600000 32)
    (hr : ∀ i : Cert.ReferenceIdeal.S2x1600000.Idx, 0 ≤ (ei i).toInt ∧ (ei i).toInt < 100000) (e : Fin 1600000) (u : Fin 1) :
    val_main_v16 (F := Ideal) ei (ix2 e u) = ei (ix2 1 e) := by
  unfold val_main_v16
  refine (column_apply (by decide) _ _ e u).trans ?_
  unfold val_main_v15 val_main_v12 val_main_v14
  refine (wrap_apply _ _ _ (ix1 e) rfl ?_).trans (ref_dst_apply ei e)
  rw [ref_dst_apply]; exact (hr _).1

/-- The raw destination column the scatter reads, at edge e. -/
theorem ref_dstRaw (ei : IVec Cert.ReferenceIdeal.S2x1600000 32) (e : Fin 1600000) (u : Fin 1) :
    val_main_v24 (F := Ideal) ei (ix2 e u) = ei (ix2 1 e) := by
  unfold val_main_v24
  exact (column_apply (by decide) _ _ e u).trans (ref_dst_apply ei e)

/-- The first gather at (e, k): row (source of e) of x. -/
theorem ref_gatherSrc (x : FVec Ideal Cert.ReferenceIdeal.S100000x64 .f32) (ei : IVec Cert.ReferenceIdeal.S2x1600000 32)
    (hr : ∀ i : Cert.ReferenceIdeal.S2x1600000.Idx, 0 ≤ (ei i).toInt ∧ (ei i).toInt < 100000) (e : Fin 1600000) (k : Fin 64)
    (n : Fin 100000) (hn : (ei (ix2 0 e)).toInt = (n.val : Int)) :
    val_main_v10 (F := Ideal) x ei (ix2 e k) = x (ix2 n k) := by
  unfold val_main_v10
  rw [rGather]
  exact Cert.RowIndex.gatherRows_apply_of_inRange _ x _ e k n ((congrArg BitVec.toInt (ref_srcColumn ei hr e 0)).trans hn)

/-- The second gather at (e, k): row (destination of e) of x. -/
theorem ref_gatherDst (x : FVec Ideal Cert.ReferenceIdeal.S100000x64 .f32) (ei : IVec Cert.ReferenceIdeal.S2x1600000 32)
    (hr : ∀ i : Cert.ReferenceIdeal.S2x1600000.Idx, 0 ≤ (ei i).toInt ∧ (ei i).toInt < 100000) (e : Fin 1600000) (k : Fin 64)
    (n : Fin 100000) (hn : (ei (ix2 1 e)).toInt = (n.val : Int)) :
    val_main_v17 (F := Ideal) x ei (ix2 e k) = x (ix2 n k) := by
  unfold val_main_v17
  rw [rGather]
  exact Cert.RowIndex.gatherRows_apply_of_inRange _ x _ e k n ((congrArg BitVec.toInt (ref_dstColumn ei hr e 0)).trans hn)

/-- The concatenated end points: the first 64 columns are the source's features … -/
theorem ref_concat_lo (x : FVec Ideal Cert.ReferenceIdeal.S100000x64 .f32) (ei : IVec Cert.ReferenceIdeal.S2x1600000 32)
    (e : Fin 1600000) (k : Fin 64) :
    val_main_v18 (F := Ideal) x ei (ix2 e (lo k)) = val_main_v10 (F := Ideal) x ei (ix2 e k) := by
  unfold val_main_v18
  exact concatenate_pair_apply_left (s₁ := Cert.ReferenceIdeal.S1600000x64) (s₂ := Cert.ReferenceIdeal.S1600000x64) (1 : Fin 2) _ _ _
    (ix2 e (lo k)) rfl (ix2 e k) (fun b => by
      match b with
      | ⟨0, _⟩ => rfl
      | ⟨1, _⟩ => rfl)

/-- … and the last 64 the destination's. -/
theorem ref_concat_hi (x : FVec Ideal Cert.ReferenceIdeal.S100000x64 .f32) (ei : IVec Cert.ReferenceIdeal.S2x1600000 32)
    (e : Fin 1600000) (k : Fin 64) :
    val_main_v18 (F := Ideal) x ei (ix2 e (hi k)) = val_main_v17 (F := Ideal) x ei (ix2 e k) := by
  unfold val_main_v18
  exact concatenate_pair_apply_right (s₁ := Cert.ReferenceIdeal.S1600000x64) (s₂ := Cert.ReferenceIdeal.S1600000x64) (1 : Fin 2) _ _ _
    (ix2 e (hi k)) rfl rfl (ix2 e k) (fun b hb => by
      match b with
      | ⟨0, _⟩ => rfl
      | ⟨1, _⟩ => exact absurd rfl hb) (by show k.val + 64 = 64 + k.val; omega)

/-- A sum over 128 positions is the sum over its lower half plus the sum over its upper half. -/
theorem sum_halves (g : Fin 128 → EReal) : ∑ k, g k = ∑ k : Fin 64, g (lo k) + ∑ k : Fin 64, g (hi k) :=
  Fin.sum_univ_add (a := 64) (b := 64) g

/-- The product at (e, f): the concatenated row of e against column f of the weights. -/
theorem ref_product (x : FVec Ideal Cert.ReferenceIdeal.S100000x64 .f32) (ei : IVec Cert.ReferenceIdeal.S2x1600000 32)
    (We : FVec Ideal Cert.ReferenceIdeal.S128x64 .f32) (e : Fin 1600000) (f : Fin 64) :
    val_main_v19 (F := Ideal) x ei We (ix2 e f) = ∑ k : Fin 128, val_main_v18 (F := Ideal) x ei (ix2 e k) * We (ix2 k f) := by
  rw [val_main_v19_apply]
  refine Finset.sum_congr rfl fun k _ => ?_
  have el : lidx_main_v19 (ix2 e f) k = ix2 e k := funext fun a => by
    match a with
    | ⟨0, _⟩ => rfl
    | ⟨1, _⟩ => rfl
  have er : ridx_main_v19 (ix2 e f) k = ix2 k f := funext fun a => by
    match a with
    | ⟨0, _⟩ => rfl
    | ⟨1, _⟩ => rfl
  rw [el, er]

/-- The message at (e, f): the product plus the bias. -/
theorem ref_message (x : FVec Ideal Cert.ReferenceIdeal.S100000x64 .f32) (ei : IVec Cert.ReferenceIdeal.S2x1600000 32)
    (We : FVec Ideal Cert.ReferenceIdeal.S128x64 .f32) (be : FVec Ideal Cert.ReferenceIdeal.S64 .f32) (e : Fin 1600000) (f : Fin 64) :
    val_main_v22 (F := Ideal) x ei We be (ix2 e f) = val_main_v19 (F := Ideal) x ei We (ix2 e f) + be (ix1 f) := by
  rw [val_main_v22_apply, val_main_v21_apply, val_main_v20_apply]
  have hb : idx_main_v20 (idx_main_v21 (ix2 e f)) = ix1 f := funext fun a => by
    match a with
    | ⟨0, _⟩ => rfl
  rw [hb]
  rfl

/-- The reference's last stage is the accumulating row scatter of the messages at the raw destination column onto zeros. -/
theorem ref_scatter_eq (x : FVec Ideal Cert.ReferenceIdeal.S100000x64 .f32) (ei : IVec Cert.ReferenceIdeal.S2x1600000 32)
    (We : FVec Ideal Cert.ReferenceIdeal.S128x64 .f32) (be : FVec Ideal Cert.ReferenceIdeal.S64 .f32) :
    val_main_v25 (F := Ideal) x ei We be
      = Ideal.hostScatterAdd (Cert.RowIndex.scatterRows 100000 1600000 64 Cert.ReferenceIdeal.Gen.scatter_S100000x64_S1600000x1_S1600000x64_1_0_0_1_wf)
          (val_main_v23 (F := Ideal)) (val_main_v24 (F := Ideal) ei) (val_main_v22 (F := Ideal) x ei We be) := rfl

/-- The scatter's operand is zero everywhere. -/
theorem ref_zero (n : Fin 100000) (f : Fin 64) : val_main_v23 (F := Ideal) (ix2 n f) = 0 := by
  rw [val_main_v23_apply, val_main_cst_apply]
  exact Ideal.ofBits_zero_f32

/-- The message of an edge arriving at n, at feature f: the source's features against the weights' upper half, plus
    n's against the lower half, plus the bias. -/
theorem ref_message_at (x : FVec Ideal Cert.ReferenceIdeal.S100000x64 .f32) (ei : IVec Cert.ReferenceIdeal.S2x1600000 32)
    (We : FVec Ideal Cert.ReferenceIdeal.S128x64 .f32) (be : FVec Ideal Cert.ReferenceIdeal.S64 .f32)
    (hr : ∀ i : Cert.ReferenceIdeal.S2x1600000.Idx, 0 ≤ (ei i).toInt ∧ (ei i).toInt < 100000) (e : Fin 1600000)
    (n : Fin 100000) (f : Fin 64) (hd : (ei (ix2 1 e)).toInt = (n.val : Int)) :
    val_main_v22 (F := Ideal) x ei We be (ix2 e f)
      = ((∑ k : Fin 64, x (ix2 (nodeOf (ei (ix2 0 e)) (hr (ix2 0 e))) k) * We (ix2 (lo k) f))
          + (∑ k : Fin 64, x (ix2 n k) * We (ix2 (hi k) f))) + be (ix1 f) := by
  rw [ref_message, ref_product, sum_halves]
  refine congrArg₂ (· + ·) (congrArg₂ (· + ·) (Finset.sum_congr rfl fun k _ => ?_) (Finset.sum_congr rfl fun k _ => ?_)) rfl
  · rw [ref_concat_lo, ref_gatherSrc x ei hr e k _ (nodeOf_val _ _).symm]
  · rw [ref_concat_hi, ref_gatherDst x ei hr e k n hd]

/-- The reference's sum of messages at (n, f): over the edges arriving at n, the source's features against the
    weights' upper half plus n's against the lower half plus the bias. -/
theorem reference_at (x : FVec Ideal Cert.ReferenceIdeal.S100000x64 .f32) (ei : IVec Cert.ReferenceIdeal.S2x1600000 32)
    (We : FVec Ideal Cert.ReferenceIdeal.S128x64 .f32) (be : FVec Ideal Cert.ReferenceIdeal.S64 .f32)
    (hr : ∀ i : Cert.ReferenceIdeal.S2x1600000.Idx, 0 ≤ (ei i).toInt ∧ (ei i).toInt < 100000) (n : Fin 100000) (f : Fin 64) :
    val_main_v25 (F := Ideal) x ei We be (ix2 n f)
      = 0 + ∑ e ∈ arrivals ei n, (((∑ k : Fin 64, x (ix2 (nodeOf (ei (ix2 0 e)) (hr (ix2 0 e))) k) * We (ix2 (lo k) f))
          + (∑ k : Fin 64, x (ix2 n k) * We (ix2 (hi k) f))) + be (ix1 f)) := by
  refine (congrFun (ref_scatter_eq x ei We be) (ix2 n f)).trans ?_
  refine (Cert.RowIndex.scatterAddRows_apply _ _ _ _ n f).trans ?_
  refine congrArg₂ (· + ·) (ref_zero n f) ?_
  exact Finset.sum_congr (Finset.filter_congr fun e _ => by rw [ref_dstRaw]) fun e he =>
    ref_message_at x ei We be hr e n f (Finset.mem_filter.mp he).2

end Reference

/-- Where every entry of the edge list is a node number, the kernel's aggregate of its projection is the reference's
    sum of messages. -/
theorem aggregate_eq (x : FVec Ideal Cert.KernelIdeal.S100000x64 .f32) (ei : IVec Cert.KernelIdeal.S2x1600000 32)
    (We : FVec Ideal Cert.KernelIdeal.S128x64 .f32) (be : FVec Ideal Cert.KernelIdeal.S64 .f32)
    (hr : ∀ i : Cert.KernelIdeal.S2x1600000.Idx, 0 ≤ (ei i).toInt ∧ (ei i).toInt < 100000) :
    aggregate (F := Ideal) (projection x We be) ei = Cert.ReferenceIdeal.Read.val_main_v25 (F := Ideal) x ei We be := by
  funext i
  obtain ⟨n, f, rfl⟩ : ∃ (n : Fin 100000) (f : Fin 64), i = ix2 n f := ⟨i 0, i 1, eq_ix2 i⟩
  exact (kernel_at x ei We be hr n f).trans
    ((Cert.EdgeAlgebra.fibre_split _ _ _ _).trans (reference_at x ei We be hr n f).symm)

end Cert.EdgeSplit

end
-- ==== Proof.EdgeRange.lean ====
/-
  What the precondition says about the edge list. The printed precondition is a conjunction of whole-array tests; its
  last two conjuncts test every entry of the 2 × 1600000 edge array against zero (signed ≥) and against 100000
  (signed <). So where the precondition holds, every entry of the edge array, read as a signed integer, is a node
  number: at least 0 and less than 100000.
-/
import proofs.«407081_j76914274337220_2_alg».proof.Pre_finite_inputs
import proofs.«407081_j76914274337220_2_alg».proof.Proof.Gen.Pre_finite_inputs
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Pre_finite_inputs.Range

open Cert.Pre_finite_inputs Cert.Pre_finite_inputs.Gen

variable {F : FTy → Type} [FloatOps F]

/-- A scalar array has one index, so a reduction over every axis has one result. -/
instance scalarIdxSubsingleton : Subsingleton S_.Idx := ⟨fun a b => funext fun d => d.elim0⟩

/-- Where the precondition holds of the nine argument arrays, every entry of the edge array is a node number. -/
theorem edge_in_range (x0 : FVec F S100000x64 .f32) (x1 : IVec S2x1600000 32) (x2 : FVec F S128x64 .f32) (x3 : FVec F S64 .f32)
    (x4 : FVec F S128x64 .f32) (x5 : FVec F S64 .f32) (x6 : FVec F S_ .f32) (x7 x8 : FVec F S64 .f32)
    (h : Cert.Pre_finite_inputs.fn (F := F) x0 x1 x2 x3 x4 x5 x6 x7 x8 = fun _ => 1#1) (i : S2x1600000.Idx) :
    0 ≤ (x1 i).toInt ∧ (x1 i).toInt < 100000 := by
  -- the precondition's one word, as the conjunction the printed chain of operations builds
  have e := congrFun h ix0
  unfold Cert.Pre_finite_inputs.fn Cert.Pre_finite_inputs.fn_part1 Cert.Pre_finite_inputs.fn_part2 at e
  dsimp only at e
  -- the outermost conjunct is the test against 100000, the next the test against zero; the eight tests inside stay shut
  obtain ⟨e1, hlt⟩ := IntOp.andi_eq_one.1 e
  obtain ⟨-, hge⟩ := IntOp.andi_eq_one.1 e1
  -- a conjunction over the whole array that came out true was true at every entry
  have hge' := Host.reduce_andi_all _ _ _ _ ix0 hge i
  have hlt' := Host.reduce_andi_all _ _ _ _ ix0 hlt i
  -- a signed comparison word that is true orders its operands as signed integers; the bound is the same word at every entry
  have h0 : (0#32 : BitVec 32).toInt ≤ (x1 i).toInt := IntOp.cmpi_sge.1 hge'
  have h1 : (x1 i).toInt < (100000#32 : BitVec 32).toInt := IntOp.cmpi_slt.1 hlt'
  rw [show (0#32 : BitVec 32).toInt = 0 from by decide] at h0
  rw [show (100000#32 : BitVec 32).toInt = 100000 from by decide] at h1
  exact ⟨h0, h1⟩

end Cert.Pre_finite_inputs.Range

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefStages.lean ====
/-
  The reference's run, read one operation at a time. Its host program is 72 operations in a line, each writing one
  buffer exactly once from buffers written before it; so the final contents of each buffer are that operation's function
  of the final contents of the buffers it reads, and by walking the line in order every buffer's final contents are the
  corresponding stage of the argument arrays. The last stage is the result.
-/
import proofs.«407081_j76914274337220_2_alg».proof.Proof.RefOps
import proofs.«407081_j76914274337220_2_alg».proof.Proof.RefRead
import proofs.«407081_j76914274337220_2_alg».proof.Proof.LibSsa
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Stages

open Cert.ReferenceIdeal Cert.ReferenceIdeal.Gen Cert.ReferenceIdeal.Value Cert.ReferenceIdeal.Read

variable {F : FTy → Type} [FloatOps F]

/-! ## The line is in single-assignment form -/

/-- The buffers the 72 operations write, in program order. -/
abbrev W : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_cst, main_v23, main_v24, main_v25, main_v26, main_v27, main_v28, main_v29, main_v30, main_cst_3, main_v31, main_v32, main_v33, main_v34, main_v35, main_cst_4, main_v36, main_cst_5, main_v37, main_v38, main_v39, main_v40, main_v41, main_v42, main_cst_6, main_v43, main_cst_7, main_v44, main_v45, main_v46, main_v47, main_v48, main_cst_8, main_v49, main_v50, main_v51, main_v52, main_v53, main_v54, main_v55, main_v56, main_v57, main_v58, main_v59, main_v60]

/-- Each operation writes exactly the buffer listed at its position. -/
theorem hW : Ssa.WritesOnly (ops (F := F)) W :=
  And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl (And.intro rfl trivial)))))))))))))))))))))))))))))))))))))))))))))))))))))))))))))))))))))))

/-! ## Every buffer's final contents, from any starting contents -/

section Walk

variable (V : Valuation τ sig (Elt F))

/-! ### The arguments: no operation writes them, so they end as they started -/

theorem st_main_arg0 : after (ops (F := F)) V (Proc.devRef .tc main_arg0) = V (Proc.devRef .tc main_arg0) :=
  Ssa.after_arg (ops (F := F)) W hW V main_arg0 (by decide)
theorem st_main_arg1 : after (ops (F := F)) V (Proc.devRef .tc main_arg1) = V (Proc.devRef .tc main_arg1) :=
  Ssa.after_arg (ops (F := F)) W hW V main_arg1 (by decide)
theorem st_main_arg2 : after (ops (F := F)) V (Proc.devRef .tc main_arg2) = V (Proc.devRef .tc main_arg2) :=
  Ssa.after_arg (ops (F := F)) W hW V main_arg2 (by decide)
theorem st_main_arg3 : after (ops (F := F)) V (Proc.devRef .tc main_arg3) = V (Proc.devRef .tc main_arg3) :=
  Ssa.after_arg (ops (F := F)) W hW V main_arg3 (by decide)
theorem st_main_arg4 : after (ops (F := F)) V (Proc.devRef .tc main_arg4) = V (Proc.devRef .tc main_arg4) :=
  Ssa.after_arg (ops (F := F)) W hW V main_arg4 (by decide)
theorem st_main_arg5 : after (ops (F := F)) V (Proc.devRef .tc main_arg5) = V (Proc.devRef .tc main_arg5) :=
  Ssa.after_arg (ops (F := F)) W hW V main_arg5 (by decide)
theorem st_main_arg6 : after (ops (F := F)) V (Proc.devRef .tc main_arg6) = V (Proc.devRef .tc main_arg6) :=
  Ssa.after_arg (ops (F := F)) W hW V main_arg6 (by decide)
theorem st_main_arg7 : after (ops (F := F)) V (Proc.devRef .tc main_arg7) = V (Proc.devRef .tc main_arg7) :=
  Ssa.after_arg (ops (F := F)) W hW V main_arg7 (by decide)
theorem st_main_arg8 : after (ops (F := F)) V (Proc.devRef .tc main_arg8) = V (Proc.devRef .tc main_arg8) :=
  Ssa.after_arg (ops (F := F)) W hW V main_arg8 (by decide)

/-! ### The operations, in program order: the written buffer ends at the operation's function of the final contents of
    the buffers it reads (it is not written again, and they are not written at or after its position), which are the
    stages already found; that is the stage's definition -/

theorem st_main_v0 : after (ops (F := F)) V (Proc.devRef .tc main_v0) = val_main_v0 (F := F) (V (Proc.devRef .tc main_arg1)) := by
  rw [Ssa.ssa_unary (ops (F := F)) W hW V 0 main_arg1 main_v0 _ _ _ rfl (by decide) (by decide), st_main_arg1 V]
  rfl
theorem st_main_v1 : after (ops (F := F)) V (Proc.devRef .tc main_v1) = val_main_v1 (F := F) (V (Proc.devRef .tc main_arg1)) := by
  rw [Ssa.ssa_reshape (ops (F := F)) W hW V 1 main_v0 main_v1 _ _ _ _ rfl (by decide) (by decide), st_main_v0 V]
  rfl
theorem st_main_v2 : after (ops (F := F)) V (Proc.devRef .tc main_v2) = val_main_v2 (F := F) (V (Proc.devRef .tc main_arg1)) := by
  rw [Ssa.ssa_unary (ops (F := F)) W hW V 2 main_arg1 main_v2 _ _ _ rfl (by decide) (by decide), st_main_arg1 V]
  rfl
theorem st_main_v3 : after (ops (F := F)) V (Proc.devRef .tc main_v3) = val_main_v3 (F := F) (V (Proc.devRef .tc main_arg1)) := by
  rw [Ssa.ssa_reshape (ops (F := F)) W hW V 3 main_v2 main_v3 _ _ _ _ rfl (by decide) (by decide), st_main_v2 V]
  rfl
theorem st_main_c : after (ops (F := F)) V (Proc.devRef .tc main_c) = val_main_c (F := F) := by
  rw [Ssa.ssa_nullary (ops (F := F)) W hW V 4 main_c _ _ rfl (by decide)]
  rfl
theorem st_main_v4 : after (ops (F := F)) V (Proc.devRef .tc main_v4) = val_main_v4 (F := F) := by
  rw [Ssa.ssa_unary (ops (F := F)) W hW V 5 main_c main_v4 _ _ _ rfl (by decide) (by decide), st_main_c V]
  rfl
theorem st_main_v5 : after (ops (F := F)) V (Proc.devRef .tc main_v5) = val_main_v5 (F := F) (V (Proc.devRef .tc main_arg1)) := by
  rw [Ssa.ssa_binary (ops (F := F)) W hW V 6 main_v1 main_v4 main_v5 _ _ _ _ rfl (by decide) (by decide) (by decide), st_main_v1 V, st_main_v4 V]
  rfl
theorem st_main_c_0 : after (ops (F := F)) V (Proc.devRef .tc main_c_0) = val_main_c_0 (F := F) := by
  rw [Ssa.ssa_nullary (ops (F := F)) W hW V 7 main_c_0 _ _ rfl (by decide)]
  rfl
theorem st_main_v6 : after (ops (F := F)) V (Proc.devRef .tc main_v6) = val_main_v6 (F := F) := by
  rw [Ssa.ssa_unary (ops (F := F)) W hW V 8 main_c_0 main_v6 _ _ _ rfl (by decide) (by decide), st_main_c_0 V]
  rfl
theorem st_main_v7 : after (ops (F := F)) V (Proc.devRef .tc main_v7) = val_main_v7 (F := F) (V (Proc.devRef .tc main_arg1)) := by
  rw [Ssa.ssa_binary (ops (F := F)) W hW V 9 main_v1 main_v6 main_v7 _ _ _ _ rfl (by decide) (by decide) (by decide), st_main_v1 V, st_main_v6 V]
  rfl
theorem st_main_v8 : after (ops (F := F)) V (Proc.devRef .tc main_v8) = val_main_v8 (F := F) (V (Proc.devRef .tc main_arg1)) := by
  rw [Ssa.ssa_ternary (ops (F := F)) W hW V 10 main_v5 main_v7 main_v1 main_v8 _ _ _ _ _ rfl (by decide) (by decide) (by decide) (by decide), st_main_v5 V, st_main_v7 V, st_main_v1 V]
  rfl
theorem st_main_v9 : after (ops (F := F)) V (Proc.devRef .tc main_v9) = val_main_v9 (F := F) (V (Proc.devRef .tc main_arg1)) := by
  rw [Ssa.ssa_unary (ops (F := F)) W hW V 11 main_v8 main_v9 _ _ _ rfl (by decide) (by decide), st_main_v8 V]
  rfl
theorem st_main_v10 : after (ops (F := F)) V (Proc.devRef .tc main_v10) = val_main_v10 (F := F) (V (Proc.devRef .tc main_arg0)) (V (Proc.devRef .tc main_arg1)) := by
  rw [Ssa.ssa_binary (ops (F := F)) W hW V 12 main_arg0 main_v9 main_v10 _ _ _ _ rfl (by decide) (by decide) (by decide), st_main_arg0 V, st_main_v9 V]
  rfl
theorem st_main_c_1 : after (ops (F := F)) V (Proc.devRef .tc main_c_1) = val_main_c_1 (F := F) := by
  rw [Ssa.ssa_nullary (ops (F := F)) W hW V 13 main_c_1 _ _ rfl (by decide)]
  rfl
theorem st_main_v11 : after (ops (F := F)) V (Proc.devRef .tc main_v11) = val_main_v11 (F := F) := by
  rw [Ssa.ssa_unary (ops (F := F)) W hW V 14 main_c_1 main_v11 _ _ _ rfl (by decide) (by decide), st_main_c_1 V]
  rfl
theorem st_main_v12 : after (ops (F := F)) V (Proc.devRef .tc main_v12) = val_main_v12 (F := F) (V (Proc.devRef .tc main_arg1)) := by
  rw [Ssa.ssa_binary (ops (F := F)) W hW V 15 main_v3 main_v11 main_v12 _ _ _ _ rfl (by decide) (by decide) (by decide), st_main_v3 V, st_main_v11 V]
  rfl
theorem st_main_c_2 : after (ops (F := F)) V (Proc.devRef .tc main_c_2) = val_main_c_2 (F := F) := by
  rw [Ssa.ssa_nullary (ops (F := F)) W hW V 16 main_c_2 _ _ rfl (by decide)]
  rfl
theorem st_main_v13 : after (ops (F := F)) V (Proc.devRef .tc main_v13) = val_main_v13 (F := F) := by
  rw [Ssa.ssa_unary (ops (F := F)) W hW V 17 main_c_2 main_v13 _ _ _ rfl (by decide) (by decide), st_main_c_2 V]
  rfl
theorem st_main_v14 : after (ops (F := F)) V (Proc.devRef .tc main_v14) = val_main_v14 (F := F) (V (Proc.devRef .tc main_arg1)) := by
  rw [Ssa.ssa_binary (ops (F := F)) W hW V 18 main_v3 main_v13 main_v14 _ _ _ _ rfl (by decide) (by decide) (by decide), st_main_v3 V, st_main_v13 V]
  rfl
theorem st_main_v15 : after (ops (F := F)) V (Proc.devRef .tc main_v15) = val_main_v15 (F := F) (V (Proc.devRef .tc main_arg1)) := by
  rw [Ssa.ssa_ternary (ops (F := F)) W hW V 19 main_v12 main_v14 main_v3 main_v15 _ _ _ _ _ rfl (by decide) (by decide) (by decide) (by decide), st_main_v12 V, st_main_v14 V, st_main_v3 V]
  rfl
theorem st_main_v16 : after (ops (F := F)) V (Proc.devRef .tc main_v16) = val_main_v16 (F := F) (V (Proc.devRef .tc main_arg1)) := by
  rw [Ssa.ssa_unary (ops (F := F)) W hW V 20 main_v15 main_v16 _ _ _ rfl (by decide) (by decide), st_main_v15 V]
  rfl
theorem st_main_v17 : after (ops (F := F)) V (Proc.devRef .tc main_v17) = val_main_v17 (F := F) (V (Proc.devRef .tc main_arg0)) (V (Proc.devRef .tc main_arg1)) := by
  rw [Ssa.ssa_binary (ops (F := F)) W hW V 21 main_arg0 main_v16 main_v17 _ _ _ _ rfl (by decide) (by decide) (by decide), st_main_arg0 V, st_main_v16 V]
  rfl
theorem st_main_v18 : after (ops (F := F)) V (Proc.devRef .tc main_v18) = val_main_v18 (F := F) (V (Proc.devRef .tc main_arg0)) (V (Proc.devRef .tc main_arg1)) := by
  rw [Ssa.ssa_binary (ops (F := F)) W hW V 22 main_v10 main_v17 main_v18 _ _ _ _ rfl (by decide) (by decide) (by decide), st_main_v10 V, st_main_v17 V]
  rfl
theorem st_main_v19 : after (ops (F := F)) V (Proc.devRef .tc main_v19) = val_main_v19 (F := F) (V (Proc.devRef .tc main_arg0)) (V (Proc.devRef .tc main_arg1)) (V (Proc.devRef .tc main_arg2)) := by
  rw [Ssa.ssa_binary (ops (F := F)) W hW V 23 main_v18 main_arg2 main_v19 _ _ _ _ rfl (by decide) (by decide) (by decide), st_main_v18 V, st_main_arg2 V]
  rfl
theorem st_main_v20 : after (ops (F := F)) V (Proc.devRef .tc main_v20) = val_main_v20 (F := F) (V (Proc.devRef .tc main_arg3)) := by
  rw [Ssa.ssa_unary (ops (F := F)) W hW V 24 main_arg3 main_v20 _ _ _ rfl (by decide) (by decide), st_main_arg3 V]
  rfl
theorem st_main_v21 : after (ops (F := F)) V (Proc.devRef .tc main_v21) = val_main_v21 (F := F) (V (Proc.devRef .tc main_arg3)) := by
  rw [Ssa.ssa_unary (ops (F := F)) W hW V 25 main_v20 main_v21 _ _ _ rfl (by decide) (by decide), st_main_v20 V]
  rfl
theorem st_main_v22 : after (ops (F := F)) V (Proc.devRef .tc main_v22) = val_main_v22 (F := F) (V (Proc.devRef .tc main_arg0)) (V (Proc.devRef .tc main_arg1)) (V (Proc.devRef .tc main_arg2)) (V (Proc.devRef .tc main_arg3)) := by
  rw [Ssa.ssa_binary (ops (F := F)) W hW V 26 main_v19 main_v21 main_v22 _ _ _ _ rfl (by decide) (by decide) (by decide), st_main_v19 V, st_main_v21 V]
  rfl
theorem st_main_cst : after (ops (F := F)) V (Proc.devRef .tc main_cst) = val_main_cst (F := F) := by
  rw [Ssa.ssa_nullary (ops (F := F)) W hW V 27 main_cst _ _ rfl (by decide)]
  rfl
theorem st_main_v23 : after (ops (F := F)) V (Proc.devRef .tc main_v23) = val_main_v23 (F := F) := by
  rw [Ssa.ssa_unary (ops (F := F)) W hW V 28 main_cst main_v23 _ _ _ rfl (by decide) (by decide), st_main_cst V]
  rfl
theorem st_main_v24 : after (ops (F := F)) V (Proc.devRef .tc main_v24) = val_main_v24 (F := F) (V (Proc.devRef .tc main_arg1)) := by
  rw [Ssa.ssa_unary (ops (F := F)) W hW V 29 main_v3 main_v24 _ _ _ rfl (by decide) (by decide), st_main_v3 V]
  rfl
theorem st_main_v25 : after (ops (F := F)) V (Proc.devRef .tc main_v25) = val_main_v25 (F := F) (V (Proc.devRef .tc main_arg0)) (V (Proc.devRef .tc main_arg1)) (V (Proc.devRef .tc main_arg2)) (V (Proc.devRef .tc main_arg3)) := by
  rw [Ssa.ssa_ternary (ops (F := F)) W hW V 30 main_v23 main_v24 main_v22 main_v25 _ _ _ _ _ rfl (by decide) (by decide) (by decide) (by decide), st_main_v23 V, st_main_v24 V, st_main_v22 V]
  rfl
theorem st_main_v26 : after (ops (F := F)) V (Proc.devRef .tc main_v26) = val_main_v26 (F := F) (V (Proc.devRef .tc main_arg0)) (V (Proc.devRef .tc main_arg1)) (V (Proc.devRef .tc main_arg2)) (V (Proc.devRef .tc main_arg3)) := by
  rw [Ssa.ssa_binary (ops (F := F)) W hW V 31 main_arg0 main_v25 main_v26 _ _ _ _ rfl (by decide) (by decide) (by decide), st_main_arg0 V, st_main_v25 V]
  rfl
theorem st_main_v27 : after (ops (F := F)) V (Proc.devRef .tc main_v27) = val_main_v27 (F := F) (V (Proc.devRef .tc main_arg0)) (V (Proc.devRef .tc main_arg1)) (V (Proc.devRef .tc main_arg2)) (V (Proc.devRef .tc main_arg3)) (V (Proc.devRef .tc main_arg4)) := by
  rw [Ssa.ssa_binary (ops (F := F)) W hW V 32 main_v26 main_arg4 main_v27 _ _ _ _ rfl (by decide) (by decide) (by decide), st_main_v26 V, st_main_arg4 V]
  rfl
theorem st_main_v28 : after (ops (F := F)) V (Proc.devRef .tc main_v28) = val_main_v28 (F := F) (V (Proc.devRef .tc main_arg5)) := by
  rw [Ssa.ssa_unary (ops (F := F)) W hW V 33 main_arg5 main_v28 _ _ _ rfl (by decide) (by decide), st_main_arg5 V]
  rfl
theorem st_main_v29 : after (ops (F := F)) V (Proc.devRef .tc main_v29) = val_main_v29 (F := F) (V (Proc.devRef .tc main_arg5)) := by
  rw [Ssa.ssa_unary (ops (F := F)) W hW V 34 main_v28 main_v29 _ _ _ rfl (by decide) (by decide), st_main_v28 V]
  rfl
theorem st_main_v30 : after (ops (F := F)) V (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [Ssa.ssa_binary (ops (F := F)) W hW V 35 main_v27 main_v29 main_v30 _ _ _ _ rfl (by decide) (by decide) (by decide), st_main_v27 V, st_main_v29 V]
  rfl
theorem st_main_cst_3 : after (ops (F := F)) V (Proc.devRef .tc main_cst_3) = val_main_cst_3 (F := F) := by
  rw [Ssa.ssa_nullary (ops (F := F)) W hW V 36 main_cst_3 _ _ rfl (by decide)]
  rfl
theorem st_main_v31 : after (ops (F := F)) V (Proc.devRef .tc main_v31) = val_main_v31 (F := F) := by
  rw [Ssa.ssa_unary (ops (F := F)) W hW V 37 main_cst_3 main_v31 _ _ _ rfl (by decide) (by decide), st_main_cst_3 V]
  rfl
theorem st_main_v32 : after (ops (F := F)) V (Proc.devRef .tc main_v32) = val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [Ssa.ssa_binary (ops (F := F)) W hW V 38 main_v30 main_v31 main_v32 _ _ _ _ rfl (by decide) (by decide) (by decide), st_main_v30 V, st_main_v31 V]
  rfl
theorem st_main_v33 : after (ops (F := F)) V (Proc.devRef .tc main_v33) = val_main_v33 (F := F) (V (Proc.devRef .tc main_arg6)) := by
  rw [Ssa.ssa_unary (ops (F := F)) W hW V 39 main_arg6 main_v33 _ _ _ rfl (by decide) (by decide), st_main_arg6 V]
  rfl
theorem st_main_v34 : after (ops (F := F)) V (Proc.devRef .tc main_v34) = val_main_v34 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 40 main_v33 main_v30 main_v34 _ _ _ _ rfl (by decide) (by decide) (by decide), st_main_v33 V, st_main_v30 V]
  rfl
theorem st_main_v35 : after (ops (F := F)) V (Proc.devRef .tc main_v35) = val_main_v35 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_ternary (ops (F := F)) W hW V 41 main_v32 main_v30 main_v34 main_v35 _ _ _ _ _ rfl (by decide) (by decide) (by decide) (by decide), st_main_v32 V, st_main_v30 V, st_main_v34 V]
  rfl
theorem st_main_cst_4 : after (ops (F := F)) V (Proc.devRef .tc main_cst_4) = val_main_cst_4 (F := F) := by
  rw [Ssa.ssa_nullary (ops (F := F)) W hW V 42 main_cst_4 _ _ rfl (by decide)]
  rfl
theorem st_main_v36 : after (ops (F := F)) V (Proc.devRef .tc main_v36) = val_main_v36 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 43 main_v35 main_cst_4 main_v36 _ _ _ _ rfl (by decide) (by decide) (by decide), st_main_v35 V, st_main_cst_4 V]
  rfl
theorem st_main_cst_5 : after (ops (F := F)) V (Proc.devRef .tc main_cst_5) = val_main_cst_5 (F := F) := by
  rw [Ssa.ssa_nullary (ops (F := F)) W hW V 44 main_cst_5 _ _ rfl (by decide)]
  rfl
theorem st_main_v37 : after (ops (F := F)) V (Proc.devRef .tc main_v37) = val_main_v37 (F := F) := by
  rw [Ssa.ssa_unary (ops (F := F)) W hW V 45 main_cst_5 main_v37 _ _ _ rfl (by decide) (by decide), st_main_cst_5 V]
  rfl
theorem st_main_v38 : after (ops (F := F)) V (Proc.devRef .tc main_v38) = val_main_v38 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 46 main_v36 main_v37 main_v38 _ _ _ _ rfl (by decide) (by decide) (by decide), st_main_v36 V, st_main_v37 V]
  rfl
theorem st_main_v39 : after (ops (F := F)) V (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 47 main_v38 main_v39 _ _ _ rfl (by decide) (by decide), st_main_v38 V]
  rfl
theorem st_main_v40 : after (ops (F := F)) V (Proc.devRef .tc main_v40) = val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 48 main_v39 main_v40 _ _ _ rfl (by decide) (by decide), st_main_v39 V]
  rfl
theorem st_main_v41 : after (ops (F := F)) V (Proc.devRef .tc main_v41) = val_main_v41 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 49 main_v35 main_v40 main_v41 _ _ _ _ rfl (by decide) (by decide) (by decide), st_main_v35 V, st_main_v40 V]
  rfl
theorem st_main_v42 : after (ops (F := F)) V (Proc.devRef .tc main_v42) = val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 50 main_v41 main_v41 main_v42 _ _ _ _ rfl (by decide) (by decide) (by decide), st_main_v41 V]
  rfl
theorem st_main_cst_6 : after (ops (F := F)) V (Proc.devRef .tc main_cst_6) = val_main_cst_6 (F := F) := by
  rw [Ssa.ssa_nullary (ops (F := F)) W hW V 51 main_cst_6 _ _ rfl (by decide)]
  rfl
theorem st_main_v43 : after (ops (F := F)) V (Proc.devRef .tc main_v43) = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 52 main_v42 main_cst_6 main_v43 _ _ _ _ rfl (by decide) (by decide) (by decide), st_main_v42 V, st_main_cst_6 V]
  rfl
theorem st_main_cst_7 : after (ops (F := F)) V (Proc.devRef .tc main_cst_7) = val_main_cst_7 (F := F) := by
  rw [Ssa.ssa_nullary (ops (F := F)) W hW V 53 main_cst_7 _ _ rfl (by decide)]
  rfl
theorem st_main_v44 : after (ops (F := F)) V (Proc.devRef .tc main_v44) = val_main_v44 (F := F) := by
  rw [Ssa.ssa_unary (ops (F := F)) W hW V 54 main_cst_7 main_v44 _ _ _ rfl (by decide) (by decide), st_main_cst_7 V]
  rfl
theorem st_main_v45 : after (ops (F := F)) V (Proc.devRef .tc main_v45) = val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 55 main_v43 main_v44 main_v45 _ _ _ _ rfl (by decide) (by decide) (by decide), st_main_v43 V, st_main_v44 V]
  rfl
theorem st_main_v46 : after (ops (F := F)) V (Proc.devRef .tc main_v46) = val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 56 main_v38 main_v46 _ _ _ rfl (by decide) (by decide), st_main_v38 V]
  rfl
theorem st_main_v47 : after (ops (F := F)) V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 57 main_v46 main_v47 _ _ _ rfl (by decide) (by decide), st_main_v46 V]
  rfl
theorem st_main_v48 : after (ops (F := F)) V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 58 main_v35 main_v47 main_v48 _ _ _ _ rfl (by decide) (by decide) (by decide), st_main_v35 V, st_main_v47 V]
  rfl
theorem st_main_cst_8 : after (ops (F := F)) V (Proc.devRef .tc main_cst_8) = val_main_cst_8 (F := F) := by
  rw [Ssa.ssa_nullary (ops (F := F)) W hW V 59 main_cst_8 _ _ rfl (by decide)]
  rfl
theorem st_main_v49 : after (ops (F := F)) V (Proc.devRef .tc main_v49) = val_main_v49 (F := F) := by
  rw [Ssa.ssa_unary (ops (F := F)) W hW V 60 main_cst_8 main_v49 _ _ _ rfl (by decide) (by decide), st_main_cst_8 V]
  rfl
theorem st_main_v50 : after (ops (F := F)) V (Proc.devRef .tc main_v50) = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 61 main_v45 main_v49 main_v50 _ _ _ _ rfl (by decide) (by decide) (by decide), st_main_v45 V, st_main_v49 V]
  rfl
theorem st_main_v51 : after (ops (F := F)) V (Proc.devRef .tc main_v51) = val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 62 main_v50 main_v51 _ _ _ rfl (by decide) (by decide), st_main_v50 V]
  rfl
theorem st_main_v52 : after (ops (F := F)) V (Proc.devRef .tc main_v52) = val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 63 main_v51 main_v52 _ _ _ rfl (by decide) (by decide), st_main_v51 V]
  rfl
theorem st_main_v53 : after (ops (F := F)) V (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_unary (ops (F := F)) W hW V 64 main_v52 main_v53 _ _ _ rfl (by decide) (by decide), st_main_v52 V]
  rfl
theorem st_main_v54 : after (ops (F := F)) V (Proc.devRef .tc main_v54) = val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Ssa.ssa_binary (ops (F := F)) W hW V 65 main_v48 main_v53 main_v54 _ _ _ _ rfl (by decide) (by decide) (by decide), st_main_v48 V, st_main_v53 V]
  rfl
theorem st_main_v55 : after (ops (F := F)) V (Proc.devRef .tc main_v55) = val_main_v55 (F := F) (V (Proc.devRef .tc main_arg7)) := by
  rw [Ssa.ssa_unary (ops (F := F)) W hW V 66 main_arg7 main_v55 _ _ _ rfl (by decide) (by decide), st_main_arg7 V]
  rfl
theorem st_main_v56 : after (ops (F := F)) V (Proc.devRef .tc main_v56) = val_main_v56 (F := F) (V (Proc.devRef .tc main_arg7)) := by
  rw [Ssa.ssa_unary (ops (F := F)) W hW V 67 main_v55 main_v56 _ _ _ rfl (by decide) (by decide), st_main_v55 V]
  rfl
theorem st_main_v57 : after (ops (F := F)) V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [Ssa.ssa_binary (ops (F := F)) W hW V 68 main_v54 main_v56 main_v57 _ _ _ _ rfl (by decide) (by decide) (by decide), st_main_v54 V, st_main_v56 V]
  rfl
theorem st_main_v58 : after (ops (F := F)) V (Proc.devRef .tc main_v58) = val_main_v58 (F := F) (V (Proc.devRef .tc main_arg8)) := by
  rw [Ssa.ssa_unary (ops (F := F)) W hW V 69 main_arg8 main_v58 _ _ _ rfl (by decide) (by decide), st_main_arg8 V]
  rfl
theorem st_main_v59 : after (ops (F := F)) V (Proc.devRef .tc main_v59) = val_main_v59 (F := F) (V (Proc.devRef .tc main_arg8)) := by
  rw [Ssa.ssa_unary (ops (F := F)) W hW V 70 main_v58 main_v59 _ _ _ rfl (by decide) (by decide), st_main_v58 V]
  rfl
theorem st_main_v60 : after (ops (F := F)) V (Proc.devRef .tc main_v60) = val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [Ssa.ssa_binary (ops (F := F)) W hW V 71 main_v57 main_v59 main_v60 _ _ _ _ rfl (by decide) (by decide) (by decide), st_main_v57 V, st_main_v59 V]
  rfl

end Walk

/-! ## The run -/

/-- On every device, from any memory with zero counters: every weakly fair execution of the reference's @main terminates
    with its result array at the last stage of the argument arrays' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c main_v60).trans (st_main_v60 (launchContents m c)),
      (h c main_arg0).trans (st_main_arg0 (launchContents m c)),
      (h c main_arg1).trans (st_main_arg1 (launchContents m c)),
      (h c main_arg2).trans (st_main_arg2 (launchContents m c)),
      (h c main_arg3).trans (st_main_arg3 (launchContents m c)),
      (h c main_arg4).trans (st_main_arg4 (launchContents m c)),
      (h c main_arg5).trans (st_main_arg5 (launchContents m c)),
      (h c main_arg6).trans (st_main_arg6 (launchContents m c)),
      (h c main_arg7).trans (st_main_arg7 (launchContents m c)),
      (h c main_arg8).trans (st_main_arg8 (launchContents m c))⟩)
    (run_fold m ρ)

end Cert.ReferenceIdeal.Stages

end
-- ==== Proof.RefValue.lean ====
/-
  The reference computes the node update of the specification. Its last 35 host operations take the concatenated features
  (node features beside the summed messages) through the node layer, PReLU, the two column statistics and the
  normalisation; read one operation at a time and index by index, that is the specification's `nodeUpdate`.
-/
import proofs.«407081_j76914274337220_2_alg».proof.Proof.RefRead
import proofs.«407081_j76914274337220_2_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.ReferenceIdeal.NodeValue

open Cert.ReferenceIdeal Cert.ReferenceIdeal.Gen Cert.ReferenceIdeal.Read

/-! ## The node layer and its activation -/

/-- Before the activation: row `n` of the concatenated features against column `j` of the weights, plus the bias, which
    every row reads through the two broadcasts. -/
theorem lin_at (x0 : FVec Ideal S100000x64 .f32) (x1 : IVec S2x1600000 32) (x2 : FVec Ideal S128x64 .f32)
    (x3 : FVec Ideal S64 .f32) (x4 : FVec Ideal S128x64 .f32) (x5 : FVec Ideal S64 .f32)
    (n : Fin 100000) (j : Fin 64) :
    val_main_v30 (F := Ideal) x0 x1 x2 x3 x4 x5 (ix2 n j) = Cert.Gnn.lin (val_main_v26 (F := Ideal) x0 x1 x2 x3) x4 x5 n j := by
  have el : ∀ k : Fin 128, lidx_main_v27 (ix2 n j) k = ix2 n k := fun k => funext fun a => Fin.ext (by match a with | ⟨0, _⟩ => rfl | ⟨1, _⟩ => rfl)
  have er : ∀ k : Fin 128, ridx_main_v27 (ix2 n j) k = ix2 k j := fun k => funext fun a => Fin.ext (by match a with | ⟨0, _⟩ => rfl | ⟨1, _⟩ => rfl)
  have eb : idx_main_v28 (idx_main_v29 (ix2 n j)) = ix1 j := funext fun a => Fin.ext (by match a with | ⟨0, _⟩ => rfl)
  rw [val_main_v30_apply, val_main_v27_apply, val_main_v29_apply, val_main_v28_apply, eb]
  simp only [el, er]
  rfl

/-- The activation: the value itself where it is at least the zero word, the slope times it elsewhere. -/
theorem act_at (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (n : Fin 100000) (j : Fin 64) :
    val_main_v35 (F := Ideal) x0 x1 x2 x3 x4 x5 x6 (ix2 n j) = Cert.Gnn.act (val_main_v26 (F := Ideal) x0 x1 x2 x3) x4 x5 x6 n j := by
  have ea : idx_main_v33 (ix2 n j) = ix0 := funext fun a => a.elim0
  rw [val_main_v35_apply, val_main_v32_apply, val_main_v34_apply, val_main_v33_apply, val_main_v31_apply,
    val_main_cst_3_apply, lin_at, ea]
  rfl

/-! ## The two column statistics -/

/-- The column mean: the zero word plus the column's sum over the nodes, divided by the number of nodes. -/
theorem mean_at (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (j : Fin 64) :
    val_main_v38 (F := Ideal) x0 x1 x2 x3 x4 x5 x6 (ix1 j) = Cert.Gnn.colMean (Cert.Gnn.act (val_main_v26 (F := Ideal) x0 x1 x2 x3) x4 x5 x6) j := by
  have e : ∀ k : Fin 100000, idx_main_v36 (ix1 j) k = ix2 k j := fun k => funext fun a => Fin.ext (by match a with | ⟨0, _⟩ => rfl | ⟨1, _⟩ => rfl)
  rw [val_main_v38_apply, val_main_v36_apply, val_main_v37_apply, val_main_cst_5_apply, val_main_cst_4_apply]
  simp only [e, act_at]
  rfl

/-- An entry's deviation from its column's mean, which every row reads through the two broadcasts. -/
theorem dev_at (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (n : Fin 100000) (j : Fin 64) :
    val_main_v41 (F := Ideal) x0 x1 x2 x3 x4 x5 x6 (ix2 n j) = (Cert.Gnn.act (val_main_v26 (F := Ideal) x0 x1 x2 x3) x4 x5 x6) n j - (Cert.Gnn.colMean (Cert.Gnn.act (val_main_v26 (F := Ideal) x0 x1 x2 x3) x4 x5 x6)) j := by
  have e : idx_main_v39 (idx_main_v40 (ix2 n j)) = ix1 j := funext fun a => Fin.ext (by match a with | ⟨0, _⟩ => rfl)
  rw [val_main_v41_apply, val_main_v40_apply, val_main_v39_apply, act_at, e, mean_at]
  rfl

/-- The column variance: the zero word plus the sum of the squared deviations, divided by the number of nodes. -/
theorem var_at (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (j : Fin 64) :
    val_main_v45 (F := Ideal) x0 x1 x2 x3 x4 x5 x6 (ix1 j) = Cert.Gnn.colVar (Cert.Gnn.act (val_main_v26 (F := Ideal) x0 x1 x2 x3) x4 x5 x6) (Cert.Gnn.colMean (Cert.Gnn.act (val_main_v26 (F := Ideal) x0 x1 x2 x3) x4 x5 x6)) j := by
  have e : ∀ k : Fin 100000, idx_main_v43 (ix1 j) k = ix2 k j := fun k => funext fun a => Fin.ext (by match a with | ⟨0, _⟩ => rfl | ⟨1, _⟩ => rfl)
  rw [val_main_v45_apply, val_main_v43_apply, val_main_v44_apply, val_main_cst_7_apply, val_main_cst_6_apply]
  simp only [e, val_main_v42_apply, dev_at]
  rfl

/-! ## The normalisation -/

/-- The result at node `n`, feature `j`: the deviation from the mean, times the reciprocal square root of the variance
    plus `ε`, times the scale, plus the shift; mean, reciprocal root, scale and shift each read through two broadcasts. -/
theorem result_at (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (x7 x8 : FVec Ideal S64 .f32) (n : Fin 100000) (j : Fin 64) :
    val_main_v60 (F := Ideal) x0 x1 x2 x3 x4 x5 x6 x7 x8 (ix2 n j)
      = Cert.Gnn.nodeUpdate (val_main_v26 (F := Ideal) x0 x1 x2 x3) x4 x5 x6 x7 x8 n j := by
  have eμ : idx_main_v46 (idx_main_v47 (ix2 n j)) = ix1 j := funext fun a => Fin.ext (by match a with | ⟨0, _⟩ => rfl)
  have eσ : idx_main_v52 (idx_main_v53 (ix2 n j)) = ix1 j := funext fun a => Fin.ext (by match a with | ⟨0, _⟩ => rfl)
  have eγ : idx_main_v55 (idx_main_v56 (ix2 n j)) = ix1 j := funext fun a => Fin.ext (by match a with | ⟨0, _⟩ => rfl)
  have eβ : idx_main_v58 (idx_main_v59 (ix2 n j)) = ix1 j := funext fun a => Fin.ext (by match a with | ⟨0, _⟩ => rfl)
  rw [val_main_v60_apply, val_main_v57_apply, val_main_v54_apply, val_main_v48_apply, val_main_v47_apply,
    val_main_v46_apply, val_main_v53_apply, val_main_v52_apply, val_main_v51_apply, val_main_v50_apply,
    val_main_v49_apply, val_main_cst_8_apply, val_main_v56_apply, val_main_v55_apply, val_main_v59_apply,
    val_main_v58_apply, act_at, eμ, eσ, eγ, eβ, mean_at, var_at]
  rfl

/-- The reference's result stage is the specification's node update of its concatenated-features stage. -/
theorem result_eq (x0 : FVec Ideal S100000x64 .f32) (x1 : IVec S2x1600000 32) (x2 : FVec Ideal S128x64 .f32)
    (x3 : FVec Ideal S64 .f32) (x4 : FVec Ideal S128x64 .f32) (x5 : FVec Ideal S64 .f32) (x6 : FVec Ideal S_ .f32)
    (x7 x8 : FVec Ideal S64 .f32) :
    val_main_v60 (F := Ideal) x0 x1 x2 x3 x4 x5 x6 x7 x8
      = Cert.Gnn.nodeUpdateArr (val_main_v26 (F := Ideal) x0 x1 x2 x3) x4 x5 x6 x7 x8 := by
  funext i
  obtain ⟨n, j, rfl⟩ : ∃ (n : Fin 100000) (j : Fin 64), i = ix2 n j := ⟨i 0, i 1, eq_ix2 i⟩
  exact result_at x0 x1 x2 x3 x4 x5 x6 x7 x8 n j

end Cert.ReferenceIdeal.NodeValue

end
-- ==== Proof.lean ====
/-
  The certificate of the message-passing layer: a Pallas kernel in four launches against its jnp reference, equal over
  the extended reals wherever every float input is finite and every entry of the edge list is a node number.

  Both programs compute, for every node, the sum over its incoming edges of a linear message of the two end points'
  features, put it beside the node's own features, and pass the pair through a linear layer, PReLU and a batch
  normalisation over the nodes (`Gnn.nodeUpdate`, Proof/Spec.lean). They differ in how the messages are summed: the
  reference multiplies every edge's concatenated end-point features by the edge weights and sums the products onto the
  destinations; the kernel multiplies every NODE's features once by the two halves of the edge weights, gathers the
  first half's product at the edges' sources, sums that onto the destinations, and adds the in-degree times the second
  half's product. The two sums are equal term by term over the edges arriving at a node (Proof/EdgeSplit.lean), provided
  the edge list names nodes: outside that range the reference's gather clamps where the kernel's take fills in a
  not-a-number, which is why the statement carries the range conjunct.

  The kernel's run is its generated frame run with the result named (Proof/KernelRun.lean); the four launches are read
  as values in Proof/Proj.lean, NodeLayer.lean, SqDev.lean and Normalise.lean, chained through the host operations
  between them in Proof/HostChain.lean and Proof/KernelValue.lean. The reference's run is read one operation at a time
  (Proof/RefStages.lean) and as the specification (Proof/RefValue.lean).
-/
import proofs.«407081_j76914274337220_2_alg».proof.Defs
import proofs.«407081_j76914274337220_2_alg».proof.Proof.Gen.Kernel
import proofs.«407081_j76914274337220_2_alg».proof.Proof.Gen.Kernel.Frame
import proofs.«407081_j76914274337220_2_alg».proof.Proof.Gen.KernelIdeal
import proofs.«407081_j76914274337220_2_alg».proof.Proof.Gen.KernelIdeal.Frame
import proofs.«407081_j76914274337220_2_alg».proof.Proof.Gen.ReferenceIdeal
import proofs.«407081_j76914274337220_2_alg».proof.Proof.Gen.Pre_finite_inputs
import proofs.«407081_j76914274337220_2_alg».proof.Proof.KernelRun
import proofs.«407081_j76914274337220_2_alg».proof.Proof.KernelValue
import proofs.«407081_j76914274337220_2_alg».proof.Proof.EdgeSplit
import proofs.«407081_j76914274337220_2_alg».proof.Proof.EdgeRange
import proofs.«407081_j76914274337220_2_alg».proof.Proof.RefStages
import proofs.«407081_j76914274337220_2_alg».proof.Proof.RefValue
import Idealize.ShloMosaic.Adequacy
import Idealize.ShloMosaic.Init

noncomputable section

namespace Cert.Proof

open Idealize.ShloMosaic Idealize.SL.Sem

/-- The word-level kernel runs and leaves its arguments alone: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

open Cert.KernelIdeal.NodeValue in
/-- Both programs end with the specification's node update of the same concatenated features. -/
theorem algebraic : Cert.algebraic_KernelIdeal_ReferenceIdeal := by
  intro m ρ m' ρ' hpre hagree
  refine ⟨fun c => Cert.Gnn.nodeUpdateArr (xa m c) (wnA m c) (bnA m c) (aA m c) (gA m c) (btA m c), ?_, ?_⟩
  · exact (θ_run Cert.KernelIdeal.defs _ _).mono (fun _ h c => ⟨(h c).1.trans (result_eq m ρ c), (h c).2⟩)
      (Cert.KernelIdeal.Gen.run_main m ρ)
  · refine (θ_run Cert.ReferenceIdeal.defs _ _).mono (fun _ h c => ⟨(h c).1.trans ?_, (h c).2⟩)
      (Cert.ReferenceIdeal.Stages.run (F := Ideal) m' ρ')
    obtain ⟨h0, h1, h2, h3, h4, h5, h6, h7, h8⟩ := hagree c
    rw [h0, h1, h2, h3, h4, h5, h6, h7, h8, Cert.ReferenceIdeal.NodeValue.result_eq]
    have hrange := Cert.Pre_finite_inputs.Range.edge_in_range (F := Ideal) _ _ _ _ _ _ _ _ _ (hpre c)
    have hagg := Cert.EdgeSplit.aggregate_eq (xA m c) (eiA m c) (weA m c) (beA m c) hrange
    show Cert.Gnn.nodeUpdateArr (Cert.ReferenceIdeal.Read.val_main_v26 (F := Ideal) (xA m c) (eiA m c) (weA m c) (beA m c)) _ _ _ _ _ = _
    unfold Cert.ReferenceIdeal.Read.val_main_v26
    rw [← hagg]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
